-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x512 : Shape := ⟨2, ![11008, 512]⟩
abbrev S4096x1376 : Shape := ⟨2, ![4096, 1376]⟩
abbrev S11008x32 : Shape := ⟨2, ![11008, 32]⟩
abbrev S4096x86 : Shape := ⟨2, ![4096, 86]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S4096x86 : S_.BroadcastsInDim S4096x86 (![] : Fin 0 → Fin S4096x86.rank)
  reducesTo_S4096x86_S_d0_1 : S4096x86.ReducesTo [0, 1] S_

variable [Facts]

def fn_part1 {F : FTy → Type} [FloatOps F] (main_arg7 : FVec F S4096x86 .f32) (main_v13 : IVec S_ 1) (main_v16 : IVec S11008x32 1) : IVec S_ 1 :=
  let main_c_5 : IVec S_ 1 := constantI S_ 1 1#1
  let main_v17 : IVec S_ 1 := (fun x v => Host.reduce IntOp.andi x v reducesTo_S11008x32_S_d0_1 h_S_) main_v16 main_c_5
  let main_v18 : IVec S_ 1 := andi main_v13 main_v17
  let main_v19 : FVec F S4096x86 .f32 := Host.absf main_arg7
  let main_cst_6 : FVec F S_ .f32 := constant S_ .f32 0x7F800000#32
  let main_v20 : FVec F S4096x86 .f32 := broadcastInDim S4096x86 ![] bcast_S_S4096x86 main_cst_6
  let main_v21 : IVec S4096x86 1 := cmpf .olt main_v19 main_v20
  let main_c_7 : IVec S_ 1 := constantI S_ 1 1#1
  let main_v22 : IVec S_ 1 := (fun x v => Host.reduce IntOp.andi x v reducesTo_S4096x86_S_d0_1 h_S_) main_v21 main_c_7
  let main_v23 : IVec S_ 1 := andi main_v18 main_v22
  main_v23

def fn {F : FTy → Type} [FloatOps F] (main_arg0 : FVec F S2x2048x4096 .f32) (main_arg1 : FVec F S2x2048x4096 .f32) (main_arg2 : IVec S11008x512 32) (main_arg3 : IVec S11008x512 32) (main_arg4 : IVec S4096x1376 32) (main_arg5 : FVec F S11008x32 .f32) (main_arg6 : FVec F S11008x32 .f32) (main_arg7 : FVec F S4096x86 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S2x2048x4096 .f32 := Host.absf main_arg1
  let main_cst_0 : FVec F S_ .f32 := constant S_ .f32 0x7F800000#32
  let main_v5 : FVec F S2x2048x4096 .f32 := broadcastInDim S2x2048x4096 ![] bcast_S_S2x2048x4096 main_cst_0
  let main_v6 : IVec S2x2048x4096 1 := cmpf .olt main_v4 main_v5
  let main_c_1 : IVec S_ 1 := constantI S_ 1 1#1
  let main_v7 : IVec S_ 1 := (fun x v => Host.reduce IntOp.andi x v reducesTo_S2x2048x4096_S_d0_1_2 h_S_) main_v6 main_c_1
  let main_v8 : IVec S_ 1 := andi main_v3 main_v7
  let main_v9 : FVec F S11008x32 .f32 := Host.absf main_arg5
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S11008x32 .f32 := Host.absf main_arg6
  let main_cst_4 : FVec F S_ .f32 := constant S_ .f32 0x7F800000#32
  let main_v15 : FVec F S11008x32 .f32 := broadcastInDim S11008x32 ![] bcast_S_S11008x32 main_cst_4
  let main_v16 : IVec S11008x32 1 := cmpf .olt main_v14 main_v15
  fn_part1 (F := F) main_arg7 main_v13 main_v16
-- ==== Kernel.lean ====
abbrev S2x2048x4096 : Shape := ⟨3, ![2, 2048, 4096]⟩
abbrev S11008x512 : Shape := ⟨2, ![11008, 512]⟩
abbrev S4096x1376 : Shape := ⟨2, ![4096, 1376]⟩
abbrev S11008x32 : Shape := ⟨2, ![11008, 32]⟩
abbrev S4096x86 : Shape := ⟨2, ![4096, 86]⟩
abbrev S4096x4096 : Shape := ⟨2, ![4096, 4096]⟩
abbrev S4096x11008 : Shape := ⟨2, ![4096, 11008]⟩
abbrev S256x4096 : Shape := ⟨2, ![256, 4096]⟩
abbrev S128x512 : Shape := ⟨2, ![128, 512]⟩
abbrev S128x32 : Shape := ⟨2, ![128, 32]⟩
abbrev S256x128 : Shape := ⟨2, ![256, 128]⟩
abbrev S1x8 : Shape := ⟨2, ![1, 8]⟩
abbrev S8 : Shape := ⟨1, ![8]⟩
abbrev S128x512x1 : Shape := ⟨3, ![128, 512, 1]⟩
abbrev S1x1x8 : Shape := ⟨3, ![1, 1, 8]⟩
abbrev S128x512x8 : Shape := ⟨3, ![128, 512, 8]⟩
abbrev S128x4096 : Shape := ⟨2, ![128, 4096]⟩
abbrev S128x32x128 : Shape := ⟨3, ![128, 32, 128]⟩
abbrev S128x32x1 : Shape := ⟨3, ![128, 32, 1]⟩
abbrev S4096x86x16 : Shape := ⟨3, ![4096, 86, 16]⟩
abbrev S86x4096x16 : Shape := ⟨3, ![86, 4096, 16]⟩
abbrev S86x4096 : Shape := ⟨2, ![86, 4096]⟩
abbrev S86x4096x1 : Shape := ⟨3, ![86, 4096, 1]⟩
abbrev S128x128 : Shape := ⟨2, ![128, 128]⟩
abbrev S128x1024 : Shape := ⟨2, ![128, 1024]⟩
abbrev S1x1024x16 : Shape := ⟨3, ![1, 1024, 16]⟩
abbrev S1x1024x1 : Shape := ⟨3, ![1, 1024, 1]⟩
abbrev S1024x16 : Shape := ⟨2, ![1024, 16]⟩
abbrev S1024x1 : Shape := ⟨2, ![1024, 1]⟩
abbrev S1024x16x1 : Shape := ⟨3, ![1024, 16, 1]⟩
abbrev S1024x16x8 : Shape := ⟨3, ![1024, 16, 8]⟩
abbrev S1024x128 : Shape := ⟨2, ![1024, 128]⟩
abbrev S1024x1x128 : Shape := ⟨3, ![1024, 1, 128]⟩
abbrev S1024x1x1 : Shape := ⟨3, ![1024, 1, 1]⟩

abbrev nBuf : Space → Nat
  | .hbm => 17
  | .vmem => 23
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S11008x512, .i32⟩
  | .hbm, ⟨3, _⟩ => ⟨S11008x512, .i32⟩
  | .hbm, ⟨4, _⟩ => ⟨S4096x1376, .i32⟩
  | .hbm, ⟨5, _⟩ => ⟨S11008x32, .f32⟩
  | .hbm, ⟨6, _⟩ => ⟨S11008x32, .f32⟩
  | .hbm, ⟨7, _⟩ => ⟨S4096x86, .f32⟩
  | .hbm, ⟨8, _⟩ => ⟨S4096x4096, .f32⟩
  | .hbm, ⟨9, _⟩ => ⟨S4096x4096, .f32⟩
  | .hbm, ⟨10, _⟩ => ⟨S4096x11008, .bf16⟩
  | .hbm, ⟨11, _⟩ => ⟨S4096x86x16, .i32⟩
  | .hbm, ⟨12, _⟩ => ⟨S86x4096x16, .i32⟩
  | .hbm, ⟨13, _⟩ => ⟨S86x4096, .f32⟩
  | .hbm, ⟨14, _⟩ => ⟨S86x4096x1, .f32⟩
  | .hbm, ⟨15, _⟩ => ⟨S4096x4096, .f32⟩
  | .hbm, ⟨16, _⟩ => ⟨S2x2048x4096, .f32⟩
  | .local _ .vmem, ⟨0, _⟩ => ⟨S256x4096, .f32⟩
  | .local _ .vmem, ⟨1, _⟩ => ⟨S256x4096, .f32⟩
  | .local _ .vmem, ⟨2, _⟩ => ⟨S128x512, .i32⟩
  | .local _ .vmem, ⟨3, _⟩ => ⟨S128x512, .i32⟩
  | .local _ .vmem, ⟨4, _⟩ => ⟨S128x512, .i32⟩
  | .local _ .vmem, ⟨5, _⟩ => ⟨S128x512, .i32⟩
  | .local _ .vmem, ⟨6, _⟩ => ⟨S128x32, .f32⟩
  | .local _ .vmem, ⟨7, _⟩ => ⟨S128x32, .f32⟩
  | .local _ .vmem, ⟨8, _⟩ => ⟨S128x32, .f32⟩
  | .local _ .vmem, ⟨9, _⟩ => ⟨S128x32, .f32⟩
  | .local _ .vmem, ⟨10, _⟩ => ⟨S256x128, .bf16⟩
  | .local _ .vmem, ⟨11, _⟩ => ⟨S256x128, .bf16⟩
  | .local _ .vmem, ⟨12, _⟩ => ⟨S128x128, .bf16⟩
  | .local _ .vmem, ⟨13, _⟩ => ⟨S128x128, .bf16⟩
  | .local _ .vmem, ⟨14, _⟩ => ⟨S128x1024, .f32⟩
  | .local _ .vmem, ⟨15, _⟩ => ⟨S128x1024, .f32⟩
  | .local _ .vmem, ⟨16, _⟩ => ⟨S1x1024x16, .i32⟩
  | .local _ .vmem, ⟨17, _⟩ => ⟨S1x1024x16, .i32⟩
  | .local _ .vmem, ⟨18, _⟩ => ⟨S1x1024x1, .f32⟩
  | .local _ .vmem, ⟨19, _⟩ => ⟨S1x1024x1, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![16, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 32, 86], ![false, false, false]⟩

def k1_cond2 (i : grid1.Coords) : BitVec 1 :=
  let arg2 : BitVec 32 := BitVec.ofNat 32 (i 2).val
  let c85_i32 : BitVec 32 := 85#32
  let v40 : BitVec 1 := Scalar.cmpi .eq arg2 c85_i32
  let v41 : BitVec 32 := Scalar.extui v40
  let c0_i32_12 : BitVec 32 := 0#32
  let v42 : BitVec 1 := Scalar.cmpi .ne v41 c0_i32_12
  v42

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S128x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1024x16 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S2x2048x4096_S4096x4096 : S2x2048x4096.ShapeCasts S4096x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S128x32_S128x32_0_0 : ∀ a, (![0, 0] : Fin 2 → Nat) a + S128x32.size a ≤ S128x32.size a
  h_S128x32 : 0 < S128x32.numel
  iota_S1x8_d1_w32 : S1x8.Iotas .tc 32 [1]
  shapeCasts_S1x8_S8 : S1x8.ShapeCasts S8
  shapeCasts_S128x512_S128x512x1 : S128x512.ShapeCasts S128x512x1
  shapeCasts_S8_S1x1x8 : S8.ShapeCasts S1x1x8
  broadcasts_S128x512x1_S128x512x8 : S128x512x1.Broadcasts S128x512x8
  broadcasts_S1x1x8_S128x512x8 : S1x1x8.Broadcasts S128x512x8
  natLt_1_32 : 1 < 32
  shapeCasts_S128x512x8_S128x4096 : S128x512x8.ShapeCasts S128x4096
  shapeCasts_S128x4096_S128x32x128 : S128x4096.ShapeCasts S128x32x128
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  inb_S256x128_S256x128_0_0 : ∀ a, (![0, 0] : Fin 2 → Nat) a + S256x128.size a ≤ S256x128.size a
  h_S256x128 : 0 < S256x128.numel
  packedbf16_S256x128_S256x128_0_0 : (Rect.unit (s := S256x128) ![0, 0] S256x128.size inb_S256x128_S256x128_0_0).PackedRows (EltTy.packing .bf16)
  shapeCasts_S4096x1376_S4096x86x16 : S4096x1376.ShapeCasts S4096x86x16
  transposes_S4096x86x16_S86x4096x16_1_0_2 : S4096x86x16.Transposes [1, 0, 2] S86x4096x16
  transposes_S4096x86_S86x4096_1_0 : S4096x86.Transposes [1, 0] S86x4096
  bcast_S86x4096_S86x4096x1_0_1 : S86x4096.BroadcastsInDim S86x4096x1 (![0, 1] : Fin 2 → Fin S86x4096x1.rank)
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x16_S1024x16x1 : S1024x16.ShapeCasts S1024x16x1
  broadcasts_S1024x16x1_S1024x16x8 : S1024x16x1.Broadcasts S1024x16x8
  broadcasts_S1x1x8_S1024x16x8 : S1x1x8.Broadcasts S1024x16x8
  shapeCasts_S1024x16x8_S1024x128 : S1024x16x8.ShapeCasts S1024x128
  shapeCasts_S1024x128_S1024x1x128 : S1024x128.ShapeCasts S1024x1x128
  shapeCasts_S1024x1_S1024x1x1 : S1024x1.ShapeCasts S1024x1x1
  broadcasts_S1024x1x1_S1024x1x128 : S1024x1x1.Broadcasts S1024x1x128
  shapeCasts_S1024x1x128_S1024x128 : S1024x1x128.ShapeCasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S4096x4096_S2x2048x4096 : S4096x4096.ShapeCasts S2x2048x4096
  dot_S256x4096_S128x4096_S256x128_1_1_0_0_n_n_wf : DotDims.WF S256x4096 S128x4096 S256x128 [1] [1] [0] [0] [] []
  dot_S128x128_S1024x128_S128x1024_1_1_0_0_n_n_wf : DotDims.WF S128x128 S1024x128 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S11008x512.size a
  hwx0_1 : ∀ i : grid0.Coords, EltTy.bits .i32 = 32 ∨ (Rect.block (s := S11008x512) S128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S11008x512.size a
  hwx0_2 : ∀ i : grid0.Coords, EltTy.bits .i32 = 32 ∨ (Rect.block (s := S11008x512) S128x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S11008x32.size a
  hwx0_3 : ∀ i : grid0.Coords, EltTy.bits .f32 = 32 ∨ (Rect.block (s := S11008x32) S128x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S11008x32.size a
  hwx0_4 : ∀ i : grid0.Coords, EltTy.bits .f32 = 32 ∨ (Rect.block (s := S11008x32) S128x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S4096x11008.size a
  hwx0_5 : ∀ i : grid0.Coords, EltTy.bits .bf16 = 32 ∨ (Rect.block (s := S4096x11008) S256x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S4096x11008.size a
  hwx1_0 : ∀ i : grid1.Coords, EltTy.bits .bf16 = 32 ∨ (Rect.block (s := S4096x11008) S128x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S4096x4096.size a
  hwx1_1 : ∀ i : grid1.Coords, EltTy.bits .f32 = 32 ∨ (Rect.block (s := S4096x4096) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x16.size a ≤ S86x4096x16.size a
  hwx1_2 : ∀ i : grid1.Coords, EltTy.bits .i32 = 32 ∨ (Rect.block (s := S86x4096x16) S1x1024x16.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1.size a ≤ S86x4096x1.size a
  hwx1_3 : ∀ i : grid1.Coords, EltTy.bits .f32 = 32 ∨ (Rect.block (s := S86x4096x1) S1x1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1024.size a ≤ S4096x4096.size a
  hwx1_4 : ∀ i : grid1.Coords, EltTy.bits .f32 = 32 ∨ (Rect.block (s := S4096x4096) S128x1024.size (cc1_transform_4 i) (hinb1_4 i)).WholeWords (EltTy.packing .f32)

variable [Facts₀]

def dot_S256x4096_S128x4096_S256x128_1_1_0_0_n_n : DotDims S256x4096 S128x4096 S256x128 where
  lhsContracting := [1]
  rhsContracting := [1]
  lhsNonContracting := [0]
  rhsNonContracting := [0]
  lhsBatch := []
  rhsBatch := []
  wf := dot_S256x4096_S128x4096_S256x128_1_1_0_0_n_n_wf
def dot_S128x128_S1024x128_S128x1024_1_1_0_0_n_n : DotDims S128x128 S1024x128 S128x1024 where
  lhsContracting := [1]
  rhsContracting := [1]
  lhsNonContracting := [0]
  rhsNonContracting := [0]
  lhsBatch := []
  rhsBatch := []
  wf := dot_S128x128_S1024x128_S128x1024_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S11008x512 : Shape := ⟨2, ![11008, 512]⟩
abbrev S4096x1376 : Shape := ⟨2, ![4096, 1376]⟩
abbrev S11008x32 : Shape := ⟨2, ![11008, 32]⟩
abbrev S4096x86 : Shape := ⟨2, ![4096, 86]⟩
abbrev S8 : Shape := ⟨1, ![8]⟩
abbrev S_ : Shape := ⟨0, ![]⟩
abbrev S11008x512x1 : Shape := ⟨3, ![11008, 512, 1]⟩
abbrev S1x1x8 : Shape := ⟨3, ![1, 1, 8]⟩
abbrev S11008x512x8 : Shape := ⟨3, ![11008, 512, 8]⟩
abbrev S11008x4096 : Shape := ⟨2, ![11008, 4096]⟩
abbrev S11008x32x128 : Shape := ⟨3, ![11008, 32, 128]⟩
abbrev S11008x32x1 : Shape := ⟨3, ![11008, 32, 1]⟩
abbrev S4096x1376x1 : Shape := ⟨3, ![4096, 1376, 1]⟩
abbrev S4096x1376x8 : Shape := ⟨3, ![4096, 1376, 8]⟩
abbrev S4096x11008 : Shape := ⟨2, ![4096, 11008]⟩
abbrev S4096x86x128 : Shape := ⟨3, ![4096, 86, 128]⟩
abbrev S4096x86x1 : Shape := ⟨3, ![4096, 86, 1]⟩
abbrev S2x2048 : Shape := ⟨2, ![2, 2048]⟩
abbrev S2x2048x1 : Shape := ⟨3, ![2, 2048, 1]⟩
abbrev S2x2048x11008 : Shape := ⟨3, ![2, 2048, 11008]⟩

abbrev nBuf : Space → Nat
  | .hbm => 133
  | .vmem => 0
  | .smem => 0
  | _ => 0

abbrev hbmTy0_0 (i : Nat) : BufTy := match i % 128 with
  | 0 => ⟨S2x2048x4096, .f32⟩
  | 1 => ⟨S2x2048x4096, .f32⟩
  | 2 => ⟨S11008x512, .i32⟩
  | 3 => ⟨S11008x512, .i32⟩
  | 4 => ⟨S4096x1376, .i32⟩
  | 5 => ⟨S11008x32, .f32⟩
  | 6 => ⟨S11008x32, .f32⟩
  | 7 => ⟨S4096x86, .f32⟩
  | 8 => ⟨S8, .i32⟩
  | 9 => ⟨S_, .i32⟩
  | 10 => ⟨S8, .i32⟩
  | 11 => ⟨S8, .i32⟩
  | 12 => ⟨S11008x512x1, .i32⟩
  | 13 => ⟨S1x1x8, .i32⟩
  | 14 => ⟨S11008x512x8, .i32⟩
  | 15 => ⟨S11008x512x8, .i32⟩
  | 16 => ⟨S11008x512x8, .i32⟩
  | 17 => ⟨S_, .i32⟩
  | 18 => ⟨S11008x512x8, .i32⟩
  | 19 => ⟨S11008x512x8, .i32⟩
  | 20 => ⟨S_, .i32⟩
  | 21 => ⟨S11008x512x8, .i32⟩
  | 22 => ⟨S11008x512x8, .i1⟩
  | 23 => ⟨S11008x512x8, .i32⟩
  | 24 => ⟨S_, .i32⟩
  | 25 => ⟨S11008x512x8, .i32⟩
  | 26 => ⟨S11008x512x8, .i32⟩
  | 27 => ⟨S11008x512x8, .i32⟩
  | 28 => ⟨S11008x4096, .i32⟩
  | 29 => ⟨S11008x32x128, .i32⟩
  | 30 => ⟨S11008x32x128, .f32⟩
  | 31 => ⟨S11008x32x1, .f32⟩
  | 32 => ⟨S11008x32x128, .f32⟩
  | 33 => ⟨S11008x32x128, .f32⟩
  | 34 => ⟨S11008x4096, .f32⟩
  | 35 => ⟨S8, .i32⟩
  | 36 => ⟨S_, .i32⟩
  | 37 => ⟨S8, .i32⟩
  | 38 => ⟨S8, .i32⟩
  | 39 => ⟨S11008x512x1, .i32⟩
  | 40 => ⟨S1x1x8, .i32⟩
  | 41 => ⟨S11008x512x8, .i32⟩
  | 42 => ⟨S11008x512x8, .i32⟩
  | 43 => ⟨S11008x512x8, .i32⟩
  | 44 => ⟨S_, .i32⟩
  | 45 => ⟨S11008x512x8, .i32⟩
  | 46 => ⟨S11008x512x8, .i32⟩
  | 47 => ⟨S_, .i32⟩
  | 48 => ⟨S11008x512x8, .i32⟩
  | 49 => ⟨S11008x512x8, .i1⟩
  | 50 => ⟨S11008x512x8, .i32⟩
  | 51 => ⟨S_, .i32⟩
  | 52 => ⟨S11008x512x8, .i32⟩
  | 53 => ⟨S11008x512x8, .i32⟩
  | 54 => ⟨S11008x512x8, .i32⟩
  | 55 => ⟨S11008x4096, .i32⟩
  | 56 => ⟨S11008x32x128, .i32⟩
  | 57 => ⟨S11008x32x128, .f32⟩
  | 58 => ⟨S11008x32x1, .f32⟩
  | 59 => ⟨S11008x32x128, .f32⟩
  | 60 => ⟨S11008x32x128, .f32⟩
  | 61 => ⟨S11008x4096, .f32⟩
  | 62 => ⟨S8, .i32⟩
  | 63 => ⟨S_, .i32⟩
  | 64 => ⟨S8, .i32⟩
  | 65 => ⟨S8, .i32⟩
  | 66 => ⟨S4096x1376x1, .i32⟩
  | 67 => ⟨S1x1x8, .i32⟩
  | 68 => ⟨S4096x1376x8, .i32⟩
  | 69 => ⟨S4096x1376x8, .i32⟩
  | 70 => ⟨S4096x1376x8, .i32⟩
  | 71 => ⟨S_, .i32⟩
  | 72 => ⟨S4096x1376x8, .i32⟩
  | 73 => ⟨S4096x1376x8, .i32⟩
  | 74 => ⟨S_, .i32⟩
  | 75 => ⟨S4096x1376x8, .i32⟩
  | 76 => ⟨S4096x1376x8, .i1⟩
  | 77 => ⟨S4096x1376x8, .i32⟩
  | 78 => ⟨S_, .i32⟩
  | 79 => ⟨S4096x1376x8, .i32⟩
  | 80 => ⟨S4096x1376x8, .i32⟩
  | 81 => ⟨S4096x1376x8, .i32⟩
  | 82 => ⟨S4096x11008, .i32⟩
  | 83 => ⟨S4096x86x128, .i32⟩
  | 84 => ⟨S4096x86x128, .f32⟩
  | 85 => ⟨S4096x86x1, .f32⟩
  | 86 => ⟨S4096x86x128, .f32⟩
  | 87 => ⟨S4096x86x128, .f32⟩
  | 88 => ⟨S4096x11008, .f32⟩
  | 89 => ⟨S2x2048x4096, .f32⟩
  | 90 => ⟨S_, .f32⟩
  | 91 => ⟨S2x2048, .f32⟩
  | 92 => ⟨S2x2048x1, .f32⟩
  | 93 => ⟨S_, .f32⟩
  | 94 => ⟨S2x2048x1, .f32⟩
  | 95 => ⟨S2x2048x1, .f32⟩
  | 96 => ⟨S_, .f32⟩
  | 97 => ⟨S2x2048x1, .f32⟩
  | 98 => ⟨S2x2048x1, .f32⟩
  | 99 => ⟨S2x2048x4096, .f32⟩
  | 100 => ⟨S2x2048x4096, .f32⟩
  | 101 => ⟨S2x2048x11008, .f32⟩
  | 102 => ⟨S2x2048x11008, .f32⟩
  | 103 => ⟨S2x2048x11008, .f32⟩
  | 104 => ⟨S2x2048x11008, .f32⟩
  | 105 => ⟨S2x2048x11008, .f32⟩
  | 106 => ⟨S_, .f32⟩
  | 107 => ⟨S2x2048x11008, .f32⟩
  | 108 => ⟨S2x2048x11008, .f32⟩
  | 109 => ⟨S_, .f32⟩
  | 110 => ⟨S2x2048x11008, .f32⟩
  | 111 => ⟨S2x2048x11008, .f32⟩
  | 112 => ⟨S2x2048x11008, .f32⟩
  | 113 => ⟨S2x2048x11008, .f32⟩
  | 114 => ⟨S2x2048x11008, .f32⟩
  | 115 => ⟨S2x2048x11008, .f32⟩
  | 116 => ⟨S2x2048x11008, .f32⟩
  | 117 => ⟨S2x2048x11008, .f32⟩
  | 118 => ⟨S_, .f32⟩
  | 119 => ⟨S2x2048, .f32⟩
  | 120 => ⟨S2x2048x1, .f32⟩
  | 121 => ⟨S_, .f32⟩
  | 122 => ⟨S2x2048x1, .f32⟩
  | 123 => ⟨S2x2048x1, .f32⟩
  | 124 => ⟨S_, .f32⟩
  | 125 => ⟨S2x2048x1, .f32⟩
  | 126 => ⟨S2x2048x1, .f32⟩
  | 127 => ⟨S2x2048x11008, .f32⟩
  | _ => ⟨S2x2048x4096, .f32⟩

abbrev hbmTy0_1 (i : Nat) : BufTy := match i % 128 with
  | 0 => ⟨S2x2048x11008, .f32⟩
  | 1 => ⟨S2x2048x4096, .f32⟩
  | 2 => ⟨S2x2048x4096, .f32⟩
  | 3 => ⟨S2x2048x4096, .f32⟩
  | 4 => ⟨S2x2048x4096, .f32⟩
  | _ => ⟨S2x2048x4096, .f32⟩

abbrev hbmTy (i : Nat) : BufTy := match i / 128 with
  | 0 => hbmTy0_0 i
  | 1 => hbmTy0_1 i
  | _ => ⟨S2x2048x4096, .f32⟩

abbrev bufTy : (tb : Table) → Fin (tcTables nBuf tb) → BufTy
  | .hbm, ⟨i, _⟩ => hbmTy i
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_c_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_v72 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_call0_v0 : Ref sig .tc := ⟨.hbm, 104, rfl⟩
abbrev main_call0_v1 : Ref sig .tc := ⟨.hbm, 105, rfl⟩
abbrev main_call0_cst : Ref sig .tc := ⟨.hbm, 106, rfl⟩
abbrev main_call0_v2 : Ref sig .tc := ⟨.hbm, 107, rfl⟩
abbrev main_call0_v3 : Ref sig .tc := ⟨.hbm, 108, rfl⟩
abbrev main_call0_cst_0 : Ref sig .tc := ⟨.hbm, 109, rfl⟩
abbrev main_call0_v4 : Ref sig .tc := ⟨.hbm, 110, rfl⟩
abbrev main_call0_v5 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_13 : Ref sig .tc := ⟨.hbm, 118, rfl⟩
abbrev main_v87 : Ref sig .tc := ⟨.hbm, 119, rfl⟩
abbrev main_v88 : Ref sig .tc := ⟨.hbm, 120, rfl⟩
abbrev main_cst_14 : Ref sig .tc := ⟨.hbm, 121, rfl⟩
abbrev main_v89 : Ref sig .tc := ⟨.hbm, 122, rfl⟩
abbrev main_v90 : Ref sig .tc := ⟨.hbm, 123, rfl⟩
abbrev main_cst_15 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S11008x512_S11008x512x1_0_1 : S11008x512.BroadcastsInDim S11008x512x1 (![0, 1] : Fin 2 → Fin S11008x512x1.rank)
  bcast_S8_S1x1x8_2 : S8.BroadcastsInDim S1x1x8 (![2] : Fin 1 → Fin S1x1x8.rank)
  bcast_S11008x512x1_S11008x512x8_0_1_2 : S11008x512x1.BroadcastsInDim S11008x512x8 (![0, 1, 2] : Fin 3 → Fin S11008x512x8.rank)
  bcast_S1x1x8_S11008x512x8_0_1_2 : S1x1x8.BroadcastsInDim S11008x512x8 (![0, 1, 2] : Fin 3 → Fin S11008x512x8.rank)
  bcast_S_S11008x512x8 : S_.BroadcastsInDim S11008x512x8 (![] : Fin 0 → Fin S11008x512x8.rank)
  natLt_1_32 : 1 < 32
  shapeCasts_S11008x512x8_S11008x4096 : S11008x512x8.ShapeCasts S11008x4096
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S4096x1376_S4096x1376x1_0_1 : S4096x1376.BroadcastsInDim S4096x1376x1 (![0, 1] : Fin 2 → Fin S4096x1376x1.rank)
  bcast_S4096x1376x1_S4096x1376x8_0_1_2 : S4096x1376x1.BroadcastsInDim S4096x1376x8 (![0, 1, 2] : Fin 3 → Fin S4096x1376x8.rank)
  bcast_S1x1x8_S4096x1376x8_0_1_2 : S1x1x8.BroadcastsInDim S4096x1376x8 (![0, 1, 2] : Fin 3 → Fin S4096x1376x8.rank)
  bcast_S_S4096x1376x8 : S_.BroadcastsInDim S4096x1376x8 (![] : Fin 0 → Fin S4096x1376x8.rank)
  shapeCasts_S4096x1376x8_S4096x11008 : S4096x1376x8.ShapeCasts S4096x11008
  shapeCasts_S4096x11008_S4096x86x128 : S4096x11008.ShapeCasts S4096x86x128
  bcast_S4096x86_S4096x86x1_0_1 : S4096x86.BroadcastsInDim S4096x86x1 (![0, 1] : Fin 2 → Fin S4096x86x1.rank)
  bcast_S4096x86x1_S4096x86x128_0_1_2 : S4096x86x1.BroadcastsInDim S4096x86x128 (![0, 1, 2] : Fin 3 → Fin S4096x86x128.rank)
  shapeCasts_S4096x86x128_S4096x11008 : S4096x86x128.ShapeCasts S4096x11008
  reducesTo_S2x2048x4096_S2x2048_d2 : S2x2048x4096.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x4096_0_1_2 : S2x2048x1.BroadcastsInDim S2x2048x4096 (![0, 1, 2] : Fin 3 → Fin S2x2048x4096.rank)
  bcast_S2x2048x1_S2x2048x11008_0_1_2 : S2x2048x1.BroadcastsInDim S2x2048x11008 (![0, 1, 2] : Fin 3 → Fin S2x2048x11008.rank)
  bcast_S_S2x2048x11008 : S_.BroadcastsInDim S2x2048x11008 (![] : Fin 0 → Fin S2x2048x11008.rank)
  reducesTo_S2x2048x11008_S2x2048_d2 : S2x2048x11008.ReducesTo [2] S2x2048
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.KRegion0.lean ====
/-
  Region 0 of @main — the gate / up projection — at a parameter `V`: the contents of the core's buffers when the
  region is entered.

  At grid point `t = (i, j)` the body reads five blocks: 256 token rows of the activations (block `i`), and
  128 rows each of the two packed weight matrices and of their scales (block `j`); it reads its output buffer
  once without using the value, and stores one 256 × 128 tile into it. So every input's staging buffer holds
  its block of the array as the region found it, at every point, and the output's holds the stored tile: a
  function of the five blocks. The region keeps nothing between points and owes nothing.
-/
import proofs.«401815_j72722386256028_3_alg».proof.Proof.Gen.Kernel.Launch
import proofs.«401815_j72722386256028_3_alg».proof.Proof.Gen.Kernel.Skeleton
import proofs.«401815_j72722386256028_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    there or left it from the point before (then the block index has not moved): for any proof data over `V`
    whose body leaves the block in place. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev rX : Rect S256x4096 := Rect.unit (s := S256x4096) ![0, 0] S256x4096.size inb_S256x4096_S256x4096_0_0
abbrev rP : Rect S128x512 := Rect.unit (s := S128x512) ![0, 0] S128x512.size inb_S128x512_S128x512_0_0
abbrev rQ : Rect S128x32 := Rect.unit (s := S128x32) ![0, 0] S128x32.size inb_S128x32_S128x32_0_0
abbrev rO : Rect S256x128 := Rect.unit (s := S256x128) ![0, 0] S256x128.size inb_S256x128_S256x128_0_0

/-! ## What the body leaves in the output's buffer -/

/-- The stored tile from the five blocks (activations, packed gate and up weights, their scales): the body's one
    store, whole-buffer, of the skeleton's payload. -/
def tile0 (x : Vec F S256x4096 .f32) (pg pu : Vec F S128x512 .i32) (qg qu : Vec F S128x32 .f32) : Vec F S256x128 .bf16 :=
  View.canon [⟨rO, k0_pay1 (k0_pay2 (View.ld x rX)) (k0_pay3 (View.ld x rX) (View.ld pg rP) (View.ld qg rQ)) (View.ld qu rQ)
    k0_pay4 (k0_pay5 (View.ld pu rP))⟩]

/-- The store covers the buffer. -/
theorem tile0_cover (p0 : Vec F S256x128 .bf16) (y : S256x128.Idx) :
    ∃ pc ∈ ([⟨rO, p0⟩] : List (View.Piece (Elt F) S256x128 .bf16)), y ∈ pc.1.set :=
  View.cover_of_tiled [⟨rO, p0⟩] S256x128.size (by rfl) y

/-! ## The body's triple -/

set_option maxHeartbeats 4000000 in
/-- On whole staging buffers, the inputs' at contents `x, pg, pu, qg, qu` and the output's at anything, the body runs
    to its continuation with the inputs' as they were and the output's at `tile0` of them. -/
theorem sound_kernel0 (c : Dev nD) (E : Set ℕ) (i : grid0.Coords)
    (arg2 : Memref sig .tc .vmem S256x4096 .f32) (harg2 : arg2.IsWhole) (arg3 : Memref sig .tc .vmem S128x512 .i32) (harg3 : arg3.IsWhole)
    (arg4 : Memref sig .tc .vmem S128x512 .i32) (harg4 : arg4.IsWhole) (arg5 : Memref sig .tc .vmem S128x32 .f32) (harg5 : arg5.IsWhole)
    (arg6 : Memref sig .tc .vmem S128x32 .f32) (harg6 : arg6.IsWhole) (arg7 : Memref sig .tc .vmem S256x128 .bf16) (harg7 : arg7.IsWhole)
    (x : Vec F S256x4096 .f32) (pg pu : Vec F S128x512 .i32) (qg qu : Vec F S128x32 .f32) (K : PUnit → sProp 𝕄) :
    iprop(owns (c : Thread nD τ) arg2 fullShare x ∗ owns (c : Thread nD τ) arg3 fullShare pg ∗ owns (c : Thread nD τ) arg4 fullShare pu
        ∗ owns (c : Thread nD τ) arg5 fullShare qg ∗ owns (c : Thread nD τ) arg6 fullShare qu ∗ (∃ d, owns (c : Thread nD τ) arg7 fullShare d)
        ∗ (iprop(owns (c : Thread nD τ) arg2 fullShare x ∗ owns (c : Thread nD τ) arg3 fullShare pg ∗ owns (c : Thread nD τ) arg4 fullShare pu
            ∗ owns (c : Thread nD τ) arg5 fullShare qg ∗ owns (c : Thread nD τ) arg6 fullShare qu
            ∗ owns (c : Thread nD τ) arg7 fullShare (tile0 x pg pu qg qu)) -∗ K ⟨⟩))
      ⊢ wp frame (wpE (defs₀ (F := F)) Variants.none c none) E (cc0__gate_up_kernel i arg2 harg2 arg3 harg3 arg4 harg4 arg5 harg5 arg6 harg6 arg7 harg7) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile0_cover _)

/-! ## The region's proof data -/

/-- Pipeline 0 on core `c`: the arrays as the region finds them; after the body at point `t` each input's buffer at
    its block and the output's at the tile of the five blocks; the scoped rest and the generator register as
    invariant, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => tile0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
/-- The output's buffer after the body at point `t`: the tile of the point's five blocks. -/
theorem after0_5 (c : Dev nD) (t : Fin cfg0.N) :
    (dat0 V c).after 5 t = tile0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; invariant and dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KRegion1.lean ====
/-
  Region 1 of @main — the down projection, accumulated over the 86 weight groups — at a parameter `V`: the contents
  of the core's buffers when the region is entered.

  The grid is (column block, row block, group), the group innermost: the points of one output tile are 86
  consecutive positions `t`, the group being `t % 86`. The body keeps a 128 × 1024 accumulator in a scratch buffer:
  at group 0 it clears it; at every group it adds the product of the point's 128 × 128 slice of the intermediate
  with the point's dequantized 1024 × 128 slice of the weight; at group 85 it stores accumulator plus residual
  into the output tile, which is written back there and nowhere else. So there are three kinds of point — first
  group, middle groups, last group — and what the scratch holds after a point is a function of the point's blocks
  and, except at a first group, of what the point before left.
-/
import proofs.«401815_j72722386256028_3_alg».proof.Proof.Gen.Kernel.Launch
import proofs.«401815_j72722386256028_3_alg».proof.Proof.Gen.Kernel.Skeleton
import proofs.«401815_j72722386256028_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which kind of point -/

/-- The body's first branch is taken: the group coordinate is 0. -/
abbrev cond1_0 (i : grid1.Coords) : Prop := (Scalar.cmpi .ne (Scalar.extui (Scalar.cmpi .eq (BitVec.ofNat 32 (i 2).val) 0#32)) 0#32) = 1#1
/-- Over the grid: exactly at the positions ≡ 0 (mod 86). -/
theorem hcond1_0 : ∀ t : Fin cfg1.N, cond1_0 (grid1.coords t) ↔ t.val % 86 = 0 :=
  (by decide +kernel : ∀ t : Fin grid1.N, cond1_0 (grid1.coords t) ↔ t.val % 86 = 0)

/-- The body's second branch is taken: the group coordinate is 85. -/
abbrev cond1_1 (i : grid1.Coords) : Prop := k1_cond2 i = 1#1
/-- Over the grid: exactly at the positions ≡ 85 (mod 86). -/
theorem hcond1_1 : ∀ t : Fin cfg1.N, cond1_1 (grid1.coords t) ↔ t.val % 86 = 85 :=
  (by decide +kernel : ∀ t : Fin grid1.N, cond1_1 (grid1.coords t) ↔ t.val % 86 = 85)

/-! ## Where the output window rests -/

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl
/-- Away from a last group the output window is at rest: the body stores nothing into it, -/
theorem idleAt1_4 (t : Fin cfg1.N) (h : ¬cond1_1 (grid1.coords t)) : cfg1.idle 4 (grid1.coords t) = true := by
  show (!(k1_cond2 (grid1.coords t) == 1#1)) = true
  simp only [Bool.not_eq_true', beq_eq_false_iff_ne, ne_eq]; exact h
/-- and the pipeline does not write it back; -/
theorem noFlush1_4 (t : Fin cfg1.N) (h : ¬cond1_1 (grid1.coords t)) : (cfg1.win 4).flush t = false := by
  have h' : ¬t.val % 86 = 85 := fun e => h ((hcond1_1 t).mpr e)
  cases hf : (cfg1.win 4).flush t with
  | false => rfl
  | true => exact absurd ((flush1_4 t).mp hf) h'
/-- at a last group it is live. -/
theorem liveAt1_4 (t : Fin cfg1.N) (h : cond1_1 (grid1.coords t)) : cfg1.idle 4 (grid1.coords t) = false := by
  show (!(k1_cond2 (grid1.coords t) == 1#1)) = false
  simp only [Bool.not_eq_false', beq_iff_eq]; exact h

/-! ## The buffers the body runs on -/

/-- One staging buffer of the output window, through which its contents are stated (which one does not matter). -/
abbrev VO1 : View sig .tc .vmem S128x1024 .f32 := (Memref.whole cc1_stg4_0 : Memref sig .tc .vmem S128x1024 .f32).view
abbrev ms1_0 (t : Fin cfg1.N) : Memref sig .tc .vmem S128x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x16 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x1024 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S128x1024 .f32 := Memref.whole cc1_scratch0
abbrev VS1 : View sig .tc .vmem S128x1024 .f32 := scM1.view

/-- The region's resting invariant — every scoped buffer that is no staging buffer of this region at some contents,
    the generator register at some state — with the accumulator singled out. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1 fullShare d)) ∗ (∃ r, prngReg c r)) := by
  unfold Pipeline.ΦA; rw [scopedRest1_eq]; simp only [scM1, owns_whole]; try rfl

/-- The other region's staging buffers, which ride along untouched. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-! ## The body's run, kind by kind

Each run is stated on any whole memrefs: the four inputs' at given contents, handed back as they were. What the
accumulator (and, at a last group, the output tile) ends with is a list of stored pieces, last first, which the
run itself determines. -/

set_option maxHeartbeats 4000000 in
/-- FIRST GROUP (first branch taken, second not): the accumulator, at anything, is cleared and the group's product
    added; the output tile is handed back untouched. -/
noncomputable def kernelRun1_A (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : cond1_0 i) (hc1 : ¬cond1_1 i)
    (x0 : Vec F S128x128 .bf16) (x1 : Vec F S128x1024 .f32) (x2 : Vec F S1x1024x16 .i32) (x3 : Vec F S1x1024x1 .f32) :
    Σ' (L4 : List (View.Piece (Elt F) S128x1024 .f32)), { LS : List (View.Piece (Elt F) S128x1024 .f32) //
      ∀ (xi4 : Vec F S128x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__down_kernel i arg3 harg3 arg4 harg4 arg5 harg5 arg6 harg6 arg7 harg7 arg8 harg8) K } := by
  refine ⟨[], ?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 4000000 in
/-- MIDDLE GROUP (neither branch taken): the accumulator, at what the point before left (`xs`), has the group's product
    added; the output tile is handed back untouched. -/
noncomputable def kernelRun1_B (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : ¬cond1_1 i)
    (x0 : Vec F S128x128 .bf16) (x1 : Vec F S128x1024 .f32) (x2 : Vec F S1x1024x16 .i32) (x3 : Vec F S1x1024x1 .f32) (xs : Vec F S128x1024 .f32) :
    Σ' (L4 : List (View.Piece (Elt F) S128x1024 .f32)), { LS : List (View.Piece (Elt F) S128x1024 .f32) //
      ∀ (xi4 : Vec F S128x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__down_kernel i arg3 harg3 arg4 harg4 arg5 harg5 arg6 harg6 arg7 harg7 arg8 harg8) K } := by
  refine ⟨[], ?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 4000000 in
/-- LAST GROUP (first branch not taken, second taken): the accumulator, at what the point before left, has the group's
    product added, and the output tile, at anything, receives accumulator plus residual. -/
noncomputable def kernelRun1_C (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : cond1_1 i)
    (x0 : Vec F S128x128 .bf16) (x1 : Vec F S128x1024 .f32) (x2 : Vec F S1x1024x16 .i32) (x3 : Vec F S1x1024x1 .f32) (xs : Vec F S128x1024 .f32) :
    Σ' (L4 : List (View.Piece (Elt F) S128x1024 .f32)), { LS : List (View.Piece (Elt F) S128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3
    obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexists _; iexact HS

variable (V : (c : Dev nD) → (b : Ref sig .tc) → Buf (Elt F) ((c : Thread nD τ).loc b))

/-! ## The blocks -/

/-- Window `w`'s block at point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or kept from the point
    before (the residual's block index does not move within a tile's 86 points). One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each kind of point leaves -/

/-- The accumulator's pieces cover it (first group). -/
theorem scover1_A (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : cond1_0 i) (hc1 : ¬cond1_1 i) (x0 : Vec F S128x128 .bf16) (x1 : Vec F S128x1024 .f32) (x2 : Vec F S1x1024x16 .i32) (x3 : Vec F S1x1024x1 .f32) (y : S128x1024.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S128x1024.size (by sl_kernel_rfl) y
/-- What a first group leaves in the accumulator. -/
def sout1_A (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : cond1_0 i) (hc1 : ¬cond1_1 i) (x0 : Vec F S128x128 .bf16) (x1 : Vec F S128x1024 .f32) (x2 : Vec F S1x1024x16 .i32) (x3 : Vec F S1x1024x1 .f32) : Vec F S128x1024 .f32 :=
  VS1.read (Elt F) (VS1.writes (Elt F) VS1.junk (kernelRun1_A c i arg3 harg3 arg4 harg4 arg5 harg5 arg6 harg6 arg7 harg7 arg8 harg8 hc0 hc1 x0 x1 x2 x3).2.1)

/-- The accumulator's pieces cover it (middle group). -/
theorem scover1_B (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : ¬cond1_1 i) (x0 : Vec F S128x128 .bf16) (x1 : Vec F S128x1024 .f32) (x2 : Vec F S1x1024x16 .i32) (x3 : Vec F S1x1024x1 .f32) (xs : Vec F S128x1024 .f32) (y : S128x1024.Idx) :
    ∃ pc ∈ (kernelRun1_B c i arg3 harg3 arg4 harg4 arg5 harg5 arg6 harg6 arg7 harg7 arg8 harg8 hc0 hc1 x0 x1 x2 x3 xs).2.1, y ∈ pc.1.set :=
  View.cover_of_tiledL (kernelRun1_B c i arg3 harg3 arg4 harg4 arg5 harg5 arg6 harg6 arg7 harg7 arg8 harg8 hc0 hc1 x0 x1 x2 x3 xs).2.1 S128x1024.size (by sl_kernel_rfl) y
/-- What a middle group leaves in the accumulator, over what the point before left. -/
def sout1_B (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : ¬cond1_1 i) (x0 : Vec F S128x128 .bf16) (x1 : Vec F S128x1024 .f32) (x2 : Vec F S1x1024x16 .i32) (x3 : Vec F S1x1024x1 .f32) (xs : Vec F S128x1024 .f32) : Vec F S128x1024 .f32 :=
  VS1.read (Elt F) (VS1.writes (Elt F) VS1.junk (kernelRun1_B c i arg3 harg3 arg4 harg4 arg5 harg5 arg6 harg6 arg7 harg7 arg8 harg8 hc0 hc1 x0 x1 x2 x3 xs).2.1)

/-- The accumulator's pieces cover it (last group). -/
theorem scover1_C (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : cond1_1 i) (x0 : Vec F S128x128 .bf16) (x1 : Vec F S128x1024 .f32) (x2 : Vec F S1x1024x16 .i32) (x3 : Vec F S1x1024x1 .f32) (xs : Vec F S128x1024 .f32) (y : S128x1024.Idx) :
    ∃ pc ∈ (kernelRun1_C c i arg3 harg3 arg4 harg4 arg5 harg5 arg6 harg6 arg7 harg7 arg8 harg8 hc0 hc1 x0 x1 x2 x3 xs).2.1, y ∈ pc.1.set :=
  View.cover_of_tiledL (kernelRun1_C c i arg3 harg3 arg4 harg4 arg5 harg5 arg6 harg6 arg7 harg7 arg8 harg8 hc0 hc1 x0 x1 x2 x3 xs).2.1 S128x1024.size (by sl_kernel_rfl) y
/-- What a last group leaves in the accumulator. -/
def sout1_C (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : cond1_1 i) (x0 : Vec F S128x128 .bf16) (x1 : Vec F S128x1024 .f32) (x2 : Vec F S1x1024x16 .i32) (x3 : Vec F S1x1024x1 .f32) (xs : Vec F S128x1024 .f32) : Vec F S128x1024 .f32 :=
  VS1.read (Elt F) (VS1.writes (Elt F) VS1.junk (kernelRun1_C c i arg3 harg3 arg4 harg4 arg5 harg5 arg6 harg6 arg7 harg7 arg8 harg8 hc0 hc1 x0 x1 x2 x3 xs).2.1)
/-- The output tile's pieces cover it (last group). -/
theorem ocover1_C (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : cond1_1 i) (x0 : Vec F S128x128 .bf16) (x1 : Vec F S128x1024 .f32) (x2 : Vec F S1x1024x16 .i32) (x3 : Vec F S1x1024x1 .f32) (xs : Vec F S128x1024 .f32) (y : S128x1024.Idx) :
    ∃ pc ∈ (kernelRun1_C c i arg3 harg3 arg4 harg4 arg5 harg5 arg6 harg6 arg7 harg7 arg8 harg8 hc0 hc1 x0 x1 x2 x3 xs).1, y ∈ pc.1.set :=
  View.cover_of_tiledL (kernelRun1_C c i arg3 harg3 arg4 harg4 arg5 harg5 arg6 harg6 arg7 harg7 arg8 harg8 hc0 hc1 x0 x1 x2 x3 xs).1 S128x1024.size (by sl_kernel_rfl) y
/-- What a last group stores into the output tile. -/
def out1_C (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : cond1_1 i) (x0 : Vec F S128x128 .bf16) (x1 : Vec F S128x1024 .f32) (x2 : Vec F S1x1024x16 .i32) (x3 : Vec F S1x1024x1 .f32) (xs : Vec F S128x1024 .f32) : Vec F S128x1024 .f32 :=
  VO1.read (Elt F) (VO1.writes (Elt F) VO1.junk (kernelRun1_C c i arg3 harg3 arg4 harg4 arg5 harg5 arg6 harg6 arg7 harg7 arg8 harg8 hc0 hc1 x0 x1 x2 x3 xs).1)
/-- Away from a last group nothing is stored into the output tile: a placeholder nothing consults (the window is at
    rest there, neither written back nor read at the next point). -/
def out1_rest : Vec F S128x1024 .f32 := VO1.read (Elt F) (VO1.writes (Elt F) VO1.junk [])

/-! ## Point by point -/

/-- THE ACCUMULATION. What the output tile's buffer and the accumulator hold after the body at position `n` (a pair:
    output, accumulator): the kind of point is read off `n % 86`; a middle or last group takes the accumulator at
    what position `n - 1` left. -/
def outsAt1 (c : Dev nD) : (n : ℕ) → n < cfg1.N → Vec F S128x1024 .f32 × Vec F S128x1024 .f32
  | 0, hn => (out1_rest, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 86 = 0 then
      if h1 : (n + 1) % 86 = 85 then
        False.elim (by omega)
      else
        (out1_rest, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 86 = 85 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_rest, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- At a first group. -/
theorem outsAt1_A (c : Dev nD) (t : Fin cfg1.N) (h0 : t.val % 86 = 0) (h1 : ¬t.val % 86 = 85) :
    outsAt1 V c t.val t.isLt = (out1_rest, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- At a middle group: over what the point before left. -/
theorem outsAt1_B (c : Dev nD) (t : Fin cfg1.N) (h0 : ¬t.val % 86 = 0) (h1 : ¬t.val % 86 = 85) :
    outsAt1 V c t.val t.isLt = (out1_rest, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last group: over what the point before left. -/
theorem outsAt1_C (c : Dev nD) (t : Fin cfg1.N) (h0 : ¬t.val % 86 = 0) (h1 : t.val % 86 = 85) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the resting one; afterwards the other region's
    staging buffers at anything, the accumulator at what position `n - 1` left, the generator register at some state. -/
def PhiS1 (c : Dev nD) : (n : ℕ) → n ≤ cfg1.N → sProp 𝕄
  | 0, _ => Pipeline.ΦA spec1 c
  | n + 1, hn => iprop(iprop(others1 c ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(others1 c ∗ owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(iprop(others1 c ∗ owns (c : Thread nD τ) scM1 fullShare ((outsAt1 V c (n - 1) (by omega)).2)) ∗ (∃ r, prngReg c r)) := by
  cases n with
  | zero => exact absurd rfl hz
  | succ n => rfl

/-! ## The region's proof data -/

/-- Pipeline 1 on core `c`: the arrays as the region finds them; after the body at point `t` each input's buffer at
    its block and the output tile's at `outsAt1`'s first component; the invariant carrying the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
/-- The output tile's buffer after the body at point `t`. -/
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The invariant, accumulator apart -/

/-- The resting invariant hands out the other region's staging buffers, the accumulator at some contents, and the
    generator register, -/
theorem PhiA1_split (c : Dev nD) :
    (Pipeline.ΦA spec1 c : sProp 𝕄) ⊢ iprop(iprop(others1 c ∗ (∃ d, owns (c : Thread nD τ) scM1 fullShare d)) ∗ (∃ r, prngReg c r)) := by
  rw [PhiA1_eq]
  iintro ⟨⟨H1, H2, H3, H4, H5, H6, H7, H8, H9, H10, H11, H12, HS⟩, Hg⟩
  isplitr [Hg]
  · isplitr [HS]
    ·
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iexact HS
  · iexact Hg

/-- and is made of them again. -/
theorem PhiA1_join (c : Dev nD) :
    iprop(iprop(others1 c ∗ (∃ d, owns (c : Thread nD τ) scM1 fullShare d)) ∗ (∃ r, prngReg c r)) ⊢ (Pipeline.ΦA spec1 c : sProp 𝕄) := by
  rw [PhiA1_eq]
  iintro ⟨⟨⟨H1, H2, H3, H4, H5, H6, H7, H8, H9, H10, H11, H12⟩, HS⟩, Hg⟩
  isplitr [Hg]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HS
  · iexact Hg

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; `t % 86` says which kind of point this is, and that
    kind's run applies. The invariant hands the body the accumulator — at anything before the region's first point,
    else at what the point before left — and takes it back at this point's contents; away from a last group the output
    tile's buffer goes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 86 = 0
  · have h1 : ¬t.val % 86 = 85 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HP, Ho, ⟨%d0, H0⟩, ⟨%d1, H1⟩, ⟨%d2, H2⟩, ⟨%d3, H3⟩, ⟨%d4, H4⟩⟩
      ihave HP' := (PhiA1_split c) $$ HP
      icases HP' with ⟨⟨Hoth, HS⟩, Hg⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (scover1_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨Hoth, HS⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (scover1_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 86 = 85
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ _ hz]
      iintro ⟨⟨⟨Hoth, HS⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (scover1_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (ocover1_C c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨⟨⟨Hoth, HS⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (scover1_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the resting one back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨⟨Hoth, HS⟩, Hg⟩
  iapply (PhiA1_join c)
  isplitl [Hoth HS]
  · isplitl [Hoth]; · iexact Hoth
    iexists _; iexact HS
  iexact Hg

/-- In particular after the last. -/
theorem hout1 (c : Dev nD) : (dat1 V c).Φ (Fin.last cfg1.N) ⊢ Pipeline.ΦA spec1 c :=
  Phi_out1 V c _ (by rw [Fin.val_last]; have : cfg1.N = 11008 := N_1; omega)

end Cert.Kernel.Fr

end
-- ==== Proof.KRun.lean ====
/-
  The run of @main: a stretch of host operations (two reshapes), the gate / up region, a stretch (the down weights
  relaid group-major), the down region, a last reshape.

  Between two items each core holds every unscoped buffer whole at known contents. Those contents are a fold from
  the launch memory: a host stretch applies its operations; a region leaves its arrays at what its write-backs
  leave and every other buffer as it was. Each region is entered from the fold's contents before it and left at
  the contents after it; the generator register and the core owing nothing ride along. Read against the final
  memory, the last contents give every unscoped buffer after the run — the arguments as launched, and the result.
-/
import proofs.«401815_j72722386256028_3_alg».proof.Proof.KRegion0
import proofs.«401815_j72722386256028_3_alg».proof.Proof.KRegion1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the first host stretch: the gate / up region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the gate / up region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the down region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the down region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch: the end. -/
abbrev W5 : Dev nD → Valuation τ sig (Elt F) := fun c => StableHlo.after hostOps2 (W4 m c)

/-! ## The arguments end as launched

No host operation writes an argument, and a region reads it through an input window or not at all; so the fold at an
argument's buffer walks back to the launch memory. -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := (W2_arr m c 2).trans (((dat0 (V1 m) c).arrAt_in 2 rfl _).trans (A_eq0 (V1 m) c 2))
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg5) := W4_of_ne m c main_arg5 (by decide)
    _ = W2 m c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := (W2_arr m c 3).trans (((dat0 (V1 m) c).arrAt_in 3 rfl _).trans (A_eq0 (V1 m) c 3))
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg6) := W4_of_ne m c main_arg6 (by decide)
    _ = W2 m c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg6) := (W2_arr m c 4).trans (((dat0 (V1 m) c).arrAt_in 4 rfl _).trans (A_eq0 (V1 m) c 4))
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg7) := W4_of_ne m c main_arg7 (by decide)
    _ = W2 m c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg7) := W2_of_ne m c main_arg7 (by decide)
    _ = W0 m c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The proof data family and what rides along -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The gate / up region: entered at `W1`, left at `W2`. Its arrays are split out of the unscoped buffers and put back
    at the exit contents; the generator register goes into the invariant and comes out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down region: entered at `W3`, left at `W4`. The invariant it is entered with is the resting one, which is the
    accumulating invariant before the first point; after the last point that gives the resting one back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (V3 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and in every final memory every unscoped buffer of every core holds the fold's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c)⟩) (run_main m ρ)

end Cert.Kernel.Fr

end
-- ==== Proof.KiRegion0.lean ====
/-
  Region 0 of @main — the gate / up projection — at a parameter `V`: the contents of the core's buffers when the
  region is entered.

  At grid point `t = (i, j)` the body reads five blocks: 256 token rows of the activations (block `i`), and
  128 rows each of the two packed weight matrices and of their scales (block `j`); it reads its output buffer
  once without using the value, and stores one 256 × 128 tile into it. So every input's staging buffer holds
  its block of the array as the region found it, at every point, and the output's holds the stored tile: a
  function of the five blocks. The region keeps nothing between points and owes nothing.
-/
import proofs.«401815_j72722386256028_3_alg».proof.Proof.Gen.KernelIdeal.Launch
import proofs.«401815_j72722386256028_3_alg».proof.Proof.Gen.KernelIdeal.Skeleton
import proofs.«401815_j72722386256028_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    there or left it from the point before (then the block index has not moved): for any proof data over `V`
    whose body leaves the block in place. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev rX : Rect S256x4096 := Rect.unit (s := S256x4096) ![0, 0] S256x4096.size inb_S256x4096_S256x4096_0_0
abbrev rP : Rect S128x512 := Rect.unit (s := S128x512) ![0, 0] S128x512.size inb_S128x512_S128x512_0_0
abbrev rQ : Rect S128x32 := Rect.unit (s := S128x32) ![0, 0] S128x32.size inb_S128x32_S128x32_0_0
abbrev rO : Rect S256x128 := Rect.unit (s := S256x128) ![0, 0] S256x128.size inb_S256x128_S256x128_0_0

/-! ## What the body leaves in the output's buffer -/

/-- The stored tile from the five blocks (activations, packed gate and up weights, their scales): the body's one
    store, whole-buffer, of the skeleton's payload. -/
def tile0 (x : Vec F S256x4096 .f32) (pg pu : Vec F S128x512 .i32) (qg qu : Vec F S128x32 .f32) : Vec F S256x128 .bf16 :=
  View.canon [⟨rO, k0_pay1 (k0_pay2 (View.ld x rX)) (k0_pay3 (View.ld x rX) (View.ld pg rP) (View.ld qg rQ)) (View.ld qu rQ)
    k0_pay4 (k0_pay5 (View.ld pu rP))⟩]

/-- The store covers the buffer. -/
theorem tile0_cover (p0 : Vec F S256x128 .bf16) (y : S256x128.Idx) :
    ∃ pc ∈ ([⟨rO, p0⟩] : List (View.Piece (Elt F) S256x128 .bf16)), y ∈ pc.1.set :=
  View.cover_of_tiled [⟨rO, p0⟩] S256x128.size (by rfl) y

/-! ## The body's triple -/

set_option maxHeartbeats 4000000 in
/-- On whole staging buffers, the inputs' at contents `x, pg, pu, qg, qu` and the output's at anything, the body runs
    to its continuation with the inputs' as they were and the output's at `tile0` of them. -/
theorem sound_kernel0 (c : Dev nD) (E : Set ℕ) (i : grid0.Coords)
    (arg2 : Memref sig .tc .vmem S256x4096 .f32) (harg2 : arg2.IsWhole) (arg3 : Memref sig .tc .vmem S128x512 .i32) (harg3 : arg3.IsWhole)
    (arg4 : Memref sig .tc .vmem S128x512 .i32) (harg4 : arg4.IsWhole) (arg5 : Memref sig .tc .vmem S128x32 .f32) (harg5 : arg5.IsWhole)
    (arg6 : Memref sig .tc .vmem S128x32 .f32) (harg6 : arg6.IsWhole) (arg7 : Memref sig .tc .vmem S256x128 .bf16) (harg7 : arg7.IsWhole)
    (x : Vec F S256x4096 .f32) (pg pu : Vec F S128x512 .i32) (qg qu : Vec F S128x32 .f32) (K : PUnit → sProp 𝕄) :
    iprop(owns (c : Thread nD τ) arg2 fullShare x ∗ owns (c : Thread nD τ) arg3 fullShare pg ∗ owns (c : Thread nD τ) arg4 fullShare pu
        ∗ owns (c : Thread nD τ) arg5 fullShare qg ∗ owns (c : Thread nD τ) arg6 fullShare qu ∗ (∃ d, owns (c : Thread nD τ) arg7 fullShare d)
        ∗ (iprop(owns (c : Thread nD τ) arg2 fullShare x ∗ owns (c : Thread nD τ) arg3 fullShare pg ∗ owns (c : Thread nD τ) arg4 fullShare pu
            ∗ owns (c : Thread nD τ) arg5 fullShare qg ∗ owns (c : Thread nD τ) arg6 fullShare qu
            ∗ owns (c : Thread nD τ) arg7 fullShare (tile0 x pg pu qg qu)) -∗ K ⟨⟩))
      ⊢ wp frame (wpE (defs₀ (F := F)) Variants.none c none) E (cc0__gate_up_kernel i arg2 harg2 arg3 harg3 arg4 harg4 arg5 harg5 arg6 harg6 arg7 harg7) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile0_cover _)

/-! ## The region's proof data -/

/-- Pipeline 0 on core `c`: the arrays as the region finds them; after the body at point `t` each input's buffer at
    its block and the output's at the tile of the five blocks; the scoped rest and the generator register as
    invariant, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => tile0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
/-- The output's buffer after the body at point `t`: the tile of the point's five blocks. -/
theorem after0_5 (c : Dev nD) (t : Fin cfg0.N) :
    (dat0 V c).after 5 t = tile0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; invariant and dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KiRegion1.lean ====
/-
  Region 1 of @main — the down projection, accumulated over the 86 weight groups — at a parameter `V`: the contents
  of the core's buffers when the region is entered.

  The grid is (column block, row block, group), the group innermost: the points of one output tile are 86
  consecutive positions `t`, the group being `t % 86`. The body keeps a 128 × 1024 accumulator in a scratch buffer:
  at group 0 it clears it; at every group it adds the product of the point's 128 × 128 slice of the intermediate
  with the point's dequantized 1024 × 128 slice of the weight; at group 85 it stores accumulator plus residual
  into the output tile, which is written back there and nowhere else. So there are three kinds of point — first
  group, middle groups, last group — and what the scratch holds after a point is a function of the point's blocks
  and, except at a first group, of what the point before left.
-/
import proofs.«401815_j72722386256028_3_alg».proof.Proof.Gen.KernelIdeal.Launch
import proofs.«401815_j72722386256028_3_alg».proof.Proof.Gen.KernelIdeal.Skeleton
import proofs.«401815_j72722386256028_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which kind of point -/

/-- The body's first branch is taken: the group coordinate is 0. -/
abbrev cond1_0 (i : grid1.Coords) : Prop := (Scalar.cmpi .ne (Scalar.extui (Scalar.cmpi .eq (BitVec.ofNat 32 (i 2).val) 0#32)) 0#32) = 1#1
/-- Over the grid: exactly at the positions ≡ 0 (mod 86). -/
theorem hcond1_0 : ∀ t : Fin cfg1.N, cond1_0 (grid1.coords t) ↔ t.val % 86 = 0 :=
  (by decide +kernel : ∀ t : Fin grid1.N, cond1_0 (grid1.coords t) ↔ t.val % 86 = 0)

/-- The body's second branch is taken: the group coordinate is 85. -/
abbrev cond1_1 (i : grid1.Coords) : Prop := k1_cond2 i = 1#1
/-- Over the grid: exactly at the positions ≡ 85 (mod 86). -/
theorem hcond1_1 : ∀ t : Fin cfg1.N, cond1_1 (grid1.coords t) ↔ t.val % 86 = 85 :=
  (by decide +kernel : ∀ t : Fin grid1.N, cond1_1 (grid1.coords t) ↔ t.val % 86 = 85)

/-! ## Where the output window rests -/

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl
/-- Away from a last group the output window is at rest: the body stores nothing into it, -/
theorem idleAt1_4 (t : Fin cfg1.N) (h : ¬cond1_1 (grid1.coords t)) : cfg1.idle 4 (grid1.coords t) = true := by
  show (!(k1_cond2 (grid1.coords t) == 1#1)) = true
  simp only [Bool.not_eq_true', beq_eq_false_iff_ne, ne_eq]; exact h
/-- and the pipeline does not write it back; -/
theorem noFlush1_4 (t : Fin cfg1.N) (h : ¬cond1_1 (grid1.coords t)) : (cfg1.win 4).flush t = false := by
  have h' : ¬t.val % 86 = 85 := fun e => h ((hcond1_1 t).mpr e)
  cases hf : (cfg1.win 4).flush t with
  | false => rfl
  | true => exact absurd ((flush1_4 t).mp hf) h'
/-- at a last group it is live. -/
theorem liveAt1_4 (t : Fin cfg1.N) (h : cond1_1 (grid1.coords t)) : cfg1.idle 4 (grid1.coords t) = false := by
  show (!(k1_cond2 (grid1.coords t) == 1#1)) = false
  simp only [Bool.not_eq_false', beq_iff_eq]; exact h

/-! ## The buffers the body runs on -/

/-- One staging buffer of the output window, through which its contents are stated (which one does not matter). -/
abbrev VO1 : View sig .tc .vmem S128x1024 .f32 := (Memref.whole cc1_stg4_0 : Memref sig .tc .vmem S128x1024 .f32).view
abbrev ms1_0 (t : Fin cfg1.N) : Memref sig .tc .vmem S128x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x16 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x1024 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S128x1024 .f32 := Memref.whole cc1_scratch0
abbrev VS1 : View sig .tc .vmem S128x1024 .f32 := scM1.view

/-- The region's resting invariant — every scoped buffer that is no staging buffer of this region at some contents,
    the generator register at some state — with the accumulator singled out. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1 fullShare d)) ∗ (∃ r, prngReg c r)) := by
  unfold Pipeline.ΦA; rw [scopedRest1_eq]; simp only [scM1, owns_whole]; try rfl

/-- The other region's staging buffers, which ride along untouched. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-! ## The body's run, kind by kind

Each run is stated on any whole memrefs: the four inputs' at given contents, handed back as they were. What the
accumulator (and, at a last group, the output tile) ends with is a list of stored pieces, last first, which the
run itself determines. -/

set_option maxHeartbeats 4000000 in
/-- FIRST GROUP (first branch taken, second not): the accumulator, at anything, is cleared and the group's product
    added; the output tile is handed back untouched. -/
noncomputable def kernelRun1_A (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : cond1_0 i) (hc1 : ¬cond1_1 i)
    (x0 : Vec F S128x128 .bf16) (x1 : Vec F S128x1024 .f32) (x2 : Vec F S1x1024x16 .i32) (x3 : Vec F S1x1024x1 .f32) :
    Σ' (L4 : List (View.Piece (Elt F) S128x1024 .f32)), { LS : List (View.Piece (Elt F) S128x1024 .f32) //
      ∀ (xi4 : Vec F S128x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__down_kernel i arg3 harg3 arg4 harg4 arg5 harg5 arg6 harg6 arg7 harg7 arg8 harg8) K } := by
  refine ⟨[], ?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 4000000 in
/-- MIDDLE GROUP (neither branch taken): the accumulator, at what the point before left (`xs`), has the group's product
    added; the output tile is handed back untouched. -/
noncomputable def kernelRun1_B (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : ¬cond1_1 i)
    (x0 : Vec F S128x128 .bf16) (x1 : Vec F S128x1024 .f32) (x2 : Vec F S1x1024x16 .i32) (x3 : Vec F S1x1024x1 .f32) (xs : Vec F S128x1024 .f32) :
    Σ' (L4 : List (View.Piece (Elt F) S128x1024 .f32)), { LS : List (View.Piece (Elt F) S128x1024 .f32) //
      ∀ (xi4 : Vec F S128x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__down_kernel i arg3 harg3 arg4 harg4 arg5 harg5 arg6 harg6 arg7 harg7 arg8 harg8) K } := by
  refine ⟨[], ?_, fun xi4 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 4000000 in
/-- LAST GROUP (first branch not taken, second taken): the accumulator, at what the point before left, has the group's
    product added, and the output tile, at anything, receives accumulator plus residual. -/
noncomputable def kernelRun1_C (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : cond1_1 i)
    (x0 : Vec F S128x128 .bf16) (x1 : Vec F S128x1024 .f32) (x2 : Vec F S1x1024x16 .i32) (x3 : Vec F S1x1024x1 .f32) (xs : Vec F S128x1024 .f32) :
    Σ' (L4 : List (View.Piece (Elt F) S128x1024 .f32)), { LS : List (View.Piece (Elt F) S128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__down_kernel i arg3 harg3 arg4 harg4 arg5 harg5 arg6 harg6 arg7 harg7 arg8 harg8) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3
    obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    iexists _; iexact HS

variable (V : (c : Dev nD) → (b : Ref sig .tc) → Buf (Elt F) ((c : Thread nD τ).loc b))

/-! ## The blocks -/

/-- Window `w`'s block at point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or kept from the point
    before (the residual's block index does not move within a tile's 86 points). One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each kind of point leaves -/

/-- The accumulator's pieces cover it (first group). -/
theorem scover1_A (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : cond1_0 i) (hc1 : ¬cond1_1 i) (x0 : Vec F S128x128 .bf16) (x1 : Vec F S128x1024 .f32) (x2 : Vec F S1x1024x16 .i32) (x3 : Vec F S1x1024x1 .f32) (y : S128x1024.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S128x1024.size (by sl_kernel_rfl) y
/-- What a first group leaves in the accumulator. -/
def sout1_A (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : cond1_0 i) (hc1 : ¬cond1_1 i) (x0 : Vec F S128x128 .bf16) (x1 : Vec F S128x1024 .f32) (x2 : Vec F S1x1024x16 .i32) (x3 : Vec F S1x1024x1 .f32) : Vec F S128x1024 .f32 :=
  VS1.read (Elt F) (VS1.writes (Elt F) VS1.junk (kernelRun1_A c i arg3 harg3 arg4 harg4 arg5 harg5 arg6 harg6 arg7 harg7 arg8 harg8 hc0 hc1 x0 x1 x2 x3).2.1)

/-- The accumulator's pieces cover it (middle group). -/
theorem scover1_B (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : ¬cond1_1 i) (x0 : Vec F S128x128 .bf16) (x1 : Vec F S128x1024 .f32) (x2 : Vec F S1x1024x16 .i32) (x3 : Vec F S1x1024x1 .f32) (xs : Vec F S128x1024 .f32) (y : S128x1024.Idx) :
    ∃ pc ∈ (kernelRun1_B c i arg3 harg3 arg4 harg4 arg5 harg5 arg6 harg6 arg7 harg7 arg8 harg8 hc0 hc1 x0 x1 x2 x3 xs).2.1, y ∈ pc.1.set :=
  View.cover_of_tiledL (kernelRun1_B c i arg3 harg3 arg4 harg4 arg5 harg5 arg6 harg6 arg7 harg7 arg8 harg8 hc0 hc1 x0 x1 x2 x3 xs).2.1 S128x1024.size (by sl_kernel_rfl) y
/-- What a middle group leaves in the accumulator, over what the point before left. -/
def sout1_B (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : ¬cond1_1 i) (x0 : Vec F S128x128 .bf16) (x1 : Vec F S128x1024 .f32) (x2 : Vec F S1x1024x16 .i32) (x3 : Vec F S1x1024x1 .f32) (xs : Vec F S128x1024 .f32) : Vec F S128x1024 .f32 :=
  VS1.read (Elt F) (VS1.writes (Elt F) VS1.junk (kernelRun1_B c i arg3 harg3 arg4 harg4 arg5 harg5 arg6 harg6 arg7 harg7 arg8 harg8 hc0 hc1 x0 x1 x2 x3 xs).2.1)

/-- The accumulator's pieces cover it (last group). -/
theorem scover1_C (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : cond1_1 i) (x0 : Vec F S128x128 .bf16) (x1 : Vec F S128x1024 .f32) (x2 : Vec F S1x1024x16 .i32) (x3 : Vec F S1x1024x1 .f32) (xs : Vec F S128x1024 .f32) (y : S128x1024.Idx) :
    ∃ pc ∈ (kernelRun1_C c i arg3 harg3 arg4 harg4 arg5 harg5 arg6 harg6 arg7 harg7 arg8 harg8 hc0 hc1 x0 x1 x2 x3 xs).2.1, y ∈ pc.1.set :=
  View.cover_of_tiledL (kernelRun1_C c i arg3 harg3 arg4 harg4 arg5 harg5 arg6 harg6 arg7 harg7 arg8 harg8 hc0 hc1 x0 x1 x2 x3 xs).2.1 S128x1024.size (by sl_kernel_rfl) y
/-- What a last group leaves in the accumulator. -/
def sout1_C (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : cond1_1 i) (x0 : Vec F S128x128 .bf16) (x1 : Vec F S128x1024 .f32) (x2 : Vec F S1x1024x16 .i32) (x3 : Vec F S1x1024x1 .f32) (xs : Vec F S128x1024 .f32) : Vec F S128x1024 .f32 :=
  VS1.read (Elt F) (VS1.writes (Elt F) VS1.junk (kernelRun1_C c i arg3 harg3 arg4 harg4 arg5 harg5 arg6 harg6 arg7 harg7 arg8 harg8 hc0 hc1 x0 x1 x2 x3 xs).2.1)
/-- The output tile's pieces cover it (last group). -/
theorem ocover1_C (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : cond1_1 i) (x0 : Vec F S128x128 .bf16) (x1 : Vec F S128x1024 .f32) (x2 : Vec F S1x1024x16 .i32) (x3 : Vec F S1x1024x1 .f32) (xs : Vec F S128x1024 .f32) (y : S128x1024.Idx) :
    ∃ pc ∈ (kernelRun1_C c i arg3 harg3 arg4 harg4 arg5 harg5 arg6 harg6 arg7 harg7 arg8 harg8 hc0 hc1 x0 x1 x2 x3 xs).1, y ∈ pc.1.set :=
  View.cover_of_tiledL (kernelRun1_C c i arg3 harg3 arg4 harg4 arg5 harg5 arg6 harg6 arg7 harg7 arg8 harg8 hc0 hc1 x0 x1 x2 x3 xs).1 S128x1024.size (by sl_kernel_rfl) y
/-- What a last group stores into the output tile. -/
def out1_C (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : cond1_1 i) (x0 : Vec F S128x128 .bf16) (x1 : Vec F S128x1024 .f32) (x2 : Vec F S1x1024x16 .i32) (x3 : Vec F S1x1024x1 .f32) (xs : Vec F S128x1024 .f32) : Vec F S128x1024 .f32 :=
  VO1.read (Elt F) (VO1.writes (Elt F) VO1.junk (kernelRun1_C c i arg3 harg3 arg4 harg4 arg5 harg5 arg6 harg6 arg7 harg7 arg8 harg8 hc0 hc1 x0 x1 x2 x3 xs).1)
/-- Away from a last group nothing is stored into the output tile: a placeholder nothing consults (the window is at
    rest there, neither written back nor read at the next point). -/
def out1_rest : Vec F S128x1024 .f32 := VO1.read (Elt F) (VO1.writes (Elt F) VO1.junk [])

/-! ## Point by point -/

/-- THE ACCUMULATION. What the output tile's buffer and the accumulator hold after the body at position `n` (a pair:
    output, accumulator): the kind of point is read off `n % 86`; a middle or last group takes the accumulator at
    what position `n - 1` left. -/
def outsAt1 (c : Dev nD) : (n : ℕ) → n < cfg1.N → Vec F S128x1024 .f32 × Vec F S128x1024 .f32
  | 0, hn => (out1_rest, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 86 = 0 then
      if h1 : (n + 1) % 86 = 85 then
        False.elim (by omega)
      else
        (out1_rest, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 86 = 85 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_rest, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- At a first group. -/
theorem outsAt1_A (c : Dev nD) (t : Fin cfg1.N) (h0 : t.val % 86 = 0) (h1 : ¬t.val % 86 = 85) :
    outsAt1 V c t.val t.isLt = (out1_rest, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- At a middle group: over what the point before left. -/
theorem outsAt1_B (c : Dev nD) (t : Fin cfg1.N) (h0 : ¬t.val % 86 = 0) (h1 : ¬t.val % 86 = 85) :
    outsAt1 V c t.val t.isLt = (out1_rest, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last group: over what the point before left. -/
theorem outsAt1_C (c : Dev nD) (t : Fin cfg1.N) (h0 : ¬t.val % 86 = 0) (h1 : t.val % 86 = 85) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the resting one; afterwards the other region's
    staging buffers at anything, the accumulator at what position `n - 1` left, the generator register at some state. -/
def PhiS1 (c : Dev nD) : (n : ℕ) → n ≤ cfg1.N → sProp 𝕄
  | 0, _ => Pipeline.ΦA spec1 c
  | n + 1, hn => iprop(iprop(others1 c ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(others1 c ∗ owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(iprop(others1 c ∗ owns (c : Thread nD τ) scM1 fullShare ((outsAt1 V c (n - 1) (by omega)).2)) ∗ (∃ r, prngReg c r)) := by
  cases n with
  | zero => exact absurd rfl hz
  | succ n => rfl

/-! ## The region's proof data -/

/-- Pipeline 1 on core `c`: the arrays as the region finds them; after the body at point `t` each input's buffer at
    its block and the output tile's at `outsAt1`'s first component; the invariant carrying the accumulator; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
/-- The output tile's buffer after the body at point `t`. -/
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The invariant, accumulator apart -/

/-- The resting invariant hands out the other region's staging buffers, the accumulator at some contents, and the
    generator register, -/
theorem PhiA1_split (c : Dev nD) :
    (Pipeline.ΦA spec1 c : sProp 𝕄) ⊢ iprop(iprop(others1 c ∗ (∃ d, owns (c : Thread nD τ) scM1 fullShare d)) ∗ (∃ r, prngReg c r)) := by
  rw [PhiA1_eq]
  iintro ⟨⟨H1, H2, H3, H4, H5, H6, H7, H8, H9, H10, H11, H12, HS⟩, Hg⟩
  isplitr [Hg]
  · isplitr [HS]
    ·
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iexact HS
  · iexact Hg

/-- and is made of them again. -/
theorem PhiA1_join (c : Dev nD) :
    iprop(iprop(others1 c ∗ (∃ d, owns (c : Thread nD τ) scM1 fullShare d)) ∗ (∃ r, prngReg c r)) ⊢ (Pipeline.ΦA spec1 c : sProp 𝕄) := by
  rw [PhiA1_eq]
  iintro ⟨⟨⟨H1, H2, H3, H4, H5, H6, H7, H8, H9, H10, H11, H12⟩, HS⟩, Hg⟩
  isplitr [Hg]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HS
  · iexact Hg

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; `t % 86` says which kind of point this is, and that
    kind's run applies. The invariant hands the body the accumulator — at anything before the region's first point,
    else at what the point before left — and takes it back at this point's contents; away from a last group the output
    tile's buffer goes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 86 = 0
  · have h1 : ¬t.val % 86 = 85 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HP, Ho, ⟨%d0, H0⟩, ⟨%d1, H1⟩, ⟨%d2, H2⟩, ⟨%d3, H3⟩, ⟨%d4, H4⟩⟩
      ihave HP' := (PhiA1_split c) $$ HP
      icases HP' with ⟨⟨Hoth, HS⟩, Hg⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (scover1_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨Hoth, HS⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (scover1_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 86 = 85
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ _ hz]
      iintro ⟨⟨⟨Hoth, HS⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (scover1_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (ocover1_C c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨⟨⟨Hoth, HS⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [Hoth HS Hg]
      · isplitl [Hoth HS]
        · isplitl [Hoth]; · iexact Hoth
          unfold owns; iexists _; isplitr
          swap; · iexact HS
          ipureintro; exact View.read_writes_of_cover _ _ _ _ _ (scover1_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the resting one back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨⟨Hoth, HS⟩, Hg⟩
  iapply (PhiA1_join c)
  isplitl [Hoth HS]
  · isplitl [Hoth]; · iexact Hoth
    iexists _; iexact HS
  iexact Hg

/-- In particular after the last. -/
theorem hout1 (c : Dev nD) : (dat1 V c).Φ (Fin.last cfg1.N) ⊢ Pipeline.ΦA spec1 c :=
  Phi_out1 V c _ (by rw [Fin.val_last]; have : cfg1.N = 11008 := N_1; omega)

end Cert.KernelIdeal.Fr

end
-- ==== Proof.KiRun.lean ====
/-
  The run of @main: a stretch of host operations (two reshapes), the gate / up region, a stretch (the down weights
  relaid group-major), the down region, a last reshape.

  Between two items each core holds every unscoped buffer whole at known contents. Those contents are a fold from
  the launch memory: a host stretch applies its operations; a region leaves its arrays at what its write-backs
  leave and every other buffer as it was. Each region is entered from the fold's contents before it and left at
  the contents after it; the generator register and the core owing nothing ride along. Read against the final
  memory, the last contents give every unscoped buffer after the run — the arguments as launched, and the result.
-/
import proofs.«401815_j72722386256028_3_alg».proof.Proof.KiRegion0
import proofs.«401815_j72722386256028_3_alg».proof.Proof.KiRegion1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the first host stretch: the gate / up region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the gate / up region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the down region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the down region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch: the end. -/
abbrev W5 : Dev nD → Valuation τ sig (Elt F) := fun c => StableHlo.after hostOps2 (W4 m c)

/-! ## The arguments end as launched

No host operation writes an argument, and a region reads it through an input window or not at all; so the fold at an
argument's buffer walks back to the launch memory. -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := (W2_arr m c 2).trans (((dat0 (V1 m) c).arrAt_in 2 rfl _).trans (A_eq0 (V1 m) c 2))
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg5) := W4_of_ne m c main_arg5 (by decide)
    _ = W2 m c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := (W2_arr m c 3).trans (((dat0 (V1 m) c).arrAt_in 3 rfl _).trans (A_eq0 (V1 m) c 3))
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg6) := W4_of_ne m c main_arg6 (by decide)
    _ = W2 m c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg6) := (W2_arr m c 4).trans (((dat0 (V1 m) c).arrAt_in 4 rfl _).trans (A_eq0 (V1 m) c 4))
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg7) := W4_of_ne m c main_arg7 (by decide)
    _ = W2 m c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg7) := W2_of_ne m c main_arg7 (by decide)
    _ = W0 m c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The proof data family and what rides along -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The gate / up region: entered at `W1`, left at `W2`. Its arrays are split out of the unscoped buffers and put back
    at the exit contents; the generator register goes into the invariant and comes out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down region: entered at `W3`, left at `W4`. The invariant it is entered with is the resting one, which is the
    accumulating invariant before the first point; after the last point that gives the resting one back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (V3 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and in every final memory every unscoped buffer of every core holds the fold's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c)⟩) (run_main m ρ)

end Cert.KernelIdeal.Fr

end
-- ==== Proof.Spec.lean ====
/-
  What both programs compute, as one function of the argument arrays over the extended reals.

  The three weight matrices arrive packed: eight signed four-bit numbers to a 32-bit word, lowest nibble
  first, and one scale per group of 128 consecutive entries of a row. Entry `k` of a row therefore sits
  in word `k / 8` at nibble `k % 8`, and is scaled by the row's scale number `k / 128`.

  With `Wg, Wu : 11008 × 4096` and `Wd : 4096 × 11008` so dequantized, and the activations flattened to
  `4096` token rows `r = b · 2048 + s`,

      gate r i  = ∑ h, x r h · Wg i h
      inter r i = (∑ h, x r h · Wu i h) · (gate r i · σ (gate r i))          σ the logistic function
      out r h   = (∑ i, inter r i · Wd h i) + residual r h.

  Nothing here mentions a program; the certificate's two sides are each shown to be `result`.
-/
import Idealize.ShloMosaic.PureOps.Ideal
import Idealize.ShloMosaic.Lib.ValueIdx

noncomputable section

namespace Cert.Spec

open Idealize.ShloMosaic Idealize.ShloMosaic.ValueIdx

/-- Every entry of an array is a real number (neither infinity). -/
def AllReal {S : Shape} (x : S.Idx → EReal) : Prop := ∀ i, ∃ r : ℝ, x i = (r : EReal)

/-! ## One packed nibble -/

/-- The shift that brings nibble `k` of a word down to the low four bits: the word `4 · k`. -/
def amt (k : Fin 8) : BitVec 32 := IntOp.muli (BitVec.ofNat 32 k.val) 4#32

/-- The shift is by less than the word's width, so no unit's corner case is met. -/
theorem amt_lt (k : Fin 8) : (amt k).toNat < 32 := by
  revert k; decide

/-- Nibble `k` of the word `w` as a signed four-bit number: the low four bits `n` of `w` shifted right by
    `4 · k`, less sixteen when `n` is eight or more. The unit `u` only matters for shifts by 32 or more, which
    do not occur (`amt_lt`). -/
def nibU (u : ArithUnit) (w : BitVec 32) (k : Fin 8) : BitVec 32 :=
  IntOp.subi (IntOp.andi (IntOp.shrsi u w (amt k)) 15#32)
    (IntOp.muli 16#32 ((IntOp.cmpi .sge (IntOp.andi (IntOp.shrsi u w (amt k)) 15#32) 8#32).setWidth 32))

/-- The vector unit and the host agree on it. -/
theorem nibU_host (w : BitVec 32) (k : Fin 8) : nibU .host w k = nibU .vector w k := by
  unfold nibU IntOp.shrsi
  simp only [amt_lt k, if_true]

/-- The nibble, on the unit the kernel computes it on. -/
abbrev nib (w : BitVec 32) (k : Fin 8) : BitVec 32 := nibU .vector w k

/-- One dequantized weight: the signed nibble, exactly, times its group's scale. -/
def wt (w : BitVec 32) (k : Fin 8) (sc : EReal) : EReal := (((nib w k).toInt : ℝ) : EReal) * sc

/-! ## Coordinates inside a packed row -/

/-- The word of a 4096-entry row that holds entry `h`. -/
def word4096 (h : Fin 4096) : Fin 512 := ⟨h.val / 8, by omega⟩
/-- The group of a 4096-entry row that holds entry `h`. -/
def group4096 (h : Fin 4096) : Fin 32 := ⟨h.val / 128, by omega⟩
/-- The word of an 11008-entry row that holds entry `i`. -/
def word11008 (i : Fin 11008) : Fin 1376 := ⟨i.val / 8, by omega⟩
/-- The group of an 11008-entry row that holds entry `i`. -/
def group11008 (i : Fin 11008) : Fin 86 := ⟨i.val / 128, by omega⟩
/-- The nibble of its word that holds entry `k` of a row. -/
def nibOf {n : Nat} (k : Fin n) : Fin 8 := ⟨k.val % 8, Nat.mod_lt _ (by decide)⟩

/-! ## The arrays -/

abbrev SX : Shape := ⟨3, ![2, 2048, 4096]⟩
abbrev SP : Shape := ⟨2, ![11008, 512]⟩
abbrev SQ : Shape := ⟨2, ![11008, 32]⟩
abbrev SPd : Shape := ⟨2, ![4096, 1376]⟩
abbrev SQd : Shape := ⟨2, ![4096, 86]⟩

/-- Token row `r` of a `[2, 2048, 4096]` array, entry `h`. -/
def row (X : SX.Idx → EReal) (r : Fin 4096) (h : Fin 4096) : EReal :=
  X (ix3 (⟨r.val / 2048, by omega⟩ : Fin 2) (⟨r.val % 2048, Nat.mod_lt _ (by decide)⟩ : Fin 2048) h)

/-- A dequantized gate / up weight, `[11008, 4096]`. -/
def wUp (P : SP.Idx → BitVec 32) (Q : SQ.Idx → EReal) (i : Fin 11008) (h : Fin 4096) : EReal :=
  wt (P (ix2 i (word4096 h))) (nibOf h) (Q (ix2 i (group4096 h)))

/-- The dequantized down weight, `[4096, 11008]`. -/
def wDown (P : SPd.Idx → BitVec 32) (Q : SQd.Idx → EReal) (h : Fin 4096) (i : Fin 11008) : EReal :=
  wt (P (ix2 h (word11008 i))) (nibOf i) (Q (ix2 h (group11008 i)))

/-- A projection of token row `r` onto weight row `i`. -/
def proj (X : SX.Idx → EReal) (P : SP.Idx → BitVec 32) (Q : SQ.Idx → EReal) (r : Fin 4096) (i : Fin 11008) : EReal :=
  ∑ h : Fin 4096, row X r h * wUp P Q i h

/-- `z · σ z`. -/
def silu (z : EReal) : EReal := z * Ideal.logistic z

/-- The gated intermediate, `[4096, 11008]`. -/
def inter (X : SX.Idx → EReal) (Pg Pu : SP.Idx → BitVec 32) (Qg Qu : SQ.Idx → EReal) (r : Fin 4096) (i : Fin 11008) : EReal :=
  proj X Pu Qu r i * silu (proj X Pg Qg r i)

/-- The output at token row `r`, entry `h`. -/
def out (X R : SX.Idx → EReal) (Pg Pu : SP.Idx → BitVec 32) (Pd : SPd.Idx → BitVec 32) (Qg Qu : SQ.Idx → EReal) (Qd : SQd.Idx → EReal)
    (r : Fin 4096) (h : Fin 4096) : EReal :=
  (∑ i : Fin 11008, inter X Pg Pu Qg Qu r i * wDown Pd Qd h i) + row R r h

/-- The token row of a `[2, 2048, 4096]` index. -/
def rowOf (j : SX.Idx) : Fin 4096 := ⟨(j 0).val * 2048 + (j 1).val, by
  have h0 : (j 0).val < 2 := (j 0).isLt
  have h1 : (j 1).val < 2048 := (j 1).isLt
  omega⟩

/-- THE RESULT: the `[2, 2048, 4096]` array both programs end with. -/
def result (X R : SX.Idx → EReal) (Pg Pu : SP.Idx → BitVec 32) (Pd : SPd.Idx → BitVec 32) (Qg Qu : SQ.Idx → EReal) (Qd : SQd.Idx → EReal) :
    SX.Idx → EReal :=
  fun j => out X R Pg Pu Pd Qg Qu Qd (rowOf j) (j 2)

/-! ## The same over the flattened arrays the two kernel regions see

The kernel's program reshapes the activations and the residual to `[4096, 4096]`, computes the intermediate as a
`[4096, 11008]` array, and hands the down projection its weights group-major: packed words as
`[86, 4096, 16]` (group, row, word in group) and scales as `[86, 4096, 1]`. -/

abbrev SF : Shape := ⟨2, ![4096, 4096]⟩
abbrev SI : Shape := ⟨2, ![4096, 11008]⟩
abbrev SG : Shape := ⟨3, ![86, 4096, 16]⟩
abbrev SH : Shape := ⟨3, ![86, 4096, 1]⟩

/-- A `[2, 2048, 4096]` array as `[4096, 4096]`, row-major. -/
def flat (X : SX.Idx → EReal) : SF.Idx → EReal := fun j => row X (j 0) (j 1)

/-- A projection over a flattened activation array. -/
def projF (X2 : SF.Idx → EReal) (P : SP.Idx → BitVec 32) (Q : SQ.Idx → EReal) (r : Fin 4096) (i : Fin 11008) : EReal :=
  ∑ h : Fin 4096, X2 (ix2 r h) * wUp P Q i h

/-- The intermediate as a `[4096, 11008]` array of the flattened activations. -/
def interF (X2 : SF.Idx → EReal) (Pg Pu : SP.Idx → BitVec 32) (Qg Qu : SQ.Idx → EReal) : SI.Idx → EReal :=
  fun j => projF X2 Pu Qu (j 0) (j 1) * silu (projF X2 Pg Qg (j 0) (j 1))

/-- The output as a `[4096, 4096]` array of an intermediate array and the flattened residual. -/
def outF (I2 : SI.Idx → EReal) (R2 : SF.Idx → EReal) (Pd : SPd.Idx → BitVec 32) (Qd : SQd.Idx → EReal) : SF.Idx → EReal :=
  fun j => (∑ i : Fin 11008, I2 (ix2 (j 0) i) * wDown Pd Qd (j 1) i) + R2 j

/-- Entry `k` of group `g` of an 11008-entry row. -/
def inGroup (g : Fin 86) (k : Fin 128) : Fin 11008 := ⟨g.val * 128 + k.val, by omega⟩
/-- The word of its group's sixteen that holds entry `k` of the group. -/
def word128 (k : Fin 128) : Fin 16 := ⟨k.val / 8, by omega⟩

/-- One group's contribution to the output entry `(r, h)`, from the group-major weights. -/
def groupTerm (I2 : SI.Idx → EReal) (P4 : SG.Idx → BitVec 32) (Q6 : SH.Idx → EReal) (r h : Fin 4096) (g : Fin 86) : EReal :=
  ∑ k : Fin 128, I2 (ix2 r (inGroup g k)) * wt (P4 (ix3 g h (word128 k))) (nibOf k) (Q6 (ix3 g h (0 : Fin 1)))

/-- The output accumulated group after group from the group-major weights, then the residual added. -/
def outG (I2 : SI.Idx → EReal) (R2 : SF.Idx → EReal) (P4 : SG.Idx → BitVec 32) (Q6 : SH.Idx → EReal) : SF.Idx → EReal :=
  fun j => (∑ g : Fin 86, groupTerm I2 P4 Q6 (j 0) (j 1) g) + R2 j

/-- The group-major packed words of the down weight: `[4096, 1376]` cut into 86 groups of 16 words, group first. -/
def groupMajorP (Pd : SPd.Idx → BitVec 32) : SG.Idx → BitVec 32 :=
  fun j => Pd (ix2 (j 1) (⟨(j 0).val * 16 + (j 2).val, by
    have h0 : (j 0).val < 86 := (j 0).isLt
    have h2 : (j 2).val < 16 := (j 2).isLt
    omega⟩ : Fin 1376))
/-- The group-major scales of the down weight. -/
def groupMajorQ (Qd : SQd.Idx → EReal) : SH.Idx → EReal := fun j => Qd (ix2 (j 1) (j 0))

/-! ## How the forms fit together -/

/-- Summing group by group over the group-major weights is summing over the whole row of the row-major ones:
    `i = g · 128 + k` runs over `Fin 11008` once, word `i / 8 = g · 16 + k / 8`, nibble `i % 8 = k % 8`, group `i / 128 = g`. -/
theorem outG_groupMajor (I2 : SI.Idx → EReal) (R2 : SF.Idx → EReal) (Pd : SPd.Idx → BitVec 32) (Qd : SQd.Idx → EReal) :
    outG I2 R2 (groupMajorP Pd) (groupMajorQ Qd) = outF I2 R2 Pd Qd := by
  funext j
  -- the bijection (g, k) ↦ g · 128 + k between the pairs (group, place in group) and the places of a row
  let e : Fin 86 × Fin 128 ≃ Fin 11008 :=
    { toFun := fun p => inGroup p.1 p.2
      invFun := fun i => (⟨i.val / 128, by omega⟩, ⟨i.val % 128, Nat.mod_lt _ (by decide)⟩)
      left_inv := by
        rintro ⟨g, k⟩
        refine Prod.ext (Fin.ext ?_) (Fin.ext ?_)
        · show (g.val * 128 + k.val) / 128 = g.val
          omega
        · show (g.val * 128 + k.val) % 128 = k.val
          omega
      right_inv := by
        intro i
        refine Fin.ext ?_
        show i.val / 128 * 128 + i.val % 128 = i.val
        omega }
  show (∑ g : Fin 86, groupTerm I2 (groupMajorP Pd) (groupMajorQ Qd) (j 0) (j 1) g) + R2 j
      = (∑ i : Fin 11008, I2 (ix2 (j 0) i) * wDown Pd Qd (j 1) i) + R2 j
  congr 1
  rw [← Equiv.sum_comp e (fun i => I2 (ix2 (j 0) i) * wDown Pd Qd (j 1) i), Fintype.sum_prod_type]
  refine Finset.sum_congr rfl fun g _ => Finset.sum_congr rfl fun k _ => ?_
  -- word, nibble and group of the place g · 128 + k
  have hw : word11008 (inGroup g k)
      = (⟨g.val * 16 + (word128 k).val, by
          have h0 : g.val < 86 := g.isLt
          have h2 : (word128 k).val < 16 := (word128 k).isLt
          omega⟩ : Fin 1376) :=
    Fin.ext (by
      show (g.val * 128 + k.val) / 8 = g.val * 16 + k.val / 8
      omega)
  have hn : nibOf (inGroup g k) = nibOf k :=
    Fin.ext (by
      show (g.val * 128 + k.val) % 8 = k.val % 8
      omega)
  have hg : group11008 (inGroup g k) = g :=
    Fin.ext (by
      show (g.val * 128 + k.val) / 128 = g.val
      have hk : k.val < 128 := k.isLt
      omega)
  show I2 (ix2 (j 0) (inGroup g k))
        * wt (Pd (ix2 (j 1) ⟨g.val * 16 + (word128 k).val, _⟩)) (nibOf k) (Qd (ix2 (j 1) g))
      = I2 (ix2 (j 0) (inGroup g k))
        * wt (Pd (ix2 (j 1) (word11008 (inGroup g k)))) (nibOf (inGroup g k)) (Qd (ix2 (j 1) (group11008 (inGroup g k))))
  rw [hw, hn, hg]

/-- The result, through the flattened forms. -/
theorem result_eq_flat (X R : SX.Idx → EReal) (Pg Pu : SP.Idx → BitVec 32) (Pd : SPd.Idx → BitVec 32) (Qg Qu : SQ.Idx → EReal) (Qd : SQd.Idx → EReal)
    (j : SX.Idx) :
    result X R Pg Pu Pd Qg Qu Qd j = outF (interF (flat X) Pg Pu Qg Qu) (flat R) Pd Qd (ix2 (rowOf j) (j 2)) := by
  rfl

end Cert.Spec

end
-- ==== Proof.KiPayloads.lean ====
/-
  The two kernels' arithmetic read at an index, over the extended reals.

  A gate / up tile is 256 token rows by 128 weight rows: entry `(p, q)` is the up projection of row `p` onto weight
  row `q` times `z · σ z` of the gate projection `z`, each projection a sum over the 4096 entries of the row against
  the dequantized weight row. One step of the down projection adds, at `(p, q)`, the sum over the group's 128
  entries of the intermediate's row `p` against the dequantized weight row `q` of the group. Changes of float format
  are the identity here, and a matrix product into a zero accumulator is the plain sum.
-/
import proofs.«401815_j72722386256028_3_alg».proof.Proof.Gen.KernelIdeal.Skeleton
import proofs.«401815_j72722386256028_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen Cert.Spec

/-! ## Layout operations at coordinates -/

section Layout
variable {α : Type}

/-- Two trailing axes merged: `[a, b, c]` read as `[a, n]`, `n = b · c`, has at `(i, j)` the entry `(i, k, l)` with `k · c + l = j`. -/
theorem shapeCast_abc_an_apply {a b c n : ℕ} (x : (⟨3, ![a, b, c]⟩ : Shape).Idx → α)
    (h : (⟨3, ![a, b, c]⟩ : Shape).ShapeCasts ⟨2, ![a, n]⟩) (hn : n = b * c)
    (i : Fin a) (j : Fin n) (k : Fin b) (l : Fin c) (hk : k.val * c + l.val = j.val) :
    shapeCast ⟨2, ![a, n]⟩ x h (ix2 i j) = x (ix3 i k l) :=
  shapeCast_apply x h _ _ (by
    rw [Shape.rowMajor_val_three, Shape.rowMajor_val_two]
    show (i.val * b + k.val) * c + l.val = i.val * n + j.val
    rw [← hk, hn, Nat.add_mul, Nat.mul_assoc, Nat.add_assoc])

/-- The trailing axis split: `[a, n]` read as `[a, b, c]`, `n = b · c`, has at `(i, k, l)` the entry `(i, j)` with `j = k · c + l`. -/
theorem shapeCast_an_abc_apply {a b c n : ℕ} (x : (⟨2, ![a, n]⟩ : Shape).Idx → α)
    (h : (⟨2, ![a, n]⟩ : Shape).ShapeCasts ⟨3, ![a, b, c]⟩) (hn : n = b * c)
    (i : Fin a) (k : Fin b) (l : Fin c) (j : Fin n) (hk : k.val * c + l.val = j.val) :
    shapeCast ⟨3, ![a, b, c]⟩ x h (ix3 i k l) = x (ix2 i j) :=
  shapeCast_apply x h _ _ (by
    rw [Shape.rowMajor_val_three, Shape.rowMajor_val_two]
    show i.val * n + j.val = (i.val * b + k.val) * c + l.val
    rw [← hk, hn, Nat.add_mul, Nat.mul_assoc, Nat.add_assoc])

/-- A trailing unit axis added: `[a, b]` read as `[a, b, 1]`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A vector read as `[1, 1, a]`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    omega)

/-- The trailing unit axis broadcast: `[a, b, 1]` to `[a, b, c]`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ x h (ix3 i j l) = x (ix3 i j (0 : Fin 1)) := by
  refine broadcastTo_apply x h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => show 0 = if (1 : ℕ) = 1 then 0 else l.val; rw [if_pos rfl]

/-- One lane row broadcast over two leading axes: `[1, 1, c]` to `[a, b, c]`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (l : Fin c) :
    broadcastTo ⟨3, ![a, b, c]⟩ x h (ix3 i j l) = x (ix3 (0 : Fin 1) (0 : Fin 1) l) := by
  refine broadcastTo_apply x h (ix3 i j l) (ix3 (0 : Fin 1) (0 : Fin 1) l) fun ax => ?_
  match ax with
  | ⟨0, _⟩ => show 0 = if (1 : ℕ) = 1 then 0 else i.val; rw [if_pos rfl]
  | ⟨1, _⟩ => show 0 = if (1 : ℕ) = 1 then 0 else j.val; rw [if_pos rfl]
  | ⟨2, _⟩ =>
    show l.val = if c = 1 then 0 else l.val
    split
    · have := l.isLt; omega
    · rfl

end Layout

/-! ## The nibble at a lane -/

/-- The integer chain of the unpacking, lane by lane: shift right, keep four bits, take sixteen off when the
    four bits are eight or more. -/
def nibLanes {S : Shape} (wb amts : IVec S 32) : IVec S 32 :=
  subi (andi (shrsi wb amts) (broadcast S 15#32))
    (muli (broadcast S 16#32)
      (extui 32 (cmpi .sge (andi (shrsi wb amts) (broadcast S 15#32)) (broadcast S 8#32)) natLt_1_32))

/-- At a lane that holds the word `w` and the shift of nibble `k`, the chain gives nibble `k` of `w`. -/
theorem nibLanes_apply {S : Shape} (wb amts : IVec S 32) (i : S.Idx) (w : BitVec 32) (k : Fin 8)
    (hw : wb i = w) (ha : amts i = amt k) : nibLanes wb amts i = nib w k := by
  show IntOp.subi (IntOp.andi (IntOp.shrsi .vector (wb i) (amts i)) 15#32)
      (IntOp.muli 16#32 ((IntOp.cmpi .sge (IntOp.andi (IntOp.shrsi .vector (wb i) (amts i)) 15#32) 8#32).setWidth 32))
    = nibU .vector w k
  rw [hw, ha, nibU]

/-- The lane shifts: lane `k` holds `4 · k`. -/
theorem shifts_apply (u v : Fin 1) (k : Fin 8) : k0_pay4 (ix3 u v k) = amt k := by
  unfold k0_pay4
  refine (shapeCast_a_11a_apply _ _ u v k).trans ?_
  show IntOp.muli (shapeCast S8 (iota .tc S1x8 32 [1] iota_S1x8_d1_w32) shapeCasts_S1x8_S8 (ix1 k)) 4#32 = amt k
  rw [shapeCast_1a_a_apply, iota_single_apply]
  rfl

/-- A `[128, 512]` array of words spread over eight lanes each: every lane of word `(q, d)` holds that word. -/
theorem spread0_apply (w : Vec Ideal S128x512 .i32) (q : Fin 128) (d : Fin 512) (k : Fin 8) :
    k0_pay5 (F := Ideal) w (ix3 q d k) = w (ix2 q d) := by
  unfold k0_pay5
  exact (broadcastTo_ab1_abc_apply _ _ q d k).trans (shapeCast_ab_ab1_apply _ _ q d 0)

/-! ## The matrix products into a zero accumulator

The operand indices of a product at an output index and a contraction index, axis by axis; then the product at an
entry as the sum over the one contracted axis. -/

theorem lhs0_0 (i : S256x128.Idx) (c : dot_S256x4096_S128x4096_S256x128_1_1_0_0_n_n.contr.Idx) :
    (dot_S256x4096_S128x4096_S256x128_1_1_0_0_n_n.lhsIdx i c 0).val = (i 0).val := by
  unfold DotDims.lhsIdx
  rw [dif_neg (show ¬(0 : Fin S256x4096.rank) ∈ dot_S256x4096_S128x4096_S256x128_1_1_0_0_n_n.lhsBatch by decide), dif_pos (show (0 : Fin S256x4096.rank) ∈ dot_S256x4096_S128x4096_S256x128_1_1_0_0_n_n.lhsNonContracting by decide)]
  rfl
theorem lhs0_1 (i : S256x128.Idx) (c : dot_S256x4096_S128x4096_S256x128_1_1_0_0_n_n.contr.Idx) :
    (dot_S256x4096_S128x4096_S256x128_1_1_0_0_n_n.lhsIdx i c 1).val = (c ⟨0, by decide⟩).val :=
  dot_S256x4096_S128x4096_S256x128_1_1_0_0_n_n.lhsIdx_val_of_single rfl i c
theorem rhs0_0 (i : S256x128.Idx) (c : dot_S256x4096_S128x4096_S256x128_1_1_0_0_n_n.contr.Idx) :
    (dot_S256x4096_S128x4096_S256x128_1_1_0_0_n_n.rhsIdx i c 0).val = (i 1).val := by
  unfold DotDims.rhsIdx
  rw [dif_neg (show ¬(0 : Fin S128x4096.rank) ∈ dot_S256x4096_S128x4096_S256x128_1_1_0_0_n_n.rhsBatch by decide), dif_pos (show (0 : Fin S128x4096.rank) ∈ dot_S256x4096_S128x4096_S256x128_1_1_0_0_n_n.rhsNonContracting by decide)]
  rfl
theorem rhs0_1 (i : S256x128.Idx) (c : dot_S256x4096_S128x4096_S256x128_1_1_0_0_n_n.contr.Idx) :
    (dot_S256x4096_S128x4096_S256x128_1_1_0_0_n_n.rhsIdx i c 1).val = (c ⟨0, by decide⟩).val :=
  dot_S256x4096_S128x4096_S256x128_1_1_0_0_n_n.rhsIdx_val_of_single rfl i c

/-- A `[256, 4096]` by `[128, 4096]` product over the shared last axis, into zero: entry `(p, q)` is the sum over
    the 4096 places of row `p` of the left times row `q` of the right. -/
theorem matmul0_apply (l : FVec Ideal S256x4096 .bf16) (r : FVec Ideal S128x4096 .bf16) (p : Fin 256) (q : Fin 128) :
    matmul dot_S256x4096_S128x4096_S256x128_1_1_0_0_n_n none l r (constant (F := Ideal) S256x128 .f32 0x00000000#32) (ix2 p q)
      = ∑ h : Fin 4096, l (ix2 p h) * r (ix2 q h) := by
  show FloatOps.matmul dot_S256x4096_S128x4096_S256x128_1_1_0_0_n_n none l r (constant (F := Ideal) S256x128 .f32 0x00000000#32) (ix2 p q) = _
  rw [Ideal.matmul_constant_zero_apply, ← Equiv.sum_comp (contrEquiv1 dot_S256x4096_S128x4096_S256x128_1_1_0_0_n_n 4096 rfl rfl).symm]
  refine Finset.sum_congr rfl fun k _ => ?_
  have hk := contrEquiv1_symm_val dot_S256x4096_S128x4096_S256x128_1_1_0_0_n_n 4096 rfl rfl k
  have el : dot_S256x4096_S128x4096_S256x128_1_1_0_0_n_n.lhsIdx (ix2 p q) ((contrEquiv1 dot_S256x4096_S128x4096_S256x128_1_1_0_0_n_n 4096 rfl rfl).symm k) = ix2 p k := funext fun a => Fin.ext (by
    match a with
    | ⟨0, _⟩ => exact lhs0_0 _ _
    | ⟨1, _⟩ => exact (lhs0_1 _ _).trans hk)
  have er : dot_S256x4096_S128x4096_S256x128_1_1_0_0_n_n.rhsIdx (ix2 p q) ((contrEquiv1 dot_S256x4096_S128x4096_S256x128_1_1_0_0_n_n 4096 rfl rfl).symm k) = ix2 q k := funext fun a => Fin.ext (by
    match a with
    | ⟨0, _⟩ => exact rhs0_0 _ _
    | ⟨1, _⟩ => exact (rhs0_1 _ _).trans hk)
  rw [el, er]

/-! ## A dequantized `[128, 4096]` weight slice -/

/-- The slice from the lane shifts, the words spread over their eight lanes, and the scales: the signed nibbles
    flattened to rows of 4096, made floats, cut into 32 groups of 128, each group times its scale, flattened again. -/
def dq0 (amts : IVec S1x1x8 32) (wb : IVec S128x512x8 32) (sc : FVec Ideal S128x32 .f32) : FVec Ideal S128x4096 .bf16 :=
  truncf .bf16
    (shapeCast S128x4096
      (mulf
        (shapeCast S128x32x128
          (sitofp .f32
            (shapeCast S128x4096 (nibLanes wb (broadcastTo S128x512x8 amts broadcasts_S1x1x8_S128x512x8))
              shapeCasts_S128x512x8_S128x4096))
          shapeCasts_S128x4096_S128x32x128)
        (broadcastTo S128x32x128 (shapeCast S128x32x1 sc shapeCasts_S128x32_S128x32x1) broadcasts_S128x32x1_S128x32x128))
      shapeCasts_S128x32x128_S128x4096)
    bitsLt_bf16_f32

/-- Entry `h` of row `q` of the slice: nibble `h % 8` of word `h / 8` of the row, times scale `h / 128` of the row. -/
theorem dq0_apply (w : Vec Ideal S128x512 .i32) (sc : FVec Ideal S128x32 .f32) (q : Fin 128) (h : Fin 4096) :
    dq0 k0_pay4 (k0_pay5 (F := Ideal) w) sc (ix2 q h)
      = wt (w (ix2 q (word4096 h))) (nibOf h) (sc (ix2 q (group4096 h))) := by
  unfold dq0
  rw [truncf_apply]
  refine (shapeCast_abc_an_apply _ shapeCasts_S128x32x128_S128x4096 rfl q h (group4096 h)
    (⟨h.val % 128, Nat.mod_lt _ (by decide)⟩ : Fin 128) (Nat.div_add_mod' h.val 128)).trans ?_
  unfold wt
  refine congrArg₂ (· * ·) ?_ ?_
  · refine (shapeCast_an_abc_apply _ shapeCasts_S128x4096_S128x32x128 rfl q (group4096 h)
      (⟨h.val % 128, Nat.mod_lt _ (by decide)⟩ : Fin 128) h (Nat.div_add_mod' h.val 128)).trans ?_
    refine congrArg (fun b : BitVec 32 => (((b.toInt : ℝ)) : EReal)) ?_
    refine (shapeCast_abc_an_apply _ shapeCasts_S128x512x8_S128x4096 rfl q h (word4096 h) (nibOf h)
      (Nat.div_add_mod' h.val 8)).trans ?_
    exact nibLanes_apply _ _ _ _ _ (spread0_apply w q (word4096 h) (nibOf h))
      ((broadcastTo_11c_abc_apply _ _ q (word4096 h) (nibOf h)).trans (shifts_apply 0 0 (nibOf h)))
  · exact (broadcastTo_ab1_abc_apply _ _ q (group4096 h) _).trans
      (shapeCast_ab_ab1_apply _ _ q (group4096 h) 0)

/-! ## The gate / up tile -/

/-- The tile's token rows, narrowed: the same entries. -/
theorem rows0_apply (x : Vec Ideal S256x4096 .f32) (j : S256x4096.Idx) : k0_pay2 (F := Ideal) x j = x j := by
  unfold k0_pay2
  rw [truncf_apply, shapeCast_self]

/-- A projection of the tile's token rows onto a dequantized slice: at `(p, q)` the sum over the 4096 entries. -/
theorem proj0_apply (x : Vec Ideal S256x4096 .f32) (w : Vec Ideal S128x512 .i32) (sc : FVec Ideal S128x32 .f32)
    (p : Fin 256) (q : Fin 128) :
    matmul dot_S256x4096_S128x4096_S256x128_1_1_0_0_n_n none (k0_pay2 (F := Ideal) x) (dq0 k0_pay4 (k0_pay5 (F := Ideal) w) sc)
        (constant (F := Ideal) S256x128 .f32 0x00000000#32) (ix2 p q)
      = ∑ h : Fin 4096, x (ix2 p h) * wt (w (ix2 q (word4096 h))) (nibOf h) (sc (ix2 q (group4096 h))) := by
  refine (matmul0_apply _ _ p q).trans ?_
  refine Finset.sum_congr rfl fun h _ => ?_
  rw [rows0_apply, dq0_apply]

/-- The up payload is the product of the up projection with the gate payload, narrowed. -/
theorem k0_pay1_eq (v2 : FVec Ideal S256x4096 .bf16) (v32 : FVec Ideal S256x128 .f32) (v34 : Vec Ideal S128x32 .f32)
    (v40 : IVec S1x1x8 32) (v41 : IVec S128x512x8 32) :
    k0_pay1 (F := Ideal) v2 v32 v34 v40 v41
      = truncf .bf16
          (mulf (matmul dot_S256x4096_S128x4096_S256x128_1_1_0_0_n_n none v2 (dq0 v40 v41 v34)
            (constant (F := Ideal) S256x128 .f32 0x00000000#32)) v32) bitsLt_bf16_f32 := rfl

/-- The gate payload is `z · σ z` of the gate projection `z`. -/
theorem k0_pay3_eq (v0 : Vec Ideal S256x4096 .f32) (v3 : Vec Ideal S128x512 .i32) (v4 : Vec Ideal S128x32 .f32) :
    k0_pay3 (F := Ideal) v0 v3 v4
      = mulf (matmul dot_S256x4096_S128x4096_S256x128_1_1_0_0_n_n none (k0_pay2 (F := Ideal) v0) (dq0 k0_pay4 (k0_pay5 (F := Ideal) v3) v4)
            (constant (F := Ideal) S256x128 .f32 0x00000000#32))
          (logistic (matmul dot_S256x4096_S128x4096_S256x128_1_1_0_0_n_n none (k0_pay2 (F := Ideal) v0) (dq0 k0_pay4 (k0_pay5 (F := Ideal) v3) v4)
            (constant (F := Ideal) S256x128 .f32 0x00000000#32))) := rfl

/-- The gate / up tile at `(p, q)`. -/
theorem tile_apply (x : Vec Ideal S256x4096 .f32) (pg pu : Vec Ideal S128x512 .i32) (qg qu : Vec Ideal S128x32 .f32)
    (p : Fin 256) (q : Fin 128) :
    k0_pay1 (F := Ideal) (k0_pay2 x) (k0_pay3 x pg qg) qu k0_pay4 (k0_pay5 (F := Ideal) pu) (ix2 p q)
      = (∑ h : Fin 4096, x (ix2 p h) * wt (pu (ix2 q (word4096 h))) (nibOf h) (qu (ix2 q (group4096 h))))
        * silu (∑ h : Fin 4096, x (ix2 p h) * wt (pg (ix2 q (word4096 h))) (nibOf h) (qg (ix2 q (group4096 h)))) := by
  rw [k0_pay1_eq, truncf_apply, mulf_apply, proj0_apply, k0_pay3_eq, mulf_apply]
  show _ * (_ * Ideal.logistic _) = _
  rw [proj0_apply]
  rfl

theorem lhs1_0 (i : S128x1024.Idx) (c : dot_S128x128_S1024x128_S128x1024_1_1_0_0_n_n.contr.Idx) :
    (dot_S128x128_S1024x128_S128x1024_1_1_0_0_n_n.lhsIdx i c 0).val = (i 0).val := by
  unfold DotDims.lhsIdx
  rw [dif_neg (show ¬(0 : Fin S128x128.rank) ∈ dot_S128x128_S1024x128_S128x1024_1_1_0_0_n_n.lhsBatch by decide), dif_pos (show (0 : Fin S128x128.rank) ∈ dot_S128x128_S1024x128_S128x1024_1_1_0_0_n_n.lhsNonContracting by decide)]
  rfl
theorem lhs1_1 (i : S128x1024.Idx) (c : dot_S128x128_S1024x128_S128x1024_1_1_0_0_n_n.contr.Idx) :
    (dot_S128x128_S1024x128_S128x1024_1_1_0_0_n_n.lhsIdx i c 1).val = (c ⟨0, by decide⟩).val :=
  dot_S128x128_S1024x128_S128x1024_1_1_0_0_n_n.lhsIdx_val_of_single rfl i c
theorem rhs1_0 (i : S128x1024.Idx) (c : dot_S128x128_S1024x128_S128x1024_1_1_0_0_n_n.contr.Idx) :
    (dot_S128x128_S1024x128_S128x1024_1_1_0_0_n_n.rhsIdx i c 0).val = (i 1).val := by
  unfold DotDims.rhsIdx
  rw [dif_neg (show ¬(0 : Fin S1024x128.rank) ∈ dot_S128x128_S1024x128_S128x1024_1_1_0_0_n_n.rhsBatch by decide), dif_pos (show (0 : Fin S1024x128.rank) ∈ dot_S128x128_S1024x128_S128x1024_1_1_0_0_n_n.rhsNonContracting by decide)]
  rfl
theorem rhs1_1 (i : S128x1024.Idx) (c : dot_S128x128_S1024x128_S128x1024_1_1_0_0_n_n.contr.Idx) :
    (dot_S128x128_S1024x128_S128x1024_1_1_0_0_n_n.rhsIdx i c 1).val = (c ⟨0, by decide⟩).val :=
  dot_S128x128_S1024x128_S128x1024_1_1_0_0_n_n.rhsIdx_val_of_single rfl i c

/-- A `[128, 128]` by `[1024, 128]` product over the shared last axis, into zero: entry `(p, q)` is the sum over
    the 128 places of row `p` of the left times row `q` of the right. -/
theorem matmul1_apply (l : FVec Ideal S128x128 .bf16) (r : FVec Ideal S1024x128 .bf16) (p : Fin 128) (q : Fin 1024) :
    matmul dot_S128x128_S1024x128_S128x1024_1_1_0_0_n_n none l r (constant (F := Ideal) S128x1024 .f32 0x00000000#32) (ix2 p q)
      = ∑ k : Fin 128, l (ix2 p k) * r (ix2 q k) := by
  show FloatOps.matmul dot_S128x128_S1024x128_S128x1024_1_1_0_0_n_n none l r (constant (F := Ideal) S128x1024 .f32 0x00000000#32) (ix2 p q) = _
  rw [Ideal.matmul_constant_zero_apply, ← Equiv.sum_comp (contrEquiv1 dot_S128x128_S1024x128_S128x1024_1_1_0_0_n_n 128 rfl rfl).symm]
  refine Finset.sum_congr rfl fun k _ => ?_
  have hk := contrEquiv1_symm_val dot_S128x128_S1024x128_S128x1024_1_1_0_0_n_n 128 rfl rfl k
  have el : dot_S128x128_S1024x128_S128x1024_1_1_0_0_n_n.lhsIdx (ix2 p q) ((contrEquiv1 dot_S128x128_S1024x128_S128x1024_1_1_0_0_n_n 128 rfl rfl).symm k) = ix2 p k := funext fun a => Fin.ext (by
    match a with
    | ⟨0, _⟩ => exact lhs1_0 _ _
    | ⟨1, _⟩ => exact (lhs1_1 _ _).trans hk)
  have er : dot_S128x128_S1024x128_S128x1024_1_1_0_0_n_n.rhsIdx (ix2 p q) ((contrEquiv1 dot_S128x128_S1024x128_S128x1024_1_1_0_0_n_n 128 rfl rfl).symm k) = ix2 q k := funext fun a => Fin.ext (by
    match a with
    | ⟨0, _⟩ => exact rhs1_0 _ _
    | ⟨1, _⟩ => exact (rhs1_1 _ _).trans hk)
  rw [el, er]

/-! ## One group's dequantized `[1024, 128]` weight slice, and the step of the down projection -/

/-- The slice of one group from the lane shifts, the group's words `[1, 1024, 16]` and its scales `[1, 1024, 1]`:
    each word spread over eight lanes, the signed nibbles flattened to rows of 128, made floats, times the row's scale. -/
def dq1 (amts : IVec S1x1x8 32) (w : IVec S1x1024x16 32) (sc : FVec Ideal S1x1024x1 .f32) : FVec Ideal S1024x128 .bf16 :=
  truncf .bf16
    (shapeCast S1024x128
      (mulf
        (shapeCast S1024x1x128
          (sitofp .f32
            (shapeCast S1024x128
              (nibLanes
                (broadcastTo S1024x16x8
                  (shapeCast S1024x16x1 (shapeCast S1024x16 w shapeCasts_S1x1024x16_S1024x16) shapeCasts_S1024x16_S1024x16x1)
                  broadcasts_S1024x16x1_S1024x16x8)
                (broadcastTo S1024x16x8 amts broadcasts_S1x1x8_S1024x16x8))
              shapeCasts_S1024x16x8_S1024x128))
          shapeCasts_S1024x128_S1024x1x128)
        (broadcastTo S1024x1x128
          (shapeCast S1024x1x1 (shapeCast S1024x1 sc shapeCasts_S1x1024x1_S1024x1) shapeCasts_S1024x1_S1024x1x1)
          broadcasts_S1024x1x1_S1024x1x128))
      shapeCasts_S1024x1x128_S1024x128)
    bitsLt_bf16_f32

/-- Entry `k` of row `q` of the group's slice: nibble `k % 8` of word `k / 8` of the row, times the row's scale. -/
theorem dq1_apply (w : Vec Ideal S1x1024x16 .i32) (sc : FVec Ideal S1x1024x1 .f32) (q : Fin 1024) (k : Fin 128) :
    dq1 k0_pay4 w sc (ix2 q k)
      = wt (w (ix3 (0 : Fin 1) q (word128 k))) (nibOf k) (sc (ix3 (0 : Fin 1) q (0 : Fin 1))) := by
  unfold dq1
  rw [truncf_apply]
  refine (shapeCast_abc_an_apply _ shapeCasts_S1024x1x128_S1024x128 rfl q k (0 : Fin 1) k (by simp)).trans ?_
  unfold wt
  refine congrArg₂ (· * ·) ?_ ?_
  · refine (shapeCast_an_abc_apply _ shapeCasts_S1024x128_S1024x1x128 rfl q (0 : Fin 1) k k (by simp)).trans ?_
    refine congrArg (fun b : BitVec 32 => (((b.toInt : ℝ)) : EReal)) ?_
    refine (shapeCast_abc_an_apply _ shapeCasts_S1024x16x8_S1024x128 rfl q k (word128 k) (nibOf k)
      (Nat.div_add_mod' k.val 8)).trans ?_
    exact nibLanes_apply _ _ _ _ _
      ((broadcastTo_ab1_abc_apply _ _ q (word128 k) (nibOf k)).trans
        ((shapeCast_ab_ab1_apply _ _ q (word128 k) 0).trans (shapeCast_1ab_ab_apply _ _ q (word128 k))))
      ((broadcastTo_11c_abc_apply _ _ q (word128 k) (nibOf k)).trans (shifts_apply 0 0 (nibOf k)))
  · exact (broadcastTo_ab1_abc_apply _ _ q (0 : Fin 1) k).trans
      ((shapeCast_ab_ab1_apply _ _ q (0 : Fin 1) 0).trans (shapeCast_1ab_ab_apply _ _ q (0 : Fin 1)))

/-- The step's payload is the accumulator plus the product of the intermediate's block with the group's slice. -/
theorem k1_pay4_eq (v3 : Vec Ideal S1x1024x16 .i32) (v5 : Vec Ideal S1x1024x1 .f32) (v32 : Vec Ideal S128x128 .bf16)
    (v35 : Vec Ideal S128x1024 .f32) :
    k1_pay4 (F := Ideal) v3 v5 v32 v35
      = addf v35
          (matmul dot_S128x128_S1024x128_S128x1024_1_1_0_0_n_n none
            (shapeCast S128x128 v32 shapeCasts_S128x128_S128x128 : FVec Ideal S128x128 .bf16)
            (dq1 k0_pay4 v3 v5) (constant (F := Ideal) S128x1024 .f32 0x00000000#32)) := rfl

/-- One group's step of the down projection at `(p, q)`: the accumulator's entry plus the group's 128 products. -/
theorem step_apply (v3 : Vec Ideal S1x1024x16 .i32) (v5 : Vec Ideal S1x1024x1 .f32) (v32 : Vec Ideal S128x128 .bf16)
    (v35 : Vec Ideal S128x1024 .f32) (p : Fin 128) (q : Fin 1024) :
    k1_pay4 (F := Ideal) v3 v5 v32 v35 (ix2 p q)
      = v35 (ix2 p q) + ∑ k : Fin 128, v32 (ix2 p k)
          * wt (v3 (ix3 (0 : Fin 1) q (word128 k))) (nibOf k) (v5 (ix3 (0 : Fin 1) q (0 : Fin 1))) := by
  rw [k1_pay4_eq, addf_apply, matmul1_apply]
  refine congrArg (v35 (ix2 p q) + ·) (Finset.sum_congr rfl fun k _ => ?_)
  rw [shapeCast_self, dq1_apply]

/-! ## The accumulator's clearing, storing back, and the output tile -/

/-- The cleared accumulator is zero everywhere. -/
theorem cleared_apply (j : S128x1024.Idx) : k1_pay3 (F := Ideal) j = 0 := by
  unfold k1_pay3
  rw [shapeCast_self]
  exact Ideal.ofBits_zero_f32

/-- Storing the accumulator back changes nothing (a reshape to the same shape). -/
theorem stored_eq (v : FVec Ideal S128x1024 .f32) : k1_pay1 (F := Ideal) v = v := by
  unfold k1_pay1
  exact shapeCast_self v _

/-- The output tile: accumulator plus residual, entry by entry. -/
theorem final_apply (a b : Vec Ideal S128x1024 .f32) (j : S128x1024.Idx) : k1_pay2 (F := Ideal) a b j = a j + b j := by
  unfold k1_pay2
  rw [shapeCast_self]
  rfl

end Cert.KernelIdeal.Val

end
-- ==== Proof.KiValue0.lean ====
/-
  What the gate / up region leaves in its output array, over the extended reals.

  The region's grid is 16 × 86. Point `t = (a, b)` stores the 256 × 128 tile at block `(a, b)` of the
  intermediate, computed from rows `256 a, …, 256 a + 255` of the activations and rows `128 b, …, 128 b + 127` of
  the packed gate and up weights and of their scales. Entry `(p, q)` of that tile is the up projection of activation
  row `256 a + p` onto weight row `128 b + q`, times `z · σ z` of the gate projection `z` of the same rows: entry
  `(256 a + p, 128 b + q)` of the intermediate `interF`. The 1376 tiles cover the `4096 × 11008` array, each entry
  `(r, i)` lying in the tile of point `(r / 256) · 86 + i / 128`, so the array ends holding `interF`.
-/
import proofs.«401815_j72722386256028_3_alg».proof.Proof.KiRegion0
import proofs.«401815_j72722386256028_3_alg».proof.Proof.KiPayloads
import proofs.«401815_j72722386256028_3_alg».proof.Proof.Spec
import Idealize.ShloMosaic.Lib.Pipeline.Value
import Idealize.ShloMosaic.Lib.ValueIdx

noncomputable section

namespace Cert.KernelIdeal.Val

open Idealize.ShloMosaic Idealize.ShloMosaic.ValueIdx Idealize.ShloMosaic.TcCoe
open Cert.KernelIdeal Cert.KernelIdeal.Gen Cert.KernelIdeal.Fr Cert.Spec

/-- The offsets of a whole rank-2 buffer are zero on both axes. -/
theorem zeros2 : (![0, 0] : Fin 2 → Nat) = fun _ => 0 := funext fun a => by fin_cases a <;> rfl

/-- The printed index maps, decided once over the grid. The output's block at point `t` is `(t / 86, t % 86)`; the
    activations move with the output's row block and stay at column block 0; the two packed weights and the two
    scales move with the output's column block and stay at column block 0. -/
theorem grid_index : ∀ t : Fin cfg0.N,
    win0_5.index t (0 : Fin 2) = t.val / 86 ∧ win0_5.index t (1 : Fin 2) = t.val % 86
    ∧ win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = win0_5.index t (1 : Fin 2) ∧ win0_4.index t (1 : Fin 2) = 0 :=
  (by decide +kernel : ∀ t : Fin grid0.N, _)

/-! ## One entry of a tile -/

/-- A tile entry is the intermediate's entry, whenever the five blocks agree with the arrays along the rows that the
    entry uses: activation row `j 0` of the block with row `k 0` of the array, and row `j 1` of each weight and scale
    block with row `k 1` of its array. -/
theorem tile_eq_inter (X : SF.Idx → EReal) (Pg Pu : SP.Idx → BitVec 32) (Qg Qu : SQ.Idx → EReal)
    (x : Vec Ideal S256x4096 .f32) (pg pu : Vec Ideal S128x512 .i32) (qg qu : Vec Ideal S128x32 .f32)
    (j : S256x128.Idx) (k : SI.Idx)
    (hx : ∀ h : Fin 4096, x (ix2 (j 0) h) = X (ix2 (k 0) h))
    (hpg : ∀ w : Fin 512, pg (ix2 (j 1) w) = Pg (ix2 (k 1) w))
    (hpu : ∀ w : Fin 512, pu (ix2 (j 1) w) = Pu (ix2 (k 1) w))
    (hqg : ∀ g : Fin 32, qg (ix2 (j 1) g) = Qg (ix2 (k 1) g))
    (hqu : ∀ g : Fin 32, qu (ix2 (j 1) g) = Qu (ix2 (k 1) g)) :
    k0_pay1 (F := Ideal) (k0_pay2 x) (k0_pay3 x pg qg) qu k0_pay4 (k0_pay5 (F := Ideal) pu) j
      = interF X Pg Pu Qg Qu k := by
  obtain ⟨p, q, rfl⟩ : ∃ (p : Fin 256) (q : Fin 128), j = ix2 p q := ⟨j 0, j 1, eq_ix2 j⟩
  have hx' : ∀ h : Fin 4096, x (ix2 p h) = X (ix2 (k 0) h) := hx
  have hpg' : ∀ w : Fin 512, pg (ix2 q w) = Pg (ix2 (k 1) w) := hpg
  have hpu' : ∀ w : Fin 512, pu (ix2 q w) = Pu (ix2 (k 1) w) := hpu
  have hqg' : ∀ g : Fin 32, qg (ix2 q g) = Qg (ix2 (k 1) g) := hqg
  have hqu' : ∀ g : Fin 32, qu (ix2 q g) = Qu (ix2 (k 1) g) := hqu
  rw [tile_apply]
  show _ = projF X Pu Qu (k 0) (k 1) * silu (projF X Pg Qg (k 0) (k 1))
  unfold projF wUp
  simp only [hx', hpg', hpu', hqg', hqu']

/-! ## The blocks, read where the output's tile says -/

variable (V : (c : Dev nD) → (b : Ref sig .tc) → Buf (Elt Ideal) ((c : Thread nD τ).loc b))

/-- Row `p` of the activations' block at point `t` is row `r` of the array, `r` being row `p` of the output's row block. -/
theorem blockX_apply (c : Dev nD) (t : Fin cfg0.N) (p : Fin 256) (h : Fin 4096) (r : Fin 4096)
    (hr : r.val = win0_5.index t (0 : Fin 2) * 256 + p.val) :
    (iblk0 (F := Ideal) V c 0 t : Vec Ideal S256x4096 .f32) (ix2 p h) = (V c main_v0 : SF.Idx → EReal) (ix2 r h) := by
  obtain ⟨-, -, e0, e1, -⟩ := grid_index t
  show V c main_v0 (((cfg0.win 0).blk t).view.emb (ix2 p h)) = V c main_v0 (ix2 r h)
  refine congrArg _ (funext fun a => Fin.ext ?_)
  match a with
  | ⟨0, _⟩ => show win0_0.index t (0 : Fin 2) * 256 + 1 * p.val = r.val; omega
  | ⟨1, _⟩ => show win0_0.index t (1 : Fin 2) * 4096 + 1 * h.val = h.val; omega

/-- Row `q` of the packed gate weights' block at point `t` is row `i` of the array, `i` being row `q` of the output's column block. -/
theorem blockPg_apply (c : Dev nD) (t : Fin cfg0.N) (q : Fin 128) (w : Fin 512) (i : Fin 11008)
    (hi : i.val = win0_5.index t (1 : Fin 2) * 128 + q.val) :
    (iblk0 (F := Ideal) V c 1 t : Vec Ideal S128x512 .i32) (ix2 q w) = (V c main_arg2 : SP.Idx → BitVec 32) (ix2 i w) := by
  obtain ⟨-, -, -, -, e0, e1, -, -, -, -, -, -⟩ := grid_index t
  show V c main_arg2 (((cfg0.win 1).blk t).view.emb (ix2 q w)) = V c main_arg2 (ix2 i w)
  refine congrArg _ (funext fun a => Fin.ext ?_)
  match a with
  | ⟨0, _⟩ => show win0_1.index t (0 : Fin 2) * 128 + 1 * q.val = i.val; omega
  | ⟨1, _⟩ => show win0_1.index t (1 : Fin 2) * 512 + 1 * w.val = w.val; omega

/-- The same for the packed up weights. -/
theorem blockPu_apply (c : Dev nD) (t : Fin cfg0.N) (q : Fin 128) (w : Fin 512) (i : Fin 11008)
    (hi : i.val = win0_5.index t (1 : Fin 2) * 128 + q.val) :
    (iblk0 (F := Ideal) V c 2 t : Vec Ideal S128x512 .i32) (ix2 q w) = (V c main_arg3 : SP.Idx → BitVec 32) (ix2 i w) := by
  obtain ⟨-, -, -, -, -, -, e0, e1, -, -, -, -⟩ := grid_index t
  show V c main_arg3 (((cfg0.win 2).blk t).view.emb (ix2 q w)) = V c main_arg3 (ix2 i w)
  refine congrArg _ (funext fun a => Fin.ext ?_)
  match a with
  | ⟨0, _⟩ => show win0_2.index t (0 : Fin 2) * 128 + 1 * q.val = i.val; omega
  | ⟨1, _⟩ => show win0_2.index t (1 : Fin 2) * 512 + 1 * w.val = w.val; omega

/-- The same for the gate weights' scales. -/
theorem blockQg_apply (c : Dev nD) (t : Fin cfg0.N) (q : Fin 128) (w : Fin 32) (i : Fin 11008)
    (hi : i.val = win0_5.index t (1 : Fin 2) * 128 + q.val) :
    (iblk0 (F := Ideal) V c 3 t : Vec Ideal S128x32 .f32) (ix2 q w) = (V c main_arg5 : SQ.Idx → EReal) (ix2 i w) := by
  obtain ⟨-, -, -, -, -, -, -, -, e0, e1, -, -⟩ := grid_index t
  show V c main_arg5 (((cfg0.win 3).blk t).view.emb (ix2 q w)) = V c main_arg5 (ix2 i w)
  refine congrArg _ (funext fun a => Fin.ext ?_)
  match a with
  | ⟨0, _⟩ => show win0_3.index t (0 : Fin 2) * 128 + 1 * q.val = i.val; omega
  | ⟨1, _⟩ => show win0_3.index t (1 : Fin 2) * 32 + 1 * w.val = w.val; omega

/-- The same for the up weights' scales. -/
theorem blockQu_apply (c : Dev nD) (t : Fin cfg0.N) (q : Fin 128) (w : Fin 32) (i : Fin 11008)
    (hi : i.val = win0_5.index t (1 : Fin 2) * 128 + q.val) :
    (iblk0 (F := Ideal) V c 4 t : Vec Ideal S128x32 .f32) (ix2 q w) = (V c main_arg6 : SQ.Idx → EReal) (ix2 i w) := by
  obtain ⟨-, -, -, -, -, -, -, -, -, -, e0, e1⟩ := grid_index t
  show V c main_arg6 (((cfg0.win 4).blk t).view.emb (ix2 q w)) = V c main_arg6 (ix2 i w)
  refine congrArg _ (funext fun a => Fin.ext ?_)
  match a with
  | ⟨0, _⟩ => show win0_4.index t (0 : Fin 2) * 128 + 1 * q.val = i.val; omega
  | ⟨1, _⟩ => show win0_4.index t (1 : Fin 2) * 32 + 1 * w.val = w.val; omega

/-! ## What a point writes back -/

/-- Point `t` writes back its block of the intermediate of the arrays as the region finds them. -/
theorem flushed_eq (c : Dev nD) (t : Fin cfg0.N) :
    (dat0 (F := Ideal) V c).flushed 5 t
      = ((cfg0.win 5).blk t).view.read (Elt Ideal)
          (interF (V c main_v0) (V c main_arg2) (V c main_arg3) (V c main_arg5) (V c main_arg6)) := by
  show (cfg0.win 5).cut (grid0.coords t) ((dat0 (F := Ideal) V c).after 5 t) = _
  rw [after0_5]
  unfold tile0
  rw [View.canon_unit_zero zeros2]
  simp only [View.ld_unit_zero (S := S256x4096) zeros2, View.ld_unit_zero (S := S128x512) zeros2,
    View.ld_unit_zero (S := S128x32) zeros2]
  funext j
  -- the entry of the array under entry `j` of the block: row `256 a + j 0`, column `128 b + j 1`
  have hr : ((((cfg0.win 5).blk t).view.emb j) 0).val = win0_5.index t (0 : Fin 2) * 256 + (j 0).val := by
    show win0_5.index t (0 : Fin 2) * 256 + 1 * (j 0).val = _; omega
  have hi : ((((cfg0.win 5).blk t).view.emb j) 1).val = win0_5.index t (1 : Fin 2) * 128 + (j 1).val := by
    show win0_5.index t (1 : Fin 2) * 128 + 1 * (j 1).val = _; omega
  exact tile_eq_inter (V c main_v0) (V c main_arg2) (V c main_arg3) (V c main_arg5) (V c main_arg6)
    (iblk0 (F := Ideal) V c 0 t) (iblk0 (F := Ideal) V c 1 t) (iblk0 (F := Ideal) V c 2 t)
    (iblk0 (F := Ideal) V c 3 t) (iblk0 (F := Ideal) V c 4 t) j (((cfg0.win 5).blk t).view.emb j)
    (fun h => blockX_apply V c t (j 0) h _ hr)
    (fun w => blockPg_apply V c t (j 1) w _ hi)
    (fun w => blockPu_apply V c t (j 1) w _ hi)
    (fun g => blockQg_apply V c t (j 1) g _ hi)
    (fun g => blockQu_apply V c t (j 1) g _ hi)

/-! ## The tiles cover the array -/

/-- An entry of the array is in point `t`'s tile iff each coordinate is in the tile's range on its axis. -/
theorem mem_tile (t : Fin cfg0.N) (i : S4096x11008.Idx) :
    i ∈ ((cfg0.win 5).blk t).view.set
      ↔ ∀ a : Fin 2, win0_5.index t a * S256x128.size a ≤ (i a).val
          ∧ (i a).val < win0_5.index t a * S256x128.size a + S256x128.size a := by
  show i ∈ ((View.whole main_v2).slice (win0_5.rect t)).set ↔ _
  rw [View.set_slice_whole, Rect.mem_set_unit]
  exact Iff.rfl

/-- Entry `(r, i)` lies in the tile of the point `(r / 256) · 86 + i / 128`, which writes back as every point does. -/
theorem tiles_cover (i : S4096x11008.Idx) :
    ∃ t : Fin cfg0.N, (cfg0.win 5).flush t = true ∧ i ∈ ((cfg0.win 5).blk t).view.set := by
  have h0 : (i 0).val < 4096 := (i 0).isLt
  have h1 : (i 1).val < 11008 := (i 1).isLt
  have hN : cfg0.N = 1376 := N_0
  obtain ⟨t, ht⟩ : ∃ t : Fin cfg0.N, t.val = (i 0).val / 256 * 86 + (i 1).val / 128 :=
    ⟨⟨(i 0).val / 256 * 86 + (i 1).val / 128, by rw [hN]; omega⟩, rfl⟩
  obtain ⟨e0, e1, -⟩ := grid_index t
  refine ⟨t, flush0_5 t, ?_⟩
  rw [mem_tile]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 128 ≤ (i 1).val ∧ (i 1).val < win0_5.index t (1 : Fin 2) * 128 + 128
    omega

/-! ## The array the region leaves -/

/-- After the region the intermediate's array holds `interF` of the arrays the region found. -/
theorem inter_arr (c : Dev nD) :
    (dat0 (F := Ideal) V c).arrAt 5 cfg0.N
      = Cert.Spec.interF (V c main_v0) (V c main_arg2) (V c main_arg3) (V c main_arg5) (V c main_arg6) :=
  (dat0 (F := Ideal) V c).arrAt_eq_of_cover 5
    (interF (V c main_v0) (V c main_arg2) (V c main_arg3) (V c main_arg5) (V c main_arg6))
    (fun t _ => flushed_eq V c t) tiles_cover

end Cert.KernelIdeal.Val

end
-- ==== Proof.KiPieces1.lean ====
/-
  What each kind of point of the down region leaves, in the body's own terms.

  The run of a point determines the stored pieces; read back, they are the body's payloads of the point's blocks:
  a first group leaves in the accumulator the cleared accumulator with the group's product added; a middle or last
  group leaves what the point before left with the group's product added; a last group stores into the output tile
  that accumulator plus the residual block. (`k1_pay4 w s a acc` is `acc` plus the product of the intermediate
  slice `a` with the weight slice dequantized from words `w` and scales `s`; `k1_pay1` is the store's reshape to the
  same shape; `k1_pay3` the cleared accumulator; `k1_pay2 acc r` is `acc` plus `r`.)
-/
import proofs.«401815_j72722386256028_3_alg».proof.Proof.KiRegion1
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole rank-2 rectangle, as a constant function. -/
private theorem zero2 : (![0, 0] : Fin 2 → Nat) = fun _ => 0 := funext fun a => by fin_cases a <;> rfl
/-- The zero offsets of a whole rank-3 rectangle, as a constant function. -/
private theorem zero3 : (![0, 0, 0] : Fin 3 → Nat) = fun _ => 0 := funext fun a => by fin_cases a <;> rfl

/-- First group: the cleared accumulator plus the group's product. -/
theorem sout1_A_eq (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : cond1_0 i) (hc1 : ¬cond1_1 i) (x0 : Vec F S128x128 .bf16) (x1 : Vec F S128x1024 .f32) (x2 : Vec F S1x1024x16 .i32) (x3 : Vec F S1x1024x1 .f32) :
    sout1_A c i arg3 harg3 arg4 harg4 arg5 harg5 arg6 harg6 arg7 harg7 arg8 harg8 hc0 hc1 x0 x1 x2 x3 = k1_pay1 (k1_pay4 x2 x3 x0 (k1_pay3 (F := F))) := by
  -- two whole-tile stores, the update over the reset: the later one is what is read back, and the accumulator it
  -- loaded in between is the reset's payload; every other load is a whole block read as it stands
  unfold sout1_A
  rw [View.read_writes_eq_canon _ _ _ (scover1_A c i arg3 harg3 arg4 harg4 arg5 harg5 arg6 harg6 arg7 harg7 arg8 harg8 hc0 hc1 x0 x1 x2 x3)]
  unfold kernelRun1_A
  dsimp only
  sl_unfold_words
  rw [View.canon_cons_unit_zero (S := S128x1024) zero2, View.readCov_unit_zero (S := S128x1024) _ zero2]
  simp only [View.readAt_eq_ld, harg3.read_unread, harg4.read_unread, harg5.read_unread, harg6.read_unread, harg8.read_unread,
    View.ld_unit_zero (S := S128x1024) zero2, View.ld_unit_zero (S := S128x128) zero2,
    View.ld_unit_zero (S := S1x1024x16) zero3, View.ld_unit_zero (S := S1x1024x1) zero3]

/-- Middle group: what the point before left plus the group's product. -/
theorem sout1_B_eq (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : ¬cond1_1 i) (x0 : Vec F S128x128 .bf16) (x1 : Vec F S128x1024 .f32) (x2 : Vec F S1x1024x16 .i32) (x3 : Vec F S1x1024x1 .f32) (xs : Vec F S128x1024 .f32) :
    sout1_B c i arg3 harg3 arg4 harg4 arg5 harg5 arg6 harg6 arg7 harg7 arg8 harg8 hc0 hc1 x0 x1 x2 x3 xs = k1_pay1 (k1_pay4 x2 x3 x0 xs) := by
  -- one whole-tile store, read back as its payload; every load is a whole block read as it stands
  unfold sout1_B
  rw [View.read_writes_eq_canon _ _ _ (scover1_B c i arg3 harg3 arg4 harg4 arg5 harg5 arg6 harg6 arg7 harg7 arg8 harg8 hc0 hc1 x0 x1 x2 x3 xs)]
  unfold kernelRun1_B
  dsimp only
  sl_unfold_words
  rw [View.canon_unit_zero zero2]
  simp only [View.readAt_eq_ld, harg3.read_unread, harg4.read_unread, harg5.read_unread, harg6.read_unread, harg8.read_unread,
    View.ld_unit_zero (S := S128x1024) zero2, View.ld_unit_zero (S := S128x128) zero2,
    View.ld_unit_zero (S := S1x1024x16) zero3, View.ld_unit_zero (S := S1x1024x1) zero3]

/-- Last group, the accumulator: the same. -/
theorem sout1_C_eq (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : cond1_1 i) (x0 : Vec F S128x128 .bf16) (x1 : Vec F S128x1024 .f32) (x2 : Vec F S1x1024x16 .i32) (x3 : Vec F S1x1024x1 .f32) (xs : Vec F S128x1024 .f32) :
    sout1_C c i arg3 harg3 arg4 harg4 arg5 harg5 arg6 harg6 arg7 harg7 arg8 harg8 hc0 hc1 x0 x1 x2 x3 xs = k1_pay1 (k1_pay4 x2 x3 x0 xs) := by
  -- as at a middle group: the accumulator receives one whole-tile store
  unfold sout1_C
  rw [View.read_writes_eq_canon _ _ _ (scover1_C c i arg3 harg3 arg4 harg4 arg5 harg5 arg6 harg6 arg7 harg7 arg8 harg8 hc0 hc1 x0 x1 x2 x3 xs)]
  unfold kernelRun1_C
  dsimp only
  sl_unfold_words
  rw [View.canon_unit_zero zero2]
  simp only [View.readAt_eq_ld, harg3.read_unread, harg4.read_unread, harg5.read_unread, harg6.read_unread, harg8.read_unread,
    View.ld_unit_zero (S := S128x1024) zero2, View.ld_unit_zero (S := S128x128) zero2,
    View.ld_unit_zero (S := S1x1024x16) zero3, View.ld_unit_zero (S := S1x1024x1) zero3]

/-- Last group, the output tile: that accumulator plus the residual block. -/
theorem out1_C_eq (c : Dev nD) (i : grid1.Coords) (arg3 : Memref sig .tc .vmem S128x128 .bf16) (harg3 : arg3.IsWhole) (arg4 : Memref sig .tc .vmem S128x1024 .f32) (harg4 : arg4.IsWhole) (arg5 : Memref sig .tc .vmem S1x1024x16 .i32) (harg5 : arg5.IsWhole) (arg6 : Memref sig .tc .vmem S1x1024x1 .f32) (harg6 : arg6.IsWhole) (arg7 : Memref sig .tc .vmem S128x1024 .f32) (harg7 : arg7.IsWhole) (arg8 : Memref sig .tc .vmem S128x1024 .f32) (harg8 : arg8.IsWhole) (hc0 : ¬cond1_0 i) (hc1 : cond1_1 i) (x0 : Vec F S128x128 .bf16) (x1 : Vec F S128x1024 .f32) (x2 : Vec F S1x1024x16 .i32) (x3 : Vec F S1x1024x1 .f32) (xs : Vec F S128x1024 .f32) :
    out1_C c i arg3 harg3 arg4 harg4 arg5 harg5 arg6 harg6 arg7 harg7 arg8 harg8 hc0 hc1 x0 x1 x2 x3 xs = k1_pay2 (k1_pay1 (k1_pay4 x2 x3 x0 xs)) x1 := by
  -- one whole-tile store into the output tile; the accumulator it loaded is the payload just stored there
  unfold out1_C
  rw [View.read_writes_eq_canon _ _ _ (ocover1_C c i arg3 harg3 arg4 harg4 arg5 harg5 arg6 harg6 arg7 harg7 arg8 harg8 hc0 hc1 x0 x1 x2 x3 xs)]
  unfold kernelRun1_C
  dsimp only
  sl_unfold_words
  rw [View.canon_unit_zero zero2, View.readCov_unit_zero (S := S128x1024) _ zero2]
  simp only [View.readAt_eq_ld, harg3.read_unread, harg4.read_unread, harg5.read_unread, harg6.read_unread, harg8.read_unread,
    View.ld_unit_zero (S := S128x1024) zero2, View.ld_unit_zero (S := S128x128) zero2,
    View.ld_unit_zero (S := S1x1024x16) zero3, View.ld_unit_zero (S := S1x1024x1) zero3]

end Cert.KernelIdeal.Fr

end
-- ==== Proof.KiBlocks1.lean ====
/-
  The down region's blocks, read where a tile's entry says.

  The grid is 4 × 32 × 86, the group innermost: position `t` has group `t % 86`, row block `(t / 86) % 32` and column
  block `t / 2752`. The output tile and the residual block sit at (row block, column block); the intermediate's slice
  at (row block, group); the group-major weight words and scales at (group, column block, 0), their group axis a
  single entry of the block. A block's entry at coordinates `y` is the array's entry at block index × block size + `y`
  on every axis.
-/
import proofs.«401815_j72722386256028_3_alg».proof.Proof.KiRegion1
import proofs.«401815_j72722386256028_3_alg».proof.Proof.Spec
import Idealize.ShloMosaic.Lib.Pipeline.Value
import Idealize.ShloMosaic.Lib.ValueIdx

noncomputable section

namespace Cert.KernelIdeal.Val

open Idealize.ShloMosaic Idealize.ShloMosaic.ValueIdx Idealize.ShloMosaic.TcCoe
open Cert.KernelIdeal Cert.KernelIdeal.Gen Cert.KernelIdeal.Fr Cert.Spec

/-- The printed index maps, decided once over the grid. -/
theorem grid_index1 : ∀ t : Fin cfg1.N,
    win1_4.index t (0 : Fin 2) = (t.val / 86) % 32 ∧ win1_4.index t (1 : Fin 2) = t.val / 2752
    ∧ win1_0.index t (0 : Fin 2) = win1_4.index t (0 : Fin 2) ∧ win1_0.index t (1 : Fin 2) = t.val % 86
    ∧ win1_1.index t (0 : Fin 2) = win1_4.index t (0 : Fin 2) ∧ win1_1.index t (1 : Fin 2) = win1_4.index t (1 : Fin 2)
    ∧ win1_2.index t (0 : Fin 3) = t.val % 86 ∧ win1_2.index t (1 : Fin 3) = win1_4.index t (1 : Fin 2) ∧ win1_2.index t (2 : Fin 3) = 0
    ∧ win1_3.index t (0 : Fin 3) = t.val % 86 ∧ win1_3.index t (1 : Fin 3) = win1_4.index t (1 : Fin 2) ∧ win1_3.index t (2 : Fin 3) = 0 :=
  (by decide +kernel : ∀ t : Fin grid1.N, _)

variable (V : (c : Dev nD) → (b : Ref sig .tc) → Buf (Elt Ideal) ((c : Thread nD τ).loc b))

/-- Entry `(p, k)` of the intermediate's slice at position `t` is entry `(r, i)` of the array: `r` row `p` of the tile's
    row block, `i` entry `k` of the position's group. -/
theorem slice_apply (c : Dev nD) (t : Fin cfg1.N) (p : Fin 128) (k : Fin 128) (r : Fin 4096) (i : Fin 11008)
    (hr : r.val = win1_4.index t (0 : Fin 2) * 128 + p.val) (hi : i.val = (t.val % 86) * 128 + k.val) :
    (iblk1 (F := Ideal) V c 0 t : Vec Ideal S128x128 .bf16) (ix2 p k) = (V c main_v2 : SI.Idx → EReal) (ix2 r i) := by
  obtain ⟨-, -, e0, e1, -⟩ := grid_index1 t
  show V c main_v2 (((cfg1.win 0).blk t).view.emb (ix2 p k)) = V c main_v2 (ix2 r i)
  refine congrArg _ (funext fun a => Fin.ext ?_)
  match a with
  | ⟨0, _⟩ => show win1_0.index t (0 : Fin 2) * 128 + 1 * p.val = r.val; omega
  | ⟨1, _⟩ => show win1_0.index t (1 : Fin 2) * 128 + 1 * k.val = i.val; omega

/-- Entry `(p, q)` of the residual's block at position `t` is entry `(r, h)` of the array. -/
theorem resid_apply (c : Dev nD) (t : Fin cfg1.N) (p : Fin 128) (q : Fin 1024) (r : Fin 4096) (h : Fin 4096)
    (hr : r.val = win1_4.index t (0 : Fin 2) * 128 + p.val) (hh : h.val = win1_4.index t (1 : Fin 2) * 1024 + q.val) :
    (iblk1 (F := Ideal) V c 1 t : Vec Ideal S128x1024 .f32) (ix2 p q) = (V c main_v1 : SF.Idx → EReal) (ix2 r h) := by
  obtain ⟨-, -, -, -, e0, e1, -⟩ := grid_index1 t
  show V c main_v1 (((cfg1.win 1).blk t).view.emb (ix2 p q)) = V c main_v1 (ix2 r h)
  refine congrArg _ (funext fun a => Fin.ext ?_)
  match a with
  | ⟨0, _⟩ => show win1_1.index t (0 : Fin 2) * 128 + 1 * p.val = r.val; omega
  | ⟨1, _⟩ => show win1_1.index t (1 : Fin 2) * 1024 + 1 * q.val = h.val; omega

/-- Word `w` of row `q` of the weight words' block at position `t` is word `w` of row `h` of the position's group. -/
theorem words_apply (c : Dev nD) (t : Fin cfg1.N) (q : Fin 1024) (w : Fin 16) (g : Fin 86) (h : Fin 4096)
    (hg : g.val = t.val % 86) (hh : h.val = win1_4.index t (1 : Fin 2) * 1024 + q.val) :
    (iblk1 (F := Ideal) V c 2 t : Vec Ideal S1x1024x16 .i32) (ix3 (0 : Fin 1) q w) = (V c main_v4 : SG.Idx → BitVec 32) (ix3 g h w) := by
  obtain ⟨-, -, -, -, -, -, e0, e1, e2, -⟩ := grid_index1 t
  show V c main_v4 (((cfg1.win 2).blk t).view.emb (ix3 (0 : Fin 1) q w)) = V c main_v4 (ix3 g h w)
  refine congrArg _ (funext fun a => Fin.ext ?_)
  match a with
  | ⟨0, _⟩ => show win1_2.index t (0 : Fin 3) * 1 + 1 * (0 : Fin 1).val = g.val; simp only [Fin.val_zero]; omega
  | ⟨1, _⟩ => show win1_2.index t (1 : Fin 3) * 1024 + 1 * q.val = h.val; omega
  | ⟨2, _⟩ => show win1_2.index t (2 : Fin 3) * 16 + 1 * w.val = w.val; omega

/-- The scale of row `q` of the scales' block at position `t` is the scale of row `h` of the position's group. -/
theorem scales_apply (c : Dev nD) (t : Fin cfg1.N) (q : Fin 1024) (g : Fin 86) (h : Fin 4096)
    (hg : g.val = t.val % 86) (hh : h.val = win1_4.index t (1 : Fin 2) * 1024 + q.val) :
    (iblk1 (F := Ideal) V c 3 t : Vec Ideal S1x1024x1 .f32) (ix3 (0 : Fin 1) q (0 : Fin 1)) = (V c main_v6 : SH.Idx → EReal) (ix3 g h (0 : Fin 1)) := by
  obtain ⟨-, -, -, -, -, -, -, -, -, e0, e1, e2⟩ := grid_index1 t
  show V c main_v6 (((cfg1.win 3).blk t).view.emb (ix3 (0 : Fin 1) q (0 : Fin 1))) = V c main_v6 (ix3 g h (0 : Fin 1))
  refine congrArg _ (funext fun a => Fin.ext ?_)
  match a with
  | ⟨0, _⟩ => show win1_3.index t (0 : Fin 3) * 1 + 1 * (0 : Fin 1).val = g.val; simp only [Fin.val_zero]; omega
  | ⟨1, _⟩ => show win1_3.index t (1 : Fin 3) * 1024 + 1 * q.val = h.val; omega
  | ⟨2, _⟩ => show win1_3.index t (2 : Fin 3) * 1 + 1 * (0 : Fin 1).val = (0 : Fin 1).val; simp only [Fin.val_zero]; omega

end Cert.KernelIdeal.Val

end
-- ==== Proof.KiValue1.lean ====
/-
  What the down region leaves in its output array, over the extended reals.

  The region's grid is 4 × 32 × 86: column block `a`, row block `b`, weight group `g`, the group innermost, so the
  86 positions `t₀, …, t₀ + 85` with `t₀ = (a · 32 + b) · 86` work on one 128 × 1024 output tile. Position `t₀ + g`
  adds to the accumulator, at `(p, q)`, the sum over the group's 128 places `k` of the intermediate's entry
  `(128 b + p, 128 g + k)` times the dequantized weight of row `1024 a + q` at place `k` of group `g`; the first
  position starts from zero. So after position `t₀ + g` the accumulator holds the sum of the groups `0, …, g`, and
  the last position stores the sum of all 86 groups plus the residual's entry `(128 b + p, 1024 a + q)` into the
  tile, which is written back there. The 128 tiles cover the `4096 × 4096` array, entry `(r, h)` lying in the tile
  written back at position `((h / 1024) · 32 + r / 128) · 86 + 85`, so the array ends holding `outG`.
-/
import proofs.«401815_j72722386256028_3_alg».proof.Proof.KiRegion1
import proofs.«401815_j72722386256028_3_alg».proof.Proof.KiPieces1
import proofs.«401815_j72722386256028_3_alg».proof.Proof.KiPayloads
import proofs.«401815_j72722386256028_3_alg».proof.Proof.KiBlocks1
import proofs.«401815_j72722386256028_3_alg».proof.Proof.Spec
import Idealize.ShloMosaic.Lib.Pipeline.Value
import Idealize.ShloMosaic.Lib.ValueIdx
import Mathlib.Algebra.BigOperators.Group.Finset.Basic
import Mathlib.Algebra.BigOperators.Fin

noncomputable section

namespace Cert.KernelIdeal.Val

open Idealize.ShloMosaic Idealize.ShloMosaic.ValueIdx Idealize.ShloMosaic.TcCoe
open Cert.KernelIdeal Cert.KernelIdeal.Gen Cert.KernelIdeal.Fr Cert.Spec

/-! ## One group's product -/

/-- The product of a 128 × 128 slice `a` of the intermediate with the weight slice dequantized from the words `w` and
    the scales `s`, at `(p, q)`: the sum over the group's 128 places. -/
def groupProd (a : Vec Ideal S128x128 .bf16) (w : Vec Ideal S1x1024x16 .i32) (s : Vec Ideal S1x1024x1 .f32)
    (p : Fin 128) (q : Fin 1024) : EReal :=
  ∑ k : Fin 128, a (ix2 p k) * wt (w (ix3 (0 : Fin 1) q (word128 k))) (nibOf k) (s (ix3 (0 : Fin 1) q (0 : Fin 1)))

/-- A first group leaves the group's product: the cleared accumulator adds nothing. -/
theorem first_apply (a : Vec Ideal S128x128 .bf16) (w : Vec Ideal S1x1024x16 .i32) (s : Vec Ideal S1x1024x1 .f32)
    (p : Fin 128) (q : Fin 1024) :
    k1_pay1 (F := Ideal) (k1_pay4 (F := Ideal) w s a (k1_pay3 (F := Ideal))) (ix2 p q) = groupProd a w s p q := by
  rw [stored_eq, step_apply, cleared_apply, zero_add]
  rfl

/-- A later group leaves what was there plus the group's product. -/
theorem next_apply (a : Vec Ideal S128x128 .bf16) (w : Vec Ideal S1x1024x16 .i32) (s : Vec Ideal S1x1024x1 .f32)
    (acc : Vec Ideal S128x1024 .f32) (p : Fin 128) (q : Fin 1024) :
    k1_pay1 (F := Ideal) (k1_pay4 (F := Ideal) w s a acc) (ix2 p q) = acc (ix2 p q) + groupProd a w s p q := by
  rw [stored_eq, step_apply]
  rfl

/-! ## The blocks of a position -/

variable (V : (c : Dev nD) → (b : Ref sig .tc) → Buf (Elt Ideal) ((c : Thread nD τ).loc b))

/-- The intermediate's slice at position `t`. -/
abbrev islice (c : Dev nD) (t : Fin cfg1.N) : Vec Ideal S128x128 .bf16 := iblk1 (F := Ideal) V c 0 t
/-- The residual's block at position `t`. -/
abbrev rblock (c : Dev nD) (t : Fin cfg1.N) : Vec Ideal S128x1024 .f32 := iblk1 (F := Ideal) V c 1 t
/-- The packed weight words at position `t`. -/
abbrev wwords (c : Dev nD) (t : Fin cfg1.N) : Vec Ideal S1x1024x16 .i32 := iblk1 (F := Ideal) V c 2 t
/-- The weight scales at position `t`. -/
abbrev wscales (c : Dev nD) (t : Fin cfg1.N) : Vec Ideal S1x1024x1 .f32 := iblk1 (F := Ideal) V c 3 t

/-- The product of the group at position `n`; zero past the grid, where it is never used. -/
def termAt (c : Dev nD) (n : ℕ) (p : Fin 128) (q : Fin 1024) : EReal :=
  if h : n < cfg1.N then groupProd (islice V c ⟨n, h⟩) (wwords V c ⟨n, h⟩) (wscales V c ⟨n, h⟩) p q else 0

/-- On the grid it is the product of the position's blocks. -/
theorem termAt_of_lt (c : Dev nD) (n : ℕ) (h : n < cfg1.N) (p : Fin 128) (q : Fin 1024) :
    termAt V c n p q = groupProd (islice V c ⟨n, h⟩) (wwords V c ⟨n, h⟩) (wscales V c ⟨n, h⟩) p q := dif_pos h

/-! ## The accumulator, position by position -/

/-- At the first position of a tile the accumulator is left at the group's product. -/
theorem acc_first (c : Dev nD) (t : Fin cfg1.N) (h0 : t.val % 86 = 0) (p : Fin 128) (q : Fin 1024) :
    (outsAt1 (F := Ideal) V c t.val t.isLt).2 (ix2 p q)
      = groupProd (islice V c t) (wwords V c t) (wscales V c t) p q := by
  have h1 : ¬t.val % 86 = 85 := by omega
  rw [outsAt1_A V c t h0 h1]
  dsimp only
  refine (congrFun (sout1_A_eq (F := Ideal) c (grid1.coords t) (ms1_0 t) (hs1_0 t) (ms1_1 t) (hs1_1 t) (ms1_2 t) (hs1_2 t)
    (ms1_3 t) (hs1_3 t) (ms1_4 t) (hs1_4 t) scM1 (Memref.isWhole_whole _) ((hcond1_0 t).mpr h0)
    (fun h => h1 ((hcond1_1 t).mp h)) (islice V c t) (rblock V c t) (wwords V c t) (wscales V c t)) (ix2 p q)).trans ?_
  exact first_apply (islice V c t) (wwords V c t) (wscales V c t) p q

/-- At every other position it is left at what the position before left plus the group's product. -/
theorem acc_next (c : Dev nD) (t : Fin cfg1.N) (h0 : ¬t.val % 86 = 0) (p : Fin 128) (q : Fin 1024) :
    (outsAt1 (F := Ideal) V c t.val t.isLt).2 (ix2 p q)
      = (outsAt1 (F := Ideal) V c (t.val - 1) (Nat.lt_of_le_of_lt (Nat.sub_le _ _) t.isLt)).2 (ix2 p q)
        + groupProd (islice V c t) (wwords V c t) (wscales V c t) p q := by
  by_cases h1 : t.val % 86 = 85
  · rw [outsAt1_C V c t h0 h1]
    dsimp only
    refine (congrFun (sout1_C_eq (F := Ideal) c (grid1.coords t) (ms1_0 t) (hs1_0 t) (ms1_1 t) (hs1_1 t) (ms1_2 t) (hs1_2 t)
      (ms1_3 t) (hs1_3 t) (ms1_4 t) (hs1_4 t) scM1 (Memref.isWhole_whole _) (fun h => h0 ((hcond1_0 t).mp h))
      ((hcond1_1 t).mpr h1) (islice V c t) (rblock V c t) (wwords V c t) (wscales V c t)
      (outsAt1 (F := Ideal) V c (t.val - 1) (Nat.lt_of_le_of_lt (Nat.sub_le _ _) t.isLt)).2) (ix2 p q)).trans ?_
    exact next_apply (islice V c t) (wwords V c t) (wscales V c t) _ p q
  · rw [outsAt1_B V c t h0 h1]
    dsimp only
    refine (congrFun (sout1_B_eq (F := Ideal) c (grid1.coords t) (ms1_0 t) (hs1_0 t) (ms1_1 t) (hs1_1 t) (ms1_2 t) (hs1_2 t)
      (ms1_3 t) (hs1_3 t) (ms1_4 t) (hs1_4 t) scM1 (Memref.isWhole_whole _) (fun h => h0 ((hcond1_0 t).mp h))
      (fun h => h1 ((hcond1_1 t).mp h)) (islice V c t) (rblock V c t) (wwords V c t) (wscales V c t)
      (outsAt1 (F := Ideal) V c (t.val - 1) (Nat.lt_of_le_of_lt (Nat.sub_le _ _) t.isLt)).2) (ix2 p q)).trans ?_
    exact next_apply (islice V c t) (wwords V c t) (wscales V c t) _ p q

/-- THE ACCUMULATOR after position `n`: the sum of the products of the groups `0, …, n % 86` of `n`'s tile, which are
    those of the positions from the tile's first, `n - n % 86`, up to `n`. -/
theorem acc_eq (c : Dev nD) (p : Fin 128) (q : Fin 1024) : ∀ (n : ℕ) (hn : n < cfg1.N),
    (outsAt1 (F := Ideal) V c n hn).2 (ix2 p q)
      = ∑ s ∈ Finset.range (n % 86 + 1), termAt V c (n - n % 86 + s) p q := by
  intro n
  induction n with
  | zero =>
    intro hn
    rw [show (0 % 86 + 1) = 1 from rfl, Finset.sum_range_one, termAt_of_lt V c _ hn]
    exact acc_first V c ⟨0, hn⟩ rfl p q
  | succ n ih =>
    intro hn
    by_cases h0 : (n + 1) % 86 = 0
    · rw [h0, Finset.sum_range_one]
      show _ = termAt V c (n + 1) p q
      rw [termAt_of_lt V c _ hn]
      exact acc_first V c ⟨n + 1, hn⟩ h0 p q
    · have e1 : (n + 1) % 86 = n % 86 + 1 := by omega
      have e2 : n + 1 - (n % 86 + 1) = n - n % 86 := by omega
      have e3 : n - n % 86 + (n % 86 + 1) = n + 1 := by omega
      rw [e1, e2, Finset.sum_range_succ, e3, ← ih (Nat.lt_of_succ_lt hn), termAt_of_lt V c _ hn]
      exact acc_next V c ⟨n + 1, hn⟩ h0 p q

/-! ## The tile a last position stores -/

/-- At a tile's last position the stored tile is the accumulator as that position leaves it plus the residual's block. -/
theorem tile_rel (c : Dev nD) (t : Fin cfg1.N) (h85 : t.val % 86 = 85) (p : Fin 128) (q : Fin 1024) :
    (outsAt1 (F := Ideal) V c t.val t.isLt).1 (ix2 p q)
      = (outsAt1 (F := Ideal) V c t.val t.isLt).2 (ix2 p q) + rblock V c t (ix2 p q) := by
  have h0 : ¬t.val % 86 = 0 := by omega
  rw [outsAt1_C V c t h0 h85]
  dsimp only
  refine (congrFun (out1_C_eq (F := Ideal) c (grid1.coords t) (ms1_0 t) (hs1_0 t) (ms1_1 t) (hs1_1 t) (ms1_2 t) (hs1_2 t)
    (ms1_3 t) (hs1_3 t) (ms1_4 t) (hs1_4 t) scM1 (Memref.isWhole_whole _) (fun h => h0 ((hcond1_0 t).mp h))
    ((hcond1_1 t).mpr h85) (islice V c t) (rblock V c t) (wwords V c t) (wscales V c t)
    (outsAt1 (F := Ideal) V c (t.val - 1) (Nat.lt_of_le_of_lt (Nat.sub_le _ _) t.isLt)).2) (ix2 p q)).trans ?_
  refine (final_apply _ (rblock V c t) (ix2 p q)).trans ?_
  refine congrArg (· + rblock V c t (ix2 p q)) ?_
  exact (congrFun (sout1_C_eq (F := Ideal) c (grid1.coords t) (ms1_0 t) (hs1_0 t) (ms1_1 t) (hs1_1 t) (ms1_2 t) (hs1_2 t)
    (ms1_3 t) (hs1_3 t) (ms1_4 t) (hs1_4 t) scM1 (Memref.isWhole_whole _) (fun h => h0 ((hcond1_0 t).mp h))
    ((hcond1_1 t).mpr h85) (islice V c t) (rblock V c t) (wwords V c t) (wscales V c t)
    (outsAt1 (F := Ideal) V c (t.val - 1) (Nat.lt_of_le_of_lt (Nat.sub_le _ _) t.isLt)).2) (ix2 p q)).symm

/-- So it is the sum of the products of all 86 groups, those of the positions `t - 85, …, t`, plus the residual's block. -/
theorem tile_sum (c : Dev nD) (t : Fin cfg1.N) (h85 : t.val % 86 = 85) (p : Fin 128) (q : Fin 1024) :
    (outsAt1 (F := Ideal) V c t.val t.isLt).1 (ix2 p q)
      = (∑ g : Fin 86, termAt V c (t.val - 85 + g.val) p q) + rblock V c t (ix2 p q) := by
  rw [tile_rel V c t h85 p q, acc_eq V c p q t.val t.isLt, h85]
  exact congrArg (· + rblock V c t (ix2 p q)) (Finset.sum_range (n := 86) fun s => termAt V c (t.val - 85 + s) p q)

/-! ## A position's product, read off the arrays -/

/-- A group's product is the group's term of the output entry `(r, h)`, whenever the slice's row `p` is row `r` of the
    intermediate along the group's places and row `q` of the words and of the scales is row `h` of the group's. -/
theorem groupProd_eq_groupTerm (I2 : SI.Idx → EReal) (P4 : SG.Idx → BitVec 32) (Q6 : SH.Idx → EReal)
    (a : Vec Ideal S128x128 .bf16) (w : Vec Ideal S1x1024x16 .i32) (s : Vec Ideal S1x1024x1 .f32)
    (p : Fin 128) (q : Fin 1024) (r h : Fin 4096) (g : Fin 86)
    (ha : ∀ k : Fin 128, a (ix2 p k) = I2 (ix2 r (inGroup g k)))
    (hw : ∀ v : Fin 16, w (ix3 (0 : Fin 1) q v) = P4 (ix3 g h v))
    (hs : s (ix3 (0 : Fin 1) q (0 : Fin 1)) = Q6 (ix3 g h (0 : Fin 1))) :
    groupProd a w s p q = groupTerm I2 P4 Q6 r h g := by
  unfold groupProd groupTerm
  refine Finset.sum_congr rfl fun k _ => ?_
  rw [ha k, hw (word128 k), hs]

/-- The product at a position of the grid. -/
theorem termAt_val (c : Dev nD) (u : Fin cfg1.N) (p : Fin 128) (q : Fin 1024) :
    termAt V c u.val p q = groupProd (islice V c u) (wwords V c u) (wscales V c u) p q :=
  termAt_of_lt V c u.val u.isLt p q

/-- The product of the group at position `u`, at `(p, q)`, is the term of group `u % 86` of the output entry `(r, h)`
    under `(p, q)` in `u`'s tile. -/
theorem termAt_eq_groupTerm (c : Dev nD) (u : Fin cfg1.N) (p : Fin 128) (q : Fin 1024) (r h : Fin 4096) (g : Fin 86)
    (hr : r.val = win1_4.index u (0 : Fin 2) * 128 + p.val) (hh : h.val = win1_4.index u (1 : Fin 2) * 1024 + q.val)
    (hg : g.val = u.val % 86) :
    termAt V c u.val p q = groupTerm (V c main_v2) (V c main_v4) (V c main_v6) r h g := by
  rw [termAt_val V c u p q]
  exact groupProd_eq_groupTerm (V c main_v2) (V c main_v4) (V c main_v6) (islice V c u) (wwords V c u) (wscales V c u)
    p q r h g
    (fun k => slice_apply V c u p k r (inGroup g k) hr (by show g.val * 128 + k.val = _; rw [hg]))
    (fun v => words_apply V c u q v g h hg hh)
    (scales_apply V c u q g h hg hh)

/-! ## What a last position writes back -/

/-- Entry `j` of the tile a last position `t` stores is the output's entry `i` under it: all 86 groups' terms, read at
    the positions `t - 85, …, t` of the tile, plus the residual's entry. -/
theorem tile_entry (c : Dev nD) (t : Fin cfg1.N) (h85 : t.val % 86 = 85) (j : S128x1024.Idx) (i : SF.Idx)
    (h0 : (i 0).val = win1_4.index t (0 : Fin 2) * 128 + (j 0).val)
    (h1 : (i 1).val = win1_4.index t (1 : Fin 2) * 1024 + (j 1).val) :
    (outsAt1 (F := Ideal) V c t.val t.isLt).1 j
      = outG (V c main_v2) (V c main_v1) (V c main_v4) (V c main_v6) i := by
  obtain ⟨p, q, rfl⟩ : ∃ (p : Fin 128) (q : Fin 1024), j = ix2 p q := ⟨j 0, j 1, eq_ix2 j⟩
  obtain ⟨r, h, rfl⟩ : ∃ (r : Fin 4096) (h : Fin 4096), i = ix2 r h := ⟨i 0, i 1, eq_ix2 i⟩
  have hr : r.val = win1_4.index t (0 : Fin 2) * 128 + p.val := h0
  have hh : h.val = win1_4.index t (1 : Fin 2) * 1024 + q.val := h1
  rw [tile_sum V c t h85 p q]
  show _ = (∑ g : Fin 86, groupTerm (V c main_v2) (V c main_v4) (V c main_v6) r h g)
      + (V c main_v1 : SF.Idx → EReal) (ix2 r h)
  obtain ⟨e0, e1, -⟩ := grid_index1 t
  refine congrArg₂ (· + ·) (Finset.sum_congr rfl fun g _ => ?_) (resid_apply V c t p q r h hr hh)
  -- the position of group `g` of the tile: the same row and column block, group `g`
  have hg : g.val < 86 := g.isLt
  obtain ⟨u, hu⟩ : ∃ u : Fin cfg1.N, u.val = t.val - 85 + g.val :=
    ⟨⟨t.val - 85 + g.val, by have := t.isLt; omega⟩, rfl⟩
  obtain ⟨f0, f1, -⟩ := grid_index1 u
  rw [← hu]
  exact termAt_eq_groupTerm V c u p q r h g (by omega) (by omega) (by omega)

/-- A last position writes back its block of `outG` of the arrays as the region finds them. -/
theorem flushed_eq1 (c : Dev nD) (t : Fin cfg1.N) (hf : (cfg1.win 4).flush t = true) :
    (dat1 (F := Ideal) V c).flushed 4 t
      = ((cfg1.win 4).blk t).view.read (Elt Ideal)
          (outG (V c main_v2) (V c main_v1) (V c main_v4) (V c main_v6)) := by
  have h85 : t.val % 86 = 85 := (flush1_4 t).mp hf
  show (cfg1.win 4).cut (grid1.coords t) ((dat1 (F := Ideal) V c).after 4 t) = _
  rw [after1_4]
  funext j
  have h0 : ((((cfg1.win 4).blk t).view.emb j) 0).val = win1_4.index t (0 : Fin 2) * 128 + (j 0).val := by
    show win1_4.index t (0 : Fin 2) * 128 + 1 * (j 0).val = _; omega
  have h1 : ((((cfg1.win 4).blk t).view.emb j) 1).val = win1_4.index t (1 : Fin 2) * 1024 + (j 1).val := by
    show win1_4.index t (1 : Fin 2) * 1024 + 1 * (j 1).val = _; omega
  exact tile_entry V c t h85 j (((cfg1.win 4).blk t).view.emb j) h0 h1

/-! ## The tiles cover the array -/

/-- An entry of the array is in position `t`'s tile iff each coordinate is in the tile's range on its axis. -/
theorem mem_tile1 (t : Fin cfg1.N) (i : S4096x4096.Idx) :
    i ∈ ((cfg1.win 4).blk t).view.set
      ↔ ∀ a : Fin 2, win1_4.index t a * S128x1024.size a ≤ (i a).val
          ∧ (i a).val < win1_4.index t a * S128x1024.size a + S128x1024.size a := by
  show i ∈ ((View.whole main_v7).slice (win1_4.rect t)).set ↔ _
  rw [View.set_slice_whole, Rect.mem_set_unit]
  exact Iff.rfl

/-- Entry `(r, h)` lies in the tile written back at position `((h / 1024) · 32 + r / 128) · 86 + 85`. -/
theorem tiles_cover1 (i : S4096x4096.Idx) :
    ∃ t : Fin cfg1.N, (cfg1.win 4).flush t = true ∧ i ∈ ((cfg1.win 4).blk t).view.set := by
  have h0 : (i 0).val < 4096 := (i 0).isLt
  have h1 : (i 1).val < 4096 := (i 1).isLt
  have hN : cfg1.N = 11008 := N_1
  obtain ⟨t, ht⟩ : ∃ t : Fin cfg1.N, t.val = ((i 1).val / 1024 * 32 + (i 0).val / 128) * 86 + 85 :=
    ⟨⟨((i 1).val / 1024 * 32 + (i 0).val / 128) * 86 + 85, by rw [hN]; omega⟩, rfl⟩
  obtain ⟨e0, e1, -⟩ := grid_index1 t
  refine ⟨t, (flush1_4 t).mpr (by omega), ?_⟩
  rw [mem_tile1]
  intro a
  match a with
  | ⟨0, _⟩ =>
    show win1_4.index t (0 : Fin 2) * 128 ≤ (i 0).val ∧ (i 0).val < win1_4.index t (0 : Fin 2) * 128 + 128
    omega
  | ⟨1, _⟩ =>
    show win1_4.index t (1 : Fin 2) * 1024 ≤ (i 1).val ∧ (i 1).val < win1_4.index t (1 : Fin 2) * 1024 + 1024
    omega

/-! ## The array the region leaves -/

/-- After the region the output's array holds `outG` of the arrays the region found. -/
theorem out_arr (c : Dev nD) :
    (dat1 (F := Ideal) V c).arrAt 4 cfg1.N
      = Cert.Spec.outG (V c main_v2) (V c main_v1) (V c main_v4) (V c main_v6) :=
  (dat1 (F := Ideal) V c).arrAt_eq_of_cover 4
    (outG (V c main_v2) (V c main_v1) (V c main_v4) (V c main_v6))
    (fun t hf => flushed_eq1 V c t hf) tiles_cover1

end Cert.KernelIdeal.Val

end
-- ==== Proof.KiValue.lean ====
/-
  The idealized kernel's result, read off the run.

  The fold of buffer contents through @main ends with `main_v8`, the reshape to `[2, 2048, 4096]` of what the down
  region leaves in `main_v7`. That is the sum, group after group over the group-major weights, of the intermediate the
  gate / up region left in `main_v2`, plus the flattened residual. The group-major weights are the down weights' words
  cut into 86 groups of 16 and transposed group-first, and the scales transposed and given a unit axis; the
  intermediate is the gate / up formula of the flattened activations and the four gate / up arrays as launched.
  Regrouping the sum over 86 × 128 into one over the 11008 entries of a row gives the specification's result.
-/
import proofs.«401815_j72722386256028_3_alg».proof.Proof.KiRun
import proofs.«401815_j72722386256028_3_alg».proof.Proof.KiValue0
import proofs.«401815_j72722386256028_3_alg».proof.Proof.KiValue1
import proofs.«401815_j72722386256028_3_alg».proof.Proof.Spec
import proofs.«401815_j72722386256028_3_alg».proof.Proof.Gen.KernelIdeal.Regions
import Idealize.ShloMosaic.Lib.Pipeline.Value
import Idealize.ShloMosaic.Lib.ValueIdx
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr Cert.Spec

/-! ## Layout operations as the specification's rearrangements -/

/-- The reshape `[2, 2048, 4096] → [4096, 4096]` is flattening: row `r` is `(r / 2048, r % 2048)`. -/
theorem reshape_flat (X : SX.Idx → EReal) (h : SX.ShapeCasts SF) : shapeCast SF X h = flat X := by
  funext j
  unfold flat row
  refine shapeCast_apply X h j _ ?_
  rw [Shape.rowMajor_val_three, Shape.rowMajor_val_two]
  have h0 : (j 0).val < 4096 := (j 0).isLt
  show (((j 0).val / 2048) * 2048 + (j 0).val % 2048) * 4096 + (j 1).val = (j 0).val * 4096 + (j 1).val
  omega

/-- The reshape back `[4096, 4096] → [2, 2048, 4096]` reads row `b · 2048 + s`. -/
theorem reshape_unflat (Y : SF.Idx → EReal) (h : SF.ShapeCasts SX) (j : SX.Idx) :
    shapeCast SX Y h j = Y (ix2 (rowOf j) (j 2)) := by
  refine shapeCast_apply Y h j _ ?_
  rw [Shape.rowMajor_val_three, Shape.rowMajor_val_two]
  rfl

/-- The down weights' words, reshaped `[4096, 1376] → [4096, 86, 16]` and transposed group-first, are the group-major words. -/
theorem relaid_words (Pd : SPd.Idx → BitVec 32) (h1 : SPd.ShapeCasts ⟨3, ![4096, 86, 16]⟩)
    (h2 : (⟨3, ![4096, 86, 16]⟩ : Shape).Transposes [1, 0, 2] SG) :
    transpose SG [1, 0, 2] (shapeCast ⟨3, ![4096, 86, 16]⟩ Pd h1) h2 = groupMajorP Pd := by
  funext j
  unfold groupMajorP
  refine (transpose_apply [1, 0, 2] _ h2 j (ix3 (j 1) (j 0) (j 2)) (fun b => by
    match b with
    | ⟨0, _⟩ => rfl
    | ⟨1, _⟩ => rfl
    | ⟨2, _⟩ => rfl)).trans ?_
  refine shapeCast_apply Pd h1 _ _ ?_
  rw [Shape.rowMajor_val_three, Shape.rowMajor_val_two]
  show (j 1).val * 1376 + ((j 0).val * 16 + (j 2).val) = ((j 1).val * 86 + (j 0).val) * 16 + (j 2).val
  omega

/-- The down scales, transposed and given a trailing unit axis, are the group-major scales. -/
theorem relaid_scales (Qd : SQd.Idx → EReal) (h1 : SQd.Transposes [1, 0] ⟨2, ![86, 4096]⟩)
    (h2 : (⟨2, ![86, 4096]⟩ : Shape).BroadcastsInDim SH ![0, 1]) :
    broadcastInDim SH ![0, 1] h2 (transpose ⟨2, ![86, 4096]⟩ [1, 0] Qd h1) = groupMajorQ Qd := by
  funext j
  unfold groupMajorQ
  refine (broadcastInDim_apply ![0, 1] h2 _ j (ix2 (j 0) (j 1)) (fun a => by
    match a with
    | ⟨0, _⟩ => rfl
    | ⟨1, _⟩ => rfl)).trans ?_
  exact transpose_apply [1, 0] Qd h1 _ (ix2 (j 1) (j 0)) (fun b => by
    match b with
    | ⟨0, _⟩ => rfl
    | ⟨1, _⟩ => rfl)

variable (m : (ℓ : Loc nD τ sig) → Buf (Elt Ideal) ℓ) (c : Dev nD)

/-! ## The host stretches, operation by operation -/

/-- The first stretch leaves the activations flattened in `main_v0` -/
theorem W1_v0 : (W1 m c (Proc.devRef .tc main_v0) : SF.Idx → EReal) = flat (m ((c : Thread nD τ).loc main_arg0)) := by
  refine Eq.trans (b := shapeCast S4096x4096 (m ((c : Thread nD τ).loc main_arg0)) shapeCasts_S2x2048x4096_S4096x4096) ?_ (reshape_flat _ _)
  show StableHlo.after hostOps0 (fun b => m (c, b)) (Proc.devRef .tc main_v0) = _
  after_results <;> rfl
/-- and the residual flattened in `main_v1`; -/
theorem W1_v1 : (W1 m c (Proc.devRef .tc main_v1) : SF.Idx → EReal) = flat (m ((c : Thread nD τ).loc main_arg1)) := by
  refine Eq.trans (b := shapeCast S4096x4096 (m ((c : Thread nD τ).loc main_arg1)) shapeCasts_S2x2048x4096_S4096x4096) ?_ (reshape_flat _ _)
  show StableHlo.after hostOps0 (fun b => m (c, b)) (Proc.devRef .tc main_v1) = _
  after_results <;> rfl
/-- everything else it leaves as launched. -/
theorem W1_of (r : Ref sig .tc) (h : r ∉ ([main_v0, main_v1] : List (Ref sig .tc))) :
    W1 m c (Proc.devRef .tc r) = m ((c : Thread nD τ).loc r) :=
  StableHlo.after_of_writes_sub hostOps0 _ hostOps0_writes h

/-- The second stretch writes only its own four results. -/
theorem W3_of (r : Ref sig .tc) (h : r ∉ ([main_v3, main_v4, main_v5, main_v6] : List (Ref sig .tc))) :
    W3 m c (Proc.devRef .tc r) = W2 m c (Proc.devRef .tc r) :=
  StableHlo.after_of_writes_sub hostOps1 _ hostOps1_writes h

/-- It leaves the group-major words in `main_v4` -/
theorem W3_v4 : (W3 m c (Proc.devRef .tc main_v4) : SG.Idx → BitVec 32) = groupMajorP (m ((c : Thread nD τ).loc main_arg4)) := by
  have e4 : W2 m c (Proc.devRef .tc main_arg4) = m ((c : Thread nD τ).loc main_arg4) :=
    (W2_of_ne m c main_arg4 (by decide)).trans (W1_of m c main_arg4 (by decide))
  refine Eq.trans (b := transpose S86x4096x16 [1, 0, 2] (shapeCast S4096x86x16 (W2 m c (Proc.devRef .tc main_arg4)) shapeCasts_S4096x1376_S4096x86x16) transposes_S4096x86x16_S86x4096x16_1_0_2) ?_ ?_
  · show StableHlo.after hostOps1 (W2 m c) (Proc.devRef .tc main_v4) = _
    after_results <;> rfl
  · rw [e4]; exact relaid_words _ _ _
/-- and the group-major scales in `main_v6`. -/
theorem W3_v6 : (W3 m c (Proc.devRef .tc main_v6) : SH.Idx → EReal) = groupMajorQ (m ((c : Thread nD τ).loc main_arg7)) := by
  have e7 : W2 m c (Proc.devRef .tc main_arg7) = m ((c : Thread nD τ).loc main_arg7) :=
    (W2_of_ne m c main_arg7 (by decide)).trans (W1_of m c main_arg7 (by decide))
  refine Eq.trans (b := broadcastInDim S86x4096x1 ![0, 1] bcast_S86x4096_S86x4096x1_0_1 (transpose S86x4096 [1, 0] (W2 m c (Proc.devRef .tc main_arg7)) transposes_S4096x86_S86x4096_1_0)) ?_ ?_
  · show StableHlo.after hostOps1 (W2 m c) (Proc.devRef .tc main_v6) = _
    after_results <;> rfl
  · rw [e7]; exact relaid_scales _ _ _

/-! ## The regions' arrays -/

/-- The gate / up region leaves in `main_v2` the gate / up formula of the flattened activations and the four arrays as launched. -/
theorem W2_v2 : (W2 m c (Proc.devRef .tc main_v2) : SI.Idx → EReal)
    = interF (flat (m ((c : Thread nD τ).loc main_arg0))) (m ((c : Thread nD τ).loc main_arg2)) (m ((c : Thread nD τ).loc main_arg3))
        (m ((c : Thread nD τ).loc main_arg5)) (m ((c : Thread nD τ).loc main_arg6)) := by
  refine (W2_arr m c 5).trans ((inter_arr (V1 m) c).trans ?_)
  show interF (W1 m c (Proc.devRef .tc main_v0)) (W1 m c (Proc.devRef .tc main_arg2)) (W1 m c (Proc.devRef .tc main_arg3))
      (W1 m c (Proc.devRef .tc main_arg5)) (W1 m c (Proc.devRef .tc main_arg6)) = _
  rw [W1_v0, W1_of m c main_arg2 (by decide), W1_of m c main_arg3 (by decide), W1_of m c main_arg5 (by decide), W1_of m c main_arg6 (by decide)]

/-- The down region leaves in `main_v7` the output of the specification over the flattened arrays. -/
theorem W4_v7 : (W4 m c (Proc.devRef .tc main_v7) : SF.Idx → EReal)
    = outF (interF (flat (m ((c : Thread nD τ).loc main_arg0))) (m ((c : Thread nD τ).loc main_arg2)) (m ((c : Thread nD τ).loc main_arg3))
        (m ((c : Thread nD τ).loc main_arg5)) (m ((c : Thread nD τ).loc main_arg6)))
      (flat (m ((c : Thread nD τ).loc main_arg1))) (m ((c : Thread nD τ).loc main_arg4)) (m ((c : Thread nD τ).loc main_arg7)) := by
  refine (W4_arr m c 4).trans ((out_arr (V3 m) c).trans ?_)
  show outG (W3 m c (Proc.devRef .tc main_v2)) (W3 m c (Proc.devRef .tc main_v1)) (W3 m c (Proc.devRef .tc main_v4)) (W3 m c (Proc.devRef .tc main_v6)) = _
  rw [W3_of m c main_v2 (by decide), W2_v2, W3_of m c main_v1 (by decide), W2_of_ne m c main_v1 (by decide), W1_v1, W3_v4, W3_v6]
  exact outG_groupMajor _ _ _ _

/-! ## The result -/

/-- THE KERNEL'S RESULT: the fold's last contents at `main_v8` are the specification's result of the arguments as launched. -/
theorem result_value : (W5 m c (Proc.devRef .tc main_v8) : SX.Idx → EReal)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  have e : W5 m c (Proc.devRef .tc main_v8)
      = shapeCast S2x2048x4096 (W4 m c (Proc.devRef .tc main_v7)) shapeCasts_S4096x4096_S2x2048x4096 := by
    show StableHlo.after hostOps2 (W4 m c) (Proc.devRef .tc main_v8) = _
    after_results <;> rfl
  funext j
  rw [e, W4_v7]
  exact (reshape_unflat _ _ j).trans (result_eq_flat _ _ _ _ _ _ _ _ j).symm

end Cert.KernelIdeal.Val

end
-- ==== Proof.RefValue.lean ====
/-
  The reference's value: its run's result, read index by index, is `Cert.Spec.result` of the arguments.

  The reference divides each token row of the activations by a per-row scale `s = max (max_h |x h| / 448) ε`, contracts
  the quotients with the dequantized weights and multiplies the sum by `s` again; it does the same to the gated
  intermediate before the down projection. Over the reals, with `s` a positive real, `(∑ (x / s) · W) · s = ∑ x · W`, so
  both scales cancel. When the activations and the weight scales are real numbers every quantity met on the way is a
  real number and each scale is a positive real (it is at least `ε > 0` and a maximum of finitely many reals), which is all
  the cancellation needs: the scale's value itself is never computed.
-/
import proofs.«401815_j72722386256028_3_alg».proof.Proof.Gen.ReferenceIdeal.Run
import proofs.«401815_j72722386256028_3_alg».proof.Proof.Gen.ReferenceIdeal.Read
import proofs.«401815_j72722386256028_3_alg».proof.Proof.Spec

noncomputable section

namespace Cert.ReferenceIdeal.RefValue

open Cert.ReferenceIdeal Cert.ReferenceIdeal.Gen Idealize.ShloMosaic Idealize.ShloMosaic.ValueIdx
open Cert.ReferenceIdeal.Read

/-! ## Real arithmetic under the coercion into the extended reals -/

/-- A real sum, cast, is the sum of the casts. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of an extended real below `⊤` and a positive real is a positive real. -/
theorem max_pos_real {y : EReal} (hy : y ≠ ⊤) {e : ℝ} (he : 0 < e) :
    ∃ t : ℝ, 0 < t ∧ max y (e : EReal) = (t : EReal) := by
  induction y using EReal.rec with
  | bot => exact ⟨e, he, max_eq_right bot_le⟩
  | coe r => exact ⟨max r e, lt_max_of_lt_right he, (EReal.coe_strictMono.monotone.map_max).symm⟩
  | top => exact absurd rfl hy

/-- A maximum, from `⊥`, of entries below `⊤` is below `⊤`. -/
theorem fold_max_ne_top {ι : Type} (s : Finset ι) (f : ι → EReal) (hf : ∀ k, f k ≠ ⊤) :
    s.fold max ⊥ f ≠ ⊤ :=
  ((Finset.fold_max_lt ⊤).2 ⟨bot_lt_top, fun k _ => lt_top_iff_ne_top.2 (hf k)⟩).ne

/-- An extended real below `⊤` times a positive real is below `⊤`. -/
theorem mul_pos_real_ne_top {y : EReal} (hy : y ≠ ⊤) {c : ℝ} (hc : 0 < c) : y * (c : EReal) ≠ ⊤ := by
  induction y using EReal.rec with
  | bot => rw [EReal.bot_mul_coe_of_pos hc]; exact bot_ne_top
  | coe r => rw [← EReal.coe_mul]; exact EReal.coe_ne_top _
  | top => exact absurd rfl hy

/-- The magnitude `max x (-x)` of a real is below `⊤`. -/
theorem abs_real_ne_top {x : EReal} (hx : ∃ r : ℝ, x = (r : EReal)) : max x (-x) ≠ ⊤ := by
  obtain ⟨r, rfl⟩ := hx
  rw [← EReal.coe_neg, ← EReal.coe_strictMono.monotone.map_max]
  exact EReal.coe_ne_top _

/-! ## The float literals the reference uses -/

/-- `448`. -/
theorem lit448 : Ideal.ofBits .f32 0x43E00000#32 = ((448 : ℝ) : EReal) := by
  simp [Ideal.ofBits, Ideal.ieee]
  rw [← EReal.coe_mul]
  norm_num

/-- The floor of the activation scale, about `1e-6`, is a positive real. -/
theorem litEps_pos : ∃ e : ℝ, 0 < e ∧ Ideal.ofBits .f32 0x358637BD#32 = (e : EReal) := by
  simp [Ideal.ofBits, Ideal.ieee]
  exact ⟨8796093 * (2 ^ 43)⁻¹, by positivity, (EReal.coe_mul _ _).symm⟩

/-- `1`. -/
theorem litOne : Ideal.ofBits .f32 0x3F800000#32 = (1 : EReal) := by
  simp [Ideal.ofBits, Ideal.ieee]
  rw [← EReal.coe_mul]
  norm_num

/-- `-∞`. -/
theorem litNegInf : Ideal.ofBits .f32 0xFF800000#32 = (⊥ : EReal) := by
  simp [Ideal.ofBits, Ideal.ieee]

/-! ## The activation scale and the cancellation law -/

/-- The activation scale of a row of reals — the larger of (the maximum magnitude, from `-∞`, over `448`) and
    the floor — is a positive real. -/
theorem scale_pos {ι : Type} (s : Finset ι) (f : ι → EReal) (hf : ∀ k, f k ≠ ⊤) :
    ∃ t : ℝ, 0 < t ∧
      max (Ideal.div (s.fold max (Ideal.ofBits .f32 0xFF800000#32) f) (Ideal.ofBits .f32 0x43E00000#32))
        (Ideal.ofBits .f32 0x358637BD#32) = (t : EReal) := by
  obtain ⟨e, he, hE⟩ := litEps_pos
  rw [hE, lit448, litNegInf, Ideal.div_coe (by norm_num)]
  exact max_pos_real (mul_pos_real_ne_top (fold_max_ne_top s f hf) (by norm_num)) he

/-- THE CANCELLATION: dividing a row of reals by a positive real scale before a contraction with real weights and
    multiplying the sum by the scale afterwards is the plain contraction, which is a real. -/
theorem cancel {ι : Type} [Fintype ι] (x W : ι → EReal) (s : EReal)
    (hx : ∀ k, ∃ r : ℝ, x k = (r : EReal)) (hW : ∀ k, ∃ r : ℝ, W k = (r : EReal))
    (hs : ∃ t : ℝ, 0 < t ∧ s = (t : EReal)) :
    (∑ k, Ideal.div (x k) s * W k) * s = ∑ k, x k * W k ∧ ∃ r : ℝ, ∑ k, x k * W k = (r : EReal) := by
  choose a ha using hx
  choose w hw using hW
  obtain ⟨t, ht, rfl⟩ := hs
  have h1 : ∀ k, Ideal.div (x k) (t : EReal) * W k = ((a k * (1 / t) * w k : ℝ) : EReal) := fun k => by
    rw [ha k, hw k, Ideal.div_coe ht.ne', ← EReal.coe_mul, ← EReal.coe_mul]
  have h2 : ∀ k, x k * W k = ((a k * w k : ℝ) : EReal) := fun k => by
    rw [ha k, hw k, ← EReal.coe_mul]
  simp only [h1, h2]
  rw [← coe_sum, ← coe_sum, ← EReal.coe_mul]
  refine ⟨?_, _, rfl⟩
  congr 1
  rw [Finset.sum_mul]
  refine Finset.sum_congr rfl fun k _ => ?_
  field_simp

/-! ## The dequantized weights at an index

Each weight is unpacked and scaled by the same chain of operations: the word `(i, k / 8)` is shifted right by `4 · (k % 8)`, its low
four bits read as a signed nibble, the nibble converted exactly, and the result multiplied by the scale `(i, k / 128)`. The two
reshapes `[O, K/8, 8] → [O, K] → [O, K/128, 128]` and the one back to `[O, K]` are row-major, so entry `k` of a row is nibble
`k % 8` of word `k / 8` and lies in group `k / 128`. -/

/-- Entry `(i, w, k)` of the unpacked nibbles of the gate weight is nibble `k` of word `(i, w)`. -/
theorem gateNib_at {F : FTy → Type} [FloatOps F] (P : (⟨S11008x512, .i32⟩ : BufTy).Contents (Elt F)) (i : Fin 11008) (w : Fin 512)
    (k : Fin 8) : val_main_v15 (F := F) P (ix3 i w k) = Cert.Spec.nibU .host (P (ix2 i w)) k := by
  simp only [val_main_v15_apply, val_main_v14_apply, val_main_v13_apply, val_main_c_2_apply, val_main_v12_apply,
    val_main_v11_apply, val_main_v10_apply, val_main_c_1_apply, val_main_v9_apply, val_main_v8_apply,
    val_main_c_0_apply, val_main_v7_apply, val_main_v6_apply, val_main_v4_apply, val_main_v2_apply,
    val_main_v1_apply, val_main_c_apply, val_main_v0_apply, val_main_v5_apply, val_main_v3_apply]
  have e : idx_main_v3 (idx_main_v5 (ix3 i w k)) = ix2 i w :=
    funext fun a => match a with | ⟨0, _⟩ => rfl | ⟨1, _⟩ => rfl
  rw [e]
  rfl

/-- Entry `(i, h)` of the gate weight, dequantized: the signed nibble `h % 8` of word `h / 8` of row `i`, times the scale
    of group `h / 128`. -/
theorem gateW_at (P : (⟨S11008x512, .i32⟩ : BufTy).Contents (Elt Ideal)) (Q : (⟨S11008x32, .f32⟩ : BufTy).Contents (Elt Ideal))
    (i : Fin 11008) (h : Fin 4096) : val_main_v22 (F := Ideal) P Q (ix2 i h) = Cert.Spec.wUp P Q i h := by
  have hi := i.isLt
  have hh := h.isLt
  have e22 : idx_main_v22 (ix2 i h)
      = ix3 i (Cert.Spec.group4096 h) (⟨h.val % 128, Nat.mod_lt _ (by decide)⟩ : Fin 128) := by
    funext a
    match a with
    | ⟨0, _⟩ => exact Fin.ext (show (i.val * 4096 + h.val) / 4096 = i.val by omega)
    | ⟨1, _⟩ => exact Fin.ext (show (i.val * 4096 + h.val) / 128 % 32 = h.val / 128 by omega)
    | ⟨2, _⟩ => exact Fin.ext (show (i.val * 4096 + h.val) % 128 = h.val % 128 by omega)
  have e17 : idx_main_v17 (ix3 i (Cert.Spec.group4096 h) (⟨h.val % 128, Nat.mod_lt _ (by decide)⟩ : Fin 128))
      = ix2 i h := by
    funext a
    match a with
    | ⟨0, _⟩ => exact Fin.ext (show ((i.val * 32 + h.val / 128) * 128 + h.val % 128) / 4096 = i.val by omega)
    | ⟨1, _⟩ => exact Fin.ext (show ((i.val * 32 + h.val / 128) * 128 + h.val % 128) % 4096 = h.val by omega)
  have e16 : idx_main_v16 (ix2 i h) = ix3 i (Cert.Spec.word4096 h) (Cert.Spec.nibOf h) := by
    funext a
    match a with
    | ⟨0, _⟩ => exact Fin.ext (show (i.val * 4096 + h.val) / 4096 = i.val by omega)
    | ⟨1, _⟩ => exact Fin.ext (show (i.val * 4096 + h.val) / 8 % 512 = h.val / 8 by omega)
    | ⟨2, _⟩ => exact Fin.ext (show (i.val * 4096 + h.val) % 8 = h.val % 8 by omega)
  have e20 : idx_main_v19 (idx_main_v20 (ix3 i (Cert.Spec.group4096 h) (⟨h.val % 128, Nat.mod_lt _ (by decide)⟩ : Fin 128)))
      = ix2 i (Cert.Spec.group4096 h) :=
    funext fun a => match a with | ⟨0, _⟩ => rfl | ⟨1, _⟩ => rfl
  rw [val_main_v22_apply, e22, val_main_v21_apply, val_main_v18_apply, val_main_v17_apply, e17,
    val_main_v16_apply, e16, gateNib_at, val_main_v20_apply, val_main_v19_apply, e20, Cert.Spec.nibU_host]
  rfl

/-- Entry `(i, w, k)` of the unpacked nibbles of the up weight is nibble `k` of word `(i, w)`. -/
theorem upNib_at {F : FTy → Type} [FloatOps F] (P : (⟨S11008x512, .i32⟩ : BufTy).Contents (Elt F)) (i : Fin 11008) (w : Fin 512)
    (k : Fin 8) : val_main_v38 (F := F) P (ix3 i w k) = Cert.Spec.nibU .host (P (ix2 i w)) k := by
  simp only [val_main_v38_apply, val_main_v37_apply, val_main_v36_apply, val_main_c_6_apply, val_main_v35_apply,
    val_main_v34_apply, val_main_v33_apply, val_main_c_5_apply, val_main_v32_apply, val_main_v31_apply,
    val_main_c_4_apply, val_main_v30_apply, val_main_v29_apply, val_main_v27_apply, val_main_v25_apply,
    val_main_v24_apply, val_main_c_3_apply, val_main_v23_apply, val_main_v28_apply, val_main_v26_apply]
  have e : idx_main_v26 (idx_main_v28 (ix3 i w k)) = ix2 i w :=
    funext fun a => match a with | ⟨0, _⟩ => rfl | ⟨1, _⟩ => rfl
  rw [e]
  rfl

/-- Entry `(i, h)` of the up weight, dequantized: the signed nibble `h % 8` of word `h / 8` of row `i`, times the scale
    of group `h / 128`. -/
theorem upW_at (P : (⟨S11008x512, .i32⟩ : BufTy).Contents (Elt Ideal)) (Q : (⟨S11008x32, .f32⟩ : BufTy).Contents (Elt Ideal))
    (i : Fin 11008) (h : Fin 4096) : val_main_v45 (F := Ideal) P Q (ix2 i h) = Cert.Spec.wUp P Q i h := by
  have hi := i.isLt
  have hh := h.isLt
  have e22 : idx_main_v45 (ix2 i h)
      = ix3 i (Cert.Spec.group4096 h) (⟨h.val % 128, Nat.mod_lt _ (by decide)⟩ : Fin 128) := by
    funext a
    match a with
    | ⟨0, _⟩ => exact Fin.ext (show (i.val * 4096 + h.val) / 4096 = i.val by omega)
    | ⟨1, _⟩ => exact Fin.ext (show (i.val * 4096 + h.val) / 128 % 32 = h.val / 128 by omega)
    | ⟨2, _⟩ => exact Fin.ext (show (i.val * 4096 + h.val) % 128 = h.val % 128 by omega)
  have e17 : idx_main_v40 (ix3 i (Cert.Spec.group4096 h) (⟨h.val % 128, Nat.mod_lt _ (by decide)⟩ : Fin 128))
      = ix2 i h := by
    funext a
    match a with
    | ⟨0, _⟩ => exact Fin.ext (show ((i.val * 32 + h.val / 128) * 128 + h.val % 128) / 4096 = i.val by omega)
    | ⟨1, _⟩ => exact Fin.ext (show ((i.val * 32 + h.val / 128) * 128 + h.val % 128) % 4096 = h.val by omega)
  have e16 : idx_main_v39 (ix2 i h) = ix3 i (Cert.Spec.word4096 h) (Cert.Spec.nibOf h) := by
    funext a
    match a with
    | ⟨0, _⟩ => exact Fin.ext (show (i.val * 4096 + h.val) / 4096 = i.val by omega)
    | ⟨1, _⟩ => exact Fin.ext (show (i.val * 4096 + h.val) / 8 % 512 = h.val / 8 by omega)
    | ⟨2, _⟩ => exact Fin.ext (show (i.val * 4096 + h.val) % 8 = h.val % 8 by omega)
  have e20 : idx_main_v42 (idx_main_v43 (ix3 i (Cert.Spec.group4096 h) (⟨h.val % 128, Nat.mod_lt _ (by decide)⟩ : Fin 128)))
      = ix2 i (Cert.Spec.group4096 h) :=
    funext fun a => match a with | ⟨0, _⟩ => rfl | ⟨1, _⟩ => rfl
  rw [val_main_v45_apply, e22, val_main_v44_apply, val_main_v41_apply, val_main_v40_apply, e17,
    val_main_v39_apply, e16, upNib_at, val_main_v43_apply, val_main_v42_apply, e20, Cert.Spec.nibU_host]
  rfl

/-- Entry `(i, w, k)` of the unpacked nibbles of the down weight is nibble `k` of word `(i, w)`. -/
theorem downNib_at {F : FTy → Type} [FloatOps F] (P : (⟨S4096x1376, .i32⟩ : BufTy).Contents (Elt F)) (i : Fin 4096) (w : Fin 1376)
    (k : Fin 8) : val_main_v61 (F := F) P (ix3 i w k) = Cert.Spec.nibU .host (P (ix2 i w)) k := by
  simp only [val_main_v61_apply, val_main_v60_apply, val_main_v59_apply, val_main_c_10_apply, val_main_v58_apply,
    val_main_v57_apply, val_main_v56_apply, val_main_c_9_apply, val_main_v55_apply, val_main_v54_apply,
    val_main_c_8_apply, val_main_v53_apply, val_main_v52_apply, val_main_v50_apply, val_main_v48_apply,
    val_main_v47_apply, val_main_c_7_apply, val_main_v46_apply, val_main_v51_apply, val_main_v49_apply]
  have e : idx_main_v49 (idx_main_v51 (ix3 i w k)) = ix2 i w :=
    funext fun a => match a with | ⟨0, _⟩ => rfl | ⟨1, _⟩ => rfl
  rw [e]
  rfl

/-- Entry `(i, h)` of the down weight, dequantized: the signed nibble `h % 8` of word `h / 8` of row `i`, times the scale
    of group `h / 128`. -/
theorem downW_at (P : (⟨S4096x1376, .i32⟩ : BufTy).Contents (Elt Ideal)) (Q : (⟨S4096x86, .f32⟩ : BufTy).Contents (Elt Ideal))
    (i : Fin 4096) (h : Fin 11008) : val_main_v68 (F := Ideal) P Q (ix2 i h) = Cert.Spec.wDown P Q i h := by
  have hi := i.isLt
  have hh := h.isLt
  have e22 : idx_main_v68 (ix2 i h)
      = ix3 i (Cert.Spec.group11008 h) (⟨h.val % 128, Nat.mod_lt _ (by decide)⟩ : Fin 128) := by
    funext a
    match a with
    | ⟨0, _⟩ => exact Fin.ext (show (i.val * 11008 + h.val) / 11008 = i.val by omega)
    | ⟨1, _⟩ => exact Fin.ext (show (i.val * 11008 + h.val) / 128 % 86 = h.val / 128 by omega)
    | ⟨2, _⟩ => exact Fin.ext (show (i.val * 11008 + h.val) % 128 = h.val % 128 by omega)
  have e17 : idx_main_v63 (ix3 i (Cert.Spec.group11008 h) (⟨h.val % 128, Nat.mod_lt _ (by decide)⟩ : Fin 128))
      = ix2 i h := by
    funext a
    match a with
    | ⟨0, _⟩ => exact Fin.ext (show ((i.val * 86 + h.val / 128) * 128 + h.val % 128) / 11008 = i.val by omega)
    | ⟨1, _⟩ => exact Fin.ext (show ((i.val * 86 + h.val / 128) * 128 + h.val % 128) % 11008 = h.val by omega)
  have e16 : idx_main_v62 (ix2 i h) = ix3 i (Cert.Spec.word11008 h) (Cert.Spec.nibOf h) := by
    funext a
    match a with
    | ⟨0, _⟩ => exact Fin.ext (show (i.val * 11008 + h.val) / 11008 = i.val by omega)
    | ⟨1, _⟩ => exact Fin.ext (show (i.val * 11008 + h.val) / 8 % 1376 = h.val / 8 by omega)
    | ⟨2, _⟩ => exact Fin.ext (show (i.val * 11008 + h.val) % 8 = h.val % 8 by omega)
  have e20 : idx_main_v65 (idx_main_v66 (ix3 i (Cert.Spec.group11008 h) (⟨h.val % 128, Nat.mod_lt _ (by decide)⟩ : Fin 128)))
      = ix2 i (Cert.Spec.group11008 h) :=
    funext fun a => match a with | ⟨0, _⟩ => rfl | ⟨1, _⟩ => rfl
  rw [val_main_v68_apply, e22, val_main_v67_apply, val_main_v64_apply, val_main_v63_apply, e17,
    val_main_v62_apply, e16, downNib_at, val_main_v66_apply, val_main_v65_apply, e20, Cert.Spec.nibU_host]
  rfl

/-! ## The activation scale in the program -/

/-- A one-axis maximum-reduce, from `-∞`, of entries below `⊤`, over `448` and floored, is a positive real. -/
theorem hostScale_pos {s t : Shape} {a : Fin s.rank} (y : s.Idx → EReal) (hy : ∀ i, y i ≠ ⊤)
    (h' : s.ReducesTo [a] t) (h : s.Reduces [a] t) (hu : 0 < S_.numel) (j : t.Idx) :
    ∃ r : ℝ, 0 < r ∧
      max (Ideal.div (Host.reduce (FloatOps.maximumf (F := Ideal) (φ := .f32)) y (constant (F := Ideal) S_ .f32 0xFF800000#32) h' hu j)
          (Ideal.ofBits .f32 0x43E00000#32)) (Ideal.ofBits .f32 0x358637BD#32) = (r : EReal) := by
  rw [Host.reduce_eq_fold_single (FloatOps.maximumf (F := Ideal) (φ := .f32)) y _ h' h hu j]
  exact scale_pos Finset.univ (y ∘ h.lift j) (fun k => hy _)

/-- The scale of a row of real activations is a positive real. -/
theorem scale1_pos (x0 : (⟨S2x2048x4096, .f32⟩ : BufTy).Contents (Elt Ideal)) (h0 : Cert.Spec.AllReal x0) (b : Fin 2) (s : Fin 2048) :
    ∃ t : ℝ, 0 < t ∧ val_main_v75 (F := Ideal) x0 (ix3 b s (0 : Fin 1)) = (t : EReal) := by
  rw [val_main_v75_apply, val_main_v73_apply, val_main_v71_apply, val_main_v72_apply, val_main_cst_11_apply,
    val_main_v74_apply, val_main_cst_12_apply]
  unfold val_main_v70
  exact hostScale_pos (val_main_v69 (F := Ideal) x0) (fun i => abs_real_ne_top (h0 i))
    reducesTo_S2x2048x4096_S2x2048_d2 (by decide) h_S_ _

/-- A row of real activations, divided by its scale, contracted with real weights, and the sum multiplied by the
    scale: the plain contraction, a real. -/
theorem scaledRow (x0 : (⟨S2x2048x4096, .f32⟩ : BufTy).Contents (Elt Ideal)) (h0 : Cert.Spec.AllReal x0) (W : Fin 4096 → EReal)
    (hW : ∀ k, ∃ r : ℝ, W k = (r : EReal)) (b : Fin 2) (s : Fin 2048) :
    (∑ k : Fin 4096, val_main_v77 (F := Ideal) x0 (ix3 b s k) * W k) * val_main_v75 (F := Ideal) x0 (ix3 b s (0 : Fin 1))
        = ∑ k : Fin 4096, x0 (ix3 b s k) * W k
      ∧ ∃ r : ℝ, ∑ k : Fin 4096, x0 (ix3 b s k) * W k = (r : EReal) := by
  have e : ∀ k : Fin 4096, val_main_v77 (F := Ideal) x0 (ix3 b s k)
      = Ideal.div (x0 (ix3 b s k)) (val_main_v75 (F := Ideal) x0 (ix3 b s (0 : Fin 1))) := fun k => by
    have e76 : idx_main_v76 (ix3 b s k) = ix3 b s (0 : Fin 1) :=
      funext fun a => match a with | ⟨0, _⟩ => rfl | ⟨1, _⟩ => rfl | ⟨2, _⟩ => rfl
    rw [val_main_v77_apply, val_main_v76_apply, e76]
    rfl
  simp only [e]
  exact cancel (fun k => x0 (ix3 b s k)) W _ (fun k => h0 _) hW (scale1_pos x0 h0 b s)

/-! ## The two projections, the gate and the intermediate -/

/-- A dequantized gate / up weight with real scales is a real. -/
theorem wUp_real (P : (⟨S11008x512, .i32⟩ : BufTy).Contents (Elt Ideal)) (Q : (⟨S11008x32, .f32⟩ : BufTy).Contents (Elt Ideal)) (hQ : Cert.Spec.AllReal Q) (i : Fin 11008) (h : Fin 4096) :
    ∃ r : ℝ, Cert.Spec.wUp P Q i h = (r : EReal) := by
  obtain ⟨q, hq⟩ := hQ (ix2 i (Cert.Spec.group4096 h))
  unfold Cert.Spec.wUp Cert.Spec.wt
  rw [hq, ← EReal.coe_mul]
  exact ⟨_, rfl⟩

/-- The dequantized down weight with real scales is a real. -/
theorem wDown_real (P : (⟨S4096x1376, .i32⟩ : BufTy).Contents (Elt Ideal)) (Q : (⟨S4096x86, .f32⟩ : BufTy).Contents (Elt Ideal)) (hQ : Cert.Spec.AllReal Q) (h : Fin 4096) (i : Fin 11008) :
    ∃ r : ℝ, Cert.Spec.wDown P Q h i = (r : EReal) := by
  obtain ⟨q, hq⟩ := hQ (ix2 h (Cert.Spec.group11008 i))
  unfold Cert.Spec.wDown Cert.Spec.wt
  rw [hq, ← EReal.coe_mul]
  exact ⟨_, rfl⟩

/-- The gate's pre-activation at token `(b, s)`, entry `i`: the row's contraction with row `i` of the gate weight, a real. -/
theorem gate_at (x0 : (⟨S2x2048x4096, .f32⟩ : BufTy).Contents (Elt Ideal)) (P : (⟨S11008x512, .i32⟩ : BufTy).Contents (Elt Ideal)) (Q : (⟨S11008x32, .f32⟩ : BufTy).Contents (Elt Ideal))
    (h0 : Cert.Spec.AllReal x0) (hQ : Cert.Spec.AllReal Q) (b : Fin 2) (s : Fin 2048) (i : Fin 11008) :
    val_main_v80 (F := Ideal) x0 P Q (ix3 b s i) = ∑ k : Fin 4096, x0 (ix3 b s k) * Cert.Spec.wUp P Q i k
      ∧ ∃ r : ℝ, ∑ k : Fin 4096, x0 (ix3 b s k) * Cert.Spec.wUp P Q i k = (r : EReal) := by
  have el : ∀ k : Fin 4096, lidx_main_v78 (ix3 b s i) k = ix3 b s k := fun k =>
    funext fun a => match a with | ⟨0, _⟩ => rfl | ⟨1, _⟩ => rfl | ⟨2, _⟩ => rfl
  have er : ∀ k : Fin 4096, ridx_main_v78 (ix3 b s i) k = ix2 i k := fun k =>
    funext fun a => match a with | ⟨0, _⟩ => rfl | ⟨1, _⟩ => rfl
  have es : idx_main_v79 (ix3 b s i) = ix3 b s (0 : Fin 1) :=
    funext fun a => match a with | ⟨0, _⟩ => rfl | ⟨1, _⟩ => rfl | ⟨2, _⟩ => rfl
  rw [val_main_v80_apply, val_main_v78_apply, val_main_v79_apply, es]
  simp only [el, er, gateW_at]
  exact scaledRow x0 h0 (fun k => Cert.Spec.wUp P Q i k) (fun k => wUp_real P Q hQ i k) b s

/-- The up projection at token `(b, s)`, entry `i`: the row's contraction with row `i` of the up weight, a real. -/
theorem up_at (x0 : (⟨S2x2048x4096, .f32⟩ : BufTy).Contents (Elt Ideal)) (P : (⟨S11008x512, .i32⟩ : BufTy).Contents (Elt Ideal)) (Q : (⟨S11008x32, .f32⟩ : BufTy).Contents (Elt Ideal))
    (h0 : Cert.Spec.AllReal x0) (hQ : Cert.Spec.AllReal Q) (b : Fin 2) (s : Fin 2048) (i : Fin 11008) :
    val_main_v84 (F := Ideal) x0 P Q (ix3 b s i) = ∑ k : Fin 4096, x0 (ix3 b s k) * Cert.Spec.wUp P Q i k
      ∧ ∃ r : ℝ, ∑ k : Fin 4096, x0 (ix3 b s k) * Cert.Spec.wUp P Q i k = (r : EReal) := by
  have el : ∀ k : Fin 4096, lidx_main_v82 (ix3 b s i) k = ix3 b s k := fun k =>
    funext fun a => match a with | ⟨0, _⟩ => rfl | ⟨1, _⟩ => rfl | ⟨2, _⟩ => rfl
  have er : ∀ k : Fin 4096, ridx_main_v82 (ix3 b s i) k = ix2 i k := fun k =>
    funext fun a => match a with | ⟨0, _⟩ => rfl | ⟨1, _⟩ => rfl
  have es : idx_main_v83 (ix3 b s i) = ix3 b s (0 : Fin 1) :=
    funext fun a => match a with | ⟨0, _⟩ => rfl | ⟨1, _⟩ => rfl | ⟨2, _⟩ => rfl
  rw [val_main_v84_apply, val_main_v82_apply, val_main_v83_apply, es]
  simp only [el, er, upW_at]
  exact scaledRow x0 h0 (fun k => Cert.Spec.wUp P Q i k) (fun k => wUp_real P Q hQ i k) b s

/-- The gate: the program's negate, exponential, add and divide are the logistic function's definition. -/
theorem silu_at (x0 : (⟨S2x2048x4096, .f32⟩ : BufTy).Contents (Elt Ideal)) (P : (⟨S11008x512, .i32⟩ : BufTy).Contents (Elt Ideal)) (Q : (⟨S11008x32, .f32⟩ : BufTy).Contents (Elt Ideal)) (j : S2x2048x11008.Idx) :
    val_main_v81 (F := Ideal) x0 P Q j = Cert.Spec.silu (val_main_v80 (F := Ideal) x0 P Q j) := by
  rw [val_main_v81_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.ofBits_def, litOne]
  rfl

/-- `z · σ z` of a real is a real. -/
theorem silu_real (z : ℝ) : ∃ r : ℝ, Cert.Spec.silu (z : EReal) = (r : EReal) := by
  unfold Cert.Spec.silu
  rw [Ideal.logistic_coe z, ← EReal.coe_mul]
  exact ⟨_, rfl⟩

/-- The gated intermediate at token `(b, s)`, entry `i`, a real. -/
theorem inter_at (x0 : (⟨S2x2048x4096, .f32⟩ : BufTy).Contents (Elt Ideal)) (Pg Pu : (⟨S11008x512, .i32⟩ : BufTy).Contents (Elt Ideal)) (Qg Qu : (⟨S11008x32, .f32⟩ : BufTy).Contents (Elt Ideal))
    (h0 : Cert.Spec.AllReal x0) (hg : Cert.Spec.AllReal Qg) (hu : Cert.Spec.AllReal Qu) (b : Fin 2) (s : Fin 2048) (i : Fin 11008) :
    val_main_v85 (F := Ideal) x0 Pg Pu Qg Qu (ix3 b s i)
        = (∑ k : Fin 4096, x0 (ix3 b s k) * Cert.Spec.wUp Pu Qu i k)
          * Cert.Spec.silu (∑ k : Fin 4096, x0 (ix3 b s k) * Cert.Spec.wUp Pg Qg i k)
      ∧ ∃ r : ℝ, (∑ k : Fin 4096, x0 (ix3 b s k) * Cert.Spec.wUp Pu Qu i k)
          * Cert.Spec.silu (∑ k : Fin 4096, x0 (ix3 b s k) * Cert.Spec.wUp Pg Qg i k) = (r : EReal) := by
  obtain ⟨eg, g, hgr⟩ := gate_at x0 Pg Qg h0 hg b s i
  obtain ⟨eu, u, hur⟩ := up_at x0 Pu Qu h0 hu b s i
  rw [val_main_v85_apply, silu_at, eg, eu]
  refine ⟨rfl, ?_⟩
  obtain ⟨r, hr⟩ := silu_real g
  rw [hgr, hur, hr, ← EReal.coe_mul]
  exact ⟨_, rfl⟩

/-- Every entry of the intermediate is a real. -/
theorem inter_real (x0 : (⟨S2x2048x4096, .f32⟩ : BufTy).Contents (Elt Ideal)) (Pg Pu : (⟨S11008x512, .i32⟩ : BufTy).Contents (Elt Ideal)) (Qg Qu : (⟨S11008x32, .f32⟩ : BufTy).Contents (Elt Ideal))
    (h0 : Cert.Spec.AllReal x0) (hg : Cert.Spec.AllReal Qg) (hu : Cert.Spec.AllReal Qu) (j : S2x2048x11008.Idx) :
    ∃ r : ℝ, val_main_v85 (F := Ideal) x0 Pg Pu Qg Qu j = (r : EReal) := by
  obtain ⟨b, s, i, rfl⟩ : ∃ (b : Fin 2) (s : Fin 2048) (i : Fin 11008), j = ix3 b s i := ⟨j 0, j 1, j 2, eq_ix3 j⟩
  obtain ⟨e, r, hr⟩ := inter_at x0 Pg Pu Qg Qu h0 hg hu b s i
  exact ⟨r, e.trans hr⟩

/-! ## The second scale, the down projection and the residual -/

/-- The scale of a row of the real intermediate is a positive real. -/
theorem scale2_pos (x0 : (⟨S2x2048x4096, .f32⟩ : BufTy).Contents (Elt Ideal)) (Pg Pu : (⟨S11008x512, .i32⟩ : BufTy).Contents (Elt Ideal)) (Qg Qu : (⟨S11008x32, .f32⟩ : BufTy).Contents (Elt Ideal))
    (h0 : Cert.Spec.AllReal x0) (hg : Cert.Spec.AllReal Qg) (hu : Cert.Spec.AllReal Qu) (b : Fin 2) (s : Fin 2048) :
    ∃ t : ℝ, 0 < t ∧ val_main_v92 (F := Ideal) x0 Pg Pu Qg Qu (ix3 b s (0 : Fin 1)) = (t : EReal) := by
  rw [val_main_v92_apply, val_main_v90_apply, val_main_v88_apply, val_main_v89_apply, val_main_cst_14_apply,
    val_main_v91_apply, val_main_cst_15_apply]
  unfold val_main_v87
  exact hostScale_pos (val_main_v86 (F := Ideal) x0 Pg Pu Qg Qu)
    (fun i => abs_real_ne_top (inter_real x0 Pg Pu Qg Qu h0 hg hu i))
    reducesTo_S2x2048x11008_S2x2048_d2 (by decide) h_S_ _

/-- The output at token `(b, s)`, entry `h`: the intermediate's contraction with row `h` of the down weight, plus the
    residual. -/
theorem out_at (x0 x1 : (⟨S2x2048x4096, .f32⟩ : BufTy).Contents (Elt Ideal)) (Pg Pu : (⟨S11008x512, .i32⟩ : BufTy).Contents (Elt Ideal)) (Pd : (⟨S4096x1376, .i32⟩ : BufTy).Contents (Elt Ideal)) (Qg Qu : (⟨S11008x32, .f32⟩ : BufTy).Contents (Elt Ideal)) (Qd : (⟨S4096x86, .f32⟩ : BufTy).Contents (Elt Ideal))
    (h0 : Cert.Spec.AllReal x0) (hg : Cert.Spec.AllReal Qg) (hu : Cert.Spec.AllReal Qu) (hd : Cert.Spec.AllReal Qd)
    (b : Fin 2) (s : Fin 2048) (h : Fin 4096) :
    val_main_v98 (F := Ideal) x0 x1 Pg Pu Pd Qg Qu Qd (ix3 b s h)
      = (∑ i : Fin 11008, ((∑ k : Fin 4096, x0 (ix3 b s k) * Cert.Spec.wUp Pu Qu i k)
            * Cert.Spec.silu (∑ k : Fin 4096, x0 (ix3 b s k) * Cert.Spec.wUp Pg Qg i k)) * Cert.Spec.wDown Pd Qd h i)
        + x1 (ix3 b s h) := by
  have el : ∀ i : Fin 11008, lidx_main_v95 (ix3 b s h) i = ix3 b s i := fun i =>
    funext fun a => match a with | ⟨0, _⟩ => rfl | ⟨1, _⟩ => rfl | ⟨2, _⟩ => rfl
  have er : ∀ i : Fin 11008, ridx_main_v95 (ix3 b s h) i = ix2 h i := fun i =>
    funext fun a => match a with | ⟨0, _⟩ => rfl | ⟨1, _⟩ => rfl
  have es : idx_main_v96 (ix3 b s h) = ix3 b s (0 : Fin 1) :=
    funext fun a => match a with | ⟨0, _⟩ => rfl | ⟨1, _⟩ => rfl | ⟨2, _⟩ => rfl
  have e94 : ∀ i : Fin 11008, val_main_v94 (F := Ideal) x0 Pg Pu Qg Qu (ix3 b s i)
      = Ideal.div (val_main_v85 (F := Ideal) x0 Pg Pu Qg Qu (ix3 b s i))
          (val_main_v92 (F := Ideal) x0 Pg Pu Qg Qu (ix3 b s (0 : Fin 1))) := fun i => by
    have e93 : idx_main_v93 (ix3 b s i) = ix3 b s (0 : Fin 1) :=
      funext fun a => match a with | ⟨0, _⟩ => rfl | ⟨1, _⟩ => rfl | ⟨2, _⟩ => rfl
    rw [val_main_v94_apply, val_main_v93_apply, e93]
    rfl
  rw [val_main_v98_apply, val_main_v97_apply, val_main_v95_apply, val_main_v96_apply, es]
  simp only [el, er, downW_at, e94]
  have hc := (cancel (fun i : Fin 11008 => val_main_v85 (F := Ideal) x0 Pg Pu Qg Qu (ix3 b s i))
    (fun i => Cert.Spec.wDown Pd Qd h i) _ (fun i => inter_real x0 Pg Pu Qg Qu h0 hg hu _)
    (fun i => wDown_real Pd Qd hd h i) (scale2_pos x0 Pg Pu Qg Qu h0 hg hu b s)).1
  have hi : ∑ i : Fin 11008, val_main_v85 (F := Ideal) x0 Pg Pu Qg Qu (ix3 b s i) * Cert.Spec.wDown Pd Qd h i
      = ∑ i : Fin 11008, ((∑ k : Fin 4096, x0 (ix3 b s k) * Cert.Spec.wUp Pu Qu i k)
          * Cert.Spec.silu (∑ k : Fin 4096, x0 (ix3 b s k) * Cert.Spec.wUp Pg Qg i k)) * Cert.Spec.wDown Pd Qd h i :=
    Finset.sum_congr rfl fun i _ => by rw [(inter_at x0 Pg Pu Qg Qu h0 hg hu b s i).1]
  exact congrArg (· + x1 (ix3 b s h)) (hc.trans hi)

/-! ## The reference's value is the specification's result -/

/-- Token row `b · 2048 + s` of an array, read back at `(b, s)`. -/
theorem row_rowOf (X : Cert.Spec.SX.Idx → EReal) (b : Fin 2) (s : Fin 2048) (h k : Fin 4096) :
    Cert.Spec.row X (Cert.Spec.rowOf (ix3 b s h)) k = X (ix3 b s k) := by
  have hb := b.isLt
  have hs := s.isLt
  unfold Cert.Spec.row
  refine congrArg X (funext fun a => ?_)
  match a with
  | ⟨0, _⟩ => exact Fin.ext (show (b.val * 2048 + s.val) / 2048 = b.val by omega)
  | ⟨1, _⟩ => exact Fin.ext (show (b.val * 2048 + s.val) % 2048 = s.val by omega)
  | ⟨2, _⟩ => rfl

/-- THE REFERENCE'S VALUE: with real activations and real weight scales the array the reference ends with is the
    specification's result. The residual needs no finiteness: it is only added. -/
theorem val_eq_result
    (x0 x1 : (⟨S2x2048x4096, .f32⟩ : BufTy).Contents (Elt Ideal)) (x2 x3 : (⟨S11008x512, .i32⟩ : BufTy).Contents (Elt Ideal))
    (x4 : (⟨S4096x1376, .i32⟩ : BufTy).Contents (Elt Ideal)) (x5 x6 : (⟨S11008x32, .f32⟩ : BufTy).Contents (Elt Ideal))
    (x7 : (⟨S4096x86, .f32⟩ : BufTy).Contents (Elt Ideal))
    (h0 : Cert.Spec.AllReal x0) (h5 : Cert.Spec.AllReal x5) (h6 : Cert.Spec.AllReal x6) (h7 : Cert.Spec.AllReal x7) :
    Cert.ReferenceIdeal.Read.val_main_v98 (F := Ideal) x0 x1 x2 x3 x4 x5 x6 x7 = Cert.Spec.result x0 x1 x2 x3 x4 x5 x6 x7 := by
  funext j
  obtain ⟨b, s, h, rfl⟩ : ∃ (b : Fin 2) (s : Fin 2048) (h : Fin 4096), j = ix3 b s h := ⟨j 0, j 1, j 2, eq_ix3 j⟩
  rw [out_at x0 x1 x2 x3 x4 x5 x6 x7 h0 h5 h6 h7 b s h]
  show _ = Cert.Spec.out x0 x1 x2 x3 x4 x5 x6 x7 (Cert.Spec.rowOf (ix3 b s h)) h
  unfold Cert.Spec.out Cert.Spec.inter Cert.Spec.proj
  simp only [row_rowOf]

end Cert.ReferenceIdeal.RefValue

end
-- ==== Proof.Finite.lean ====
/-
  From the precondition to real entries.

  The precondition says, of each of the five float arrays, that every entry's absolute value is below
  plus infinity, and joins the five with "and". Over the extended reals the absolute value of `x` is
  `max x (-x)`, which is plus infinity exactly when `x` is one of the two infinities; so the
  precondition holds only if every entry of each of the five arrays is a real number.
-/
import proofs.«401815_j72722386256028_3_alg».proof.Pre_finite_inputs
import proofs.«401815_j72722386256028_3_alg».proof.Proof.Gen.Pre_finite_inputs
import proofs.«401815_j72722386256028_3_alg».proof.Proof.Spec
import Idealize.ShloMosaic.Lib.ReduceAll
import Idealize.ShloMosaic.PureOps.Ideal
import Idealize.ShloMosaic.Lib.ValueIdx

noncomputable section

namespace Cert.Finite

open Idealize.ShloMosaic Cert.Pre_finite_inputs

/-- The pattern `0x7F800000` is plus infinity. -/
theorem inf_bits : Ideal.ofBits .f32 0x7F800000#32 = (⊤ : EReal) := by
  simp [Ideal.ofBits, Ideal.ieee]

/-- An extended real whose absolute value is below plus infinity is a real number. -/
theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- The scalar shape has one index. -/
instance subsingleton_scalarIdx : Subsingleton S_.Idx := ⟨fun a b => funext fun d => d.elim0⟩

/-- One array: if "all entries have absolute value below plus infinity" came out true, every entry is real. -/
theorem allReal_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
          (cmpf .olt (Host.absf x) (broadcastInDim S ![] hb (constant (F := Ideal) S_ .f32 0x7F800000#32)))
          (constantI S_ 1 1#1) hr hu ValueIdx.ix0 = 1#1) :
    Cert.Spec.AllReal x := by
  intro i
  have hi := Host.reduce_andi_all _ _ hr hu ValueIdx.ix0 e i
  exact real_of_abs_lt_inf (x i) hi

/-- The precondition gives: every entry of the activations, the residual and the three scale arrays is a real number. -/
theorem allReal_of_pre
    (x0 x1 : FVec Ideal S2x2048x4096 .f32) (x2 x3 : IVec S11008x512 32) (x4 : IVec S4096x1376 32)
    (x5 x6 : FVec Ideal S11008x32 .f32) (x7 : FVec Ideal S4096x86 .f32)
    (h : Cert.Pre_finite_inputs.fn (F := Ideal) x0 x1 x2 x3 x4 x5 x6 x7 = fun _ => 1#1) :
    Cert.Spec.AllReal x0 ∧ Cert.Spec.AllReal x1 ∧ Cert.Spec.AllReal x5 ∧ Cert.Spec.AllReal x6 ∧ Cert.Spec.AllReal x7 := by
  have h0 := congrFun h ValueIdx.ix0
  dsimp only [Cert.Pre_finite_inputs.fn, Cert.Pre_finite_inputs.fn_part1, andi] at h0
  -- the five conjuncts, the last joined first
  obtain ⟨h0123, h7⟩ := IntOp.andi_eq_one.1 h0
  obtain ⟨h012, h6⟩ := IntOp.andi_eq_one.1 h0123
  obtain ⟨h01, h5⟩ := IntOp.andi_eq_one.1 h012
  obtain ⟨hx0, hx1⟩ := IntOp.andi_eq_one.1 h01
  exact ⟨allReal_of_all x0 _ _ _ hx0, allReal_of_all x1 _ _ _ hx1, allReal_of_all x5 _ _ _ h5,
    allReal_of_all x6 _ _ _ h6, allReal_of_all x7 _ _ _ h7⟩

end Cert.Finite

end
-- ==== Proof.lean ====
/-
  The certificate of the fused int4-weight gated MLP kernel against its jnp reference.

  Both programs compute, over the extended reals and for finite float inputs, the array `Cert.Spec.result` of the
  arguments: with the three packed weight matrices dequantized (signed nibbles times group scales),
  `out = (silu-gated projection of x onto Wg, Wu) · Wdᵀ + residual`. The kernel computes exactly that, in two launched
  regions around host relayouts, the down projection accumulated over 86 weight groups. The reference divides each
  token row by a positive per-row scale before each matrix product and multiplies by the same scale after it; on
  real numbers the scale cancels, which is where finiteness of the inputs is used.

  The frames of the two kernel programs are the run of @main through its five items; the reference's frame is its
  run with the result dropped; the idealization rewrote nothing, so `preserves` asks nothing.
-/
import proofs.«401815_j72722386256028_3_alg».proof.Defs
import proofs.«401815_j72722386256028_3_alg».proof.Proof.Gen.Kernel
import proofs.«401815_j72722386256028_3_alg».proof.Proof.Gen.KernelIdeal
import proofs.«401815_j72722386256028_3_alg».proof.Proof.Gen.ReferenceIdeal
import proofs.«401815_j72722386256028_3_alg».proof.Proof.Gen.Pre_finite_inputs
import proofs.«401815_j72722386256028_3_alg».proof.Proof.Gen.ReferenceIdeal.Run
import proofs.«401815_j72722386256028_3_alg».proof.Proof.Gen.ReferenceIdeal.Read
import proofs.«401815_j72722386256028_3_alg».proof.Proof.KRun
import proofs.«401815_j72722386256028_3_alg».proof.Proof.KiRun
import proofs.«401815_j72722386256028_3_alg».proof.Proof.KiValue
import proofs.«401815_j72722386256028_3_alg».proof.Proof.RefValue
import proofs.«401815_j72722386256028_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end, nothing faulting, its arguments unchanged. -/
theorem frame_k : Cert.frame_Kernel := fun m ρ _ => Cert.Kernel.Fr.frame m ρ

/-- So does the kernel read over the extended reals. -/
theorem frame_ki : Cert.frame_KernelIdeal := fun m ρ _ => Cert.KernelIdeal.Fr.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Run from memories agreeing on the arguments, whose float entries the precondition makes real numbers, both
    programs end with `Cert.Spec.result` of the arguments: the kernel by the contents its run's fold ends with, the
    reference by its run's term read index by index, where the per-row scales cancel. -/
theorem algebraic : Cert.algebraic_KernelIdeal_ReferenceIdeal := by
  intro m ρ m' ρ' hpre hagree
  have hfin := fun c : Dev Cert.KernelIdeal.nD => Cert.Finite.allReal_of_pre _ _ _ _ _ _ _ _ (hpre c)
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run (Cert.KernelIdeal.defs (F := Ideal)) _ _).mono (fun r h c => ?_) (Cert.KernelIdeal.Fr.run_main (F := Ideal) m ρ)
    exact ⟨(h c _ (Cert.KernelIdeal.Fr.mem_uc Cert.KernelIdeal.main_v8 (by decide))).trans (Cert.KernelIdeal.Val.result_value m c),
      (h c _ (Cert.KernelIdeal.Fr.mem_uc Cert.KernelIdeal.main_arg0 (by decide))).trans (Cert.KernelIdeal.Fr.W5_main_arg0 m c),
      (h c _ (Cert.KernelIdeal.Fr.mem_uc Cert.KernelIdeal.main_arg1 (by decide))).trans (Cert.KernelIdeal.Fr.W5_main_arg1 m c),
      (h c _ (Cert.KernelIdeal.Fr.mem_uc Cert.KernelIdeal.main_arg2 (by decide))).trans (Cert.KernelIdeal.Fr.W5_main_arg2 m c),
      (h c _ (Cert.KernelIdeal.Fr.mem_uc Cert.KernelIdeal.main_arg3 (by decide))).trans (Cert.KernelIdeal.Fr.W5_main_arg3 m c),
      (h c _ (Cert.KernelIdeal.Fr.mem_uc Cert.KernelIdeal.main_arg4 (by decide))).trans (Cert.KernelIdeal.Fr.W5_main_arg4 m c),
      (h c _ (Cert.KernelIdeal.Fr.mem_uc Cert.KernelIdeal.main_arg5 (by decide))).trans (Cert.KernelIdeal.Fr.W5_main_arg5 m c),
      (h c _ (Cert.KernelIdeal.Fr.mem_uc Cert.KernelIdeal.main_arg6 (by decide))).trans (Cert.KernelIdeal.Fr.W5_main_arg6 m c),
      (h c _ (Cert.KernelIdeal.Fr.mem_uc Cert.KernelIdeal.main_arg7 (by decide))).trans (Cert.KernelIdeal.Fr.W5_main_arg7 m c)⟩
  · refine (θ_run (Cert.ReferenceIdeal.defs (F := Ideal)) _ _).mono (fun r h c => ⟨(h c).1.trans ?_, (h c).2⟩) (Cert.ReferenceIdeal.Value.run (F := Ideal) m' ρ')
    rw [Cert.ReferenceIdeal.Read.val_main_v98_eq, (hagree c).1, (hagree c).2.1, (hagree c).2.2.1, (hagree c).2.2.2.1, (hagree c).2.2.2.2.1,
      (hagree c).2.2.2.2.2.1, (hagree c).2.2.2.2.2.2.1, (hagree c).2.2.2.2.2.2.2]
    exact Cert.ReferenceIdeal.RefValue.val_eq_result _ _ _ _ _ _ _ _ (hfin c).1 (hfin c).2.2.1 (hfin c).2.2.2.1 (hfin c).2.2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
